-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2x128 : Shape := ⟨3, ![1024, 2, 128]⟩
abbrev S1024 : Shape := ⟨1, ![1024]⟩
abbrev S65536x128 : Shape := ⟨2, ![65536, 128]⟩
abbrev S65536 : Shape := ⟨1, ![65536]⟩
abbrev S_ : Shape := ⟨0, ![]⟩

class Facts : Prop where
  bcast_S_S1024x2x128 : S_.BroadcastsInDim S1024x2x128 (![] : Fin 0 → Fin S1024x2x128.rank)
  reducesTo_S1024x2x128_S_d0_1_2 : S1024x2x128.ReducesTo [0, 1, 2] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn {F : FTy → Type} [FloatOps F] (main_arg0 : FVec F S1024x2x128 .f32) (main_arg1 : IVec S1024 32) (main_arg2 : FVec F S65536x128 .f32) (main_arg3 : IVec S65536 32) : IVec S_ 1 :=
  let main_v0 : FVec F S1024x2x128 .f32 := Host.absf main_arg0
  let main_cst : FVec F S_ .f32 := constant S_ .f32 0x7F800000#32
  let main_v1 : FVec F S1024x2x128 .f32 := broadcastInDim S1024x2x128 ![] bcast_S_S1024x2x128 main_cst
  let main_v2 : IVec S1024x2x128 1 := cmpf .olt main_v0 main_v1
  let main_c : IVec S_ 1 := constantI S_ 1 1#1
  let main_v3 : IVec S_ 1 := (fun x v => Host.reduce IntOp.andi x v reducesTo_S1024x2x128_S_d0_1_2 h_S_) main_v2 main_c
  let main_v4 : FVec F S65536x128 .f32 := Host.absf main_arg2
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  main_v8
-- ==== Kernel.lean ====
abbrev S1024x2x128 : Shape := ⟨3, ![1024, 2, 128]⟩
abbrev S1024 : Shape := ⟨1, ![1024]⟩
abbrev S65536x128 : Shape := ⟨2, ![65536, 128]⟩
abbrev S65536 : Shape := ⟨1, ![65536]⟩
abbrev S1024x1x128 : Shape := ⟨3, ![1024, 1, 128]⟩
abbrev S1024x128 : Shape := ⟨2, ![1024, 128]⟩
abbrev S64512x128 : Shape := ⟨2, ![64512, 128]⟩
abbrev S64512 : Shape := ⟨1, ![64512]⟩
abbrev S1024x1 : Shape := ⟨2, ![1024, 1]⟩
abbrev S1x65536 : Shape := ⟨2, ![1, 65536]⟩
abbrev S512x128 : Shape := ⟨2, ![512, 128]⟩
abbrev S512x1 : Shape := ⟨2, ![512, 1]⟩
abbrev S2048x128 : Shape := ⟨2, ![2048, 128]⟩
abbrev S1x2048 : Shape := ⟨2, ![1, 2048]⟩
abbrev S128x2048 : Shape := ⟨2, ![128, 2048]⟩
abbrev S512x2048 : Shape := ⟨2, ![512, 2048]⟩
abbrev S512 : Shape := ⟨1, ![512]⟩
abbrev S_ : Shape := ⟨0, ![]⟩

abbrev nBuf : Space → Nat
  | .hbm => 29
  | .vmem => 19
  | .smem => 0
  | _ => 0

abbrev bufTy : (tb : Table) → Fin (tcTables nBuf tb) → BufTy
  | .hbm, ⟨0, _⟩ => ⟨S1024x2x128, .f32⟩
  | .hbm, ⟨1, _⟩ => ⟨S1024, .i32⟩
  | .hbm, ⟨2, _⟩ => ⟨S65536x128, .f32⟩
  | .hbm, ⟨3, _⟩ => ⟨S65536, .i32⟩
  | .hbm, ⟨4, _⟩ => ⟨S1024x1x128, .f32⟩
  | .hbm, ⟨5, _⟩ => ⟨S1024x128, .f32⟩
  | .hbm, ⟨6, _⟩ => ⟨S1024x1x128, .f32⟩
  | .hbm, ⟨7, _⟩ => ⟨S1024x128, .f32⟩
  | .hbm, ⟨8, _⟩ => ⟨S64512x128, .f32⟩
  | .hbm, ⟨9, _⟩ => ⟨S65536x128, .f32⟩
  | .hbm, ⟨10, _⟩ => ⟨S64512, .i32⟩
  | .hbm, ⟨11, _⟩ => ⟨S65536, .i32⟩
  | .hbm, ⟨12, _⟩ => ⟨S1024x1, .i32⟩
  | .hbm, ⟨13, _⟩ => ⟨S1x65536, .i32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x1, .i32⟩
  | .local _ .vmem, ⟨3, _⟩ => ⟨S512x1, .i32⟩
  | .local _ .vmem, ⟨4, _⟩ => ⟨S2048x128, .f32⟩
  | .local _ .vmem, ⟨5, _⟩ => ⟨S2048x128, .f32⟩
  | .local _ .vmem, ⟨6, _⟩ => ⟨S1x2048, .i32⟩
  | .local _ .vmem, ⟨7, _⟩ => ⟨S1x2048, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | _, _ => ⟨S1024x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v79 : BitVec 1 := Scalar.cmpi .eq arg1 c31_i32
  let v80 : BitVec 32 := Scalar.extui v79
  let c0_i32_39 : BitVec 32 := 0#32
  let v81 : BitVec 1 := Scalar.cmpi .ne v80 c0_i32_39
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S1024x2x128_S1024x1x128_0_0_0 : S1024x2x128.Slices ![0, 0, 0] S1024x1x128
  shapeCasts_S1024x1x128_S1024x128 : S1024x1x128.ShapeCasts S1024x128
  slices_S1024x2x128_S1024x1x128_0_1_0 : S1024x2x128.Slices ![0, 1, 0] S1024x1x128
  slices_S65536x128_S64512x128_0_0 : S65536x128.Slices ![0, 0] S64512x128
  concatenates_S1024x128_S64512x128_S65536x128_d0 : Shape.Concatenates [S1024x128, S64512x128] S65536x128 0
  slices_S65536_S64512_0 : S65536.Slices ![0] S64512
  concatenates_S1024_S64512_S65536_d0 : Shape.Concatenates [S1024, S64512] S65536 0
  shapeCasts_S1024_S1024x1 : S1024.ShapeCasts S1024x1
  shapeCasts_S65536_S1x65536 : S65536.ShapeCasts S1x65536
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  iota_S512x1_d0_w32 : S512x1.Iotas .tc 32 [0]
  iota_S1x2048_d1_w32 : S1x2048.Iotas .tc 32 [1]
  broadcasts_S512x1_S512x2048 : S512x1.Broadcasts S512x2048
  broadcasts_S1x2048_S512x2048 : S1x2048.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x2048_S512 : S512x2048.Reduces [1] S512
  shapeCasts_S512_S512x1 : S512.ShapeCasts S512x1
  natLt_1_32 : 1 < 32
  reducesTo_S1024x1_S_d0_1 : S1024x1.ReducesTo [0, 1] S_
  h_S_ : 0 < S_.numel
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .f32 = 32 ∨ (Rect.block (s := S1024x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S1024x1.size a
  hwx0_1 : ∀ i : grid0.Coords, EltTy.bits .i32 = 32 ∨ (Rect.block (s := S1024x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x65536.size a
  hwx0_3 : ∀ i : grid0.Coords, EltTy.bits .i32 = 32 ∨ (Rect.block (s := S1x65536) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S1024x1.size a
  hwx0_4 : ∀ i : grid0.Coords, EltTy.bits .f32 = 32 ∨ (Rect.block (s := S1024x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S1024x1.size a
  hwx0_5 : ∀ i : grid0.Coords, EltTy.bits .f32 = 32 ∨ (Rect.block (s := S1024x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S1024x1.size a
  hwx0_6 : ∀ i : grid0.Coords, EltTy.bits .f32 = 32 ∨ (Rect.block (s := S1024x1) S512x1.size (cc0_transform_6 i) (hinb0_6 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v3) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x2x128 : Shape := ⟨3, ![1024, 2, 128]⟩
abbrev S1024 : Shape := ⟨1, ![1024]⟩
abbrev S65536x128 : Shape := ⟨2, ![65536, 128]⟩
abbrev S65536 : Shape := ⟨1, ![65536]⟩
abbrev S1024x1x128 : Shape := ⟨3, ![1024, 1, 128]⟩
abbrev S1024x128 : Shape := ⟨2, ![1024, 128]⟩
abbrev S64512x128 : Shape := ⟨2, ![64512, 128]⟩
abbrev S64512 : Shape := ⟨1, ![64512]⟩
abbrev S128x65536 : Shape := ⟨2, ![128, 65536]⟩
abbrev S1024x65536 : Shape := ⟨2, ![1024, 65536]⟩
abbrev S_ : Shape := ⟨0, ![]⟩
abbrev S1024x1 : Shape := ⟨2, ![1024, 1]⟩
abbrev S1024x2 : Shape := ⟨2, ![1024, 2]⟩
abbrev S1x65536 : Shape := ⟨2, ![1, 65536]⟩

abbrev nBuf : Space → Nat
  | .hbm => 120
  | .vmem => 0
  | .smem => 0
  | _ => 0

abbrev bufTy : (tb : Table) → Fin (tcTables nBuf tb) → BufTy
  | .hbm, ⟨0, _⟩ => ⟨S1024x2x128, .f32⟩
  | .hbm, ⟨1, _⟩ => ⟨S1024, .i32⟩
  | .hbm, ⟨2, _⟩ => ⟨S65536x128, .f32⟩
  | .hbm, ⟨3, _⟩ => ⟨S65536, .i32⟩
  | .hbm, ⟨4, _⟩ => ⟨S1024x1x128, .f32⟩
  | .hbm, ⟨5, _⟩ => ⟨S1024x128, .f32⟩
  | .hbm, ⟨6, _⟩ => ⟨S1024x1x128, .f32⟩
  | .hbm, ⟨7, _⟩ => ⟨S1024x128, .f32⟩
  | .hbm, ⟨8, _⟩ => ⟨S64512x128, .f32⟩
  | .hbm, ⟨9, _⟩ => ⟨S65536x128, .f32⟩
  | .hbm, ⟨10, _⟩ => ⟨S64512, .i32⟩
  | .hbm, ⟨11, _⟩ => ⟨S65536, .i32⟩
  | .hbm, ⟨12, _⟩ => ⟨S128x65536, .f32⟩
  | .hbm, ⟨13, _⟩ => ⟨S1024x65536, .f32⟩
  | .hbm, ⟨14, _⟩ => ⟨S_, .f32⟩
  | .hbm, ⟨15, _⟩ => ⟨S1024x65536, .f32⟩
  | .hbm, ⟨16, _⟩ => ⟨S1024x65536, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x65536, .f32⟩
  | .hbm, ⟨21, _⟩ => ⟨S1024x65536, .f32⟩
  | .hbm, ⟨22, _⟩ => ⟨S1024, .i32⟩
  | .hbm, ⟨23, _⟩ => ⟨S_, .f32⟩
  | .hbm, ⟨24, _⟩ => ⟨S1024x65536, .f32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x1, .i32⟩
  | .hbm, ⟨41, _⟩ => ⟨S1024x2, .i32⟩
  | .hbm, ⟨42, _⟩ => ⟨S_, .f32⟩
  | .hbm, ⟨43, _⟩ => ⟨S1024, .f32⟩
  | .hbm, ⟨44, _⟩ => ⟨S1024x65536, .f32⟩
  | .hbm, ⟨45, _⟩ => ⟨S1024x1, .i32⟩
  | .hbm, ⟨46, _⟩ => ⟨S1x65536, .i32⟩
  | .hbm, ⟨47, _⟩ => ⟨S1024x65536, .i32⟩
  | .hbm, ⟨48, _⟩ => ⟨S1024x65536, .i32⟩
  | .hbm, ⟨49, _⟩ => ⟨S1024x65536, .i1⟩
  | .hbm, ⟨50, _⟩ => ⟨S1024x65536, .f32⟩
  | .hbm, ⟨51, _⟩ => ⟨S_, .f32⟩
  | .hbm, ⟨52, _⟩ => ⟨S1024x65536, .f32⟩
  | .hbm, ⟨53, _⟩ => ⟨S1024x65536, .f32⟩
  | .hbm, ⟨54, _⟩ => ⟨S1024x65536, .f32⟩
  | .hbm, ⟨55, _⟩ => ⟨S1024x65536, .f32⟩
  | .hbm, ⟨56, _⟩ => ⟨S1024x65536, .f32⟩
  | .hbm, ⟨57, _⟩ => ⟨S1024x65536, .f32⟩
  | .hbm, ⟨58, _⟩ => ⟨S_, .f32⟩
  | .hbm, ⟨59, _⟩ => ⟨S1024, .f32⟩
  | .hbm, ⟨60, _⟩ => ⟨S1024x1, .f32⟩
  | .hbm, ⟨61, _⟩ => ⟨S1024x1, .f32⟩
  | .hbm, ⟨62, _⟩ => ⟨S1024x65536, .f32⟩
  | .hbm, ⟨63, _⟩ => ⟨S1024x65536, .f32⟩
  | .hbm, ⟨64, _⟩ => ⟨S1024x65536, .f32⟩
  | .hbm, ⟨65, _⟩ => ⟨S_, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024x65536, .f32⟩
  | .hbm, ⟨71, _⟩ => ⟨S_, .f32⟩
  | .hbm, ⟨72, _⟩ => ⟨S1024, .f32⟩
  | .hbm, ⟨73, _⟩ => ⟨S1024x1, .f32⟩
  | .hbm, ⟨74, _⟩ => ⟨S1024x1, .f32⟩
  | .hbm, ⟨75, _⟩ => ⟨S1024x65536, .f32⟩
  | .hbm, ⟨76, _⟩ => ⟨S1024x65536, .f32⟩
  | .hbm, ⟨77, _⟩ => ⟨S_, .i32⟩
  | .hbm, ⟨78, _⟩ => ⟨S1024, .i32⟩
  | .hbm, ⟨79, _⟩ => ⟨S1024, .i1⟩
  | .hbm, ⟨80, _⟩ => ⟨S_, .i32⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S_, .i32⟩
  | .hbm, ⟨85, _⟩ => ⟨S1024, .i32⟩
  | .hbm, ⟨86, _⟩ => ⟨S1024, .i1⟩
  | .hbm, ⟨87, _⟩ => ⟨S_, .i32⟩
  | .hbm, ⟨88, _⟩ => ⟨S1024, .i32⟩
  | .hbm, ⟨89, _⟩ => ⟨S1024, .i32⟩
  | .hbm, ⟨90, _⟩ => ⟨S1024, .i32⟩
  | .hbm, ⟨91, _⟩ => ⟨S1024x1, .i32⟩
  | .hbm, ⟨92, _⟩ => ⟨S1024x1, .i32⟩
  | .hbm, ⟨93, _⟩ => ⟨S1024x2, .i32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S1024, .f32⟩
  | .hbm, ⟨108, _⟩ => ⟨S1024, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S1024, .f32⟩
  | .hbm, ⟨115, _⟩ => ⟨S1024, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S1024x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_11 : Ref sig .tc := ⟨.hbm, 77, rfl⟩
abbrev main_v60 : Ref sig .tc := ⟨.hbm, 78, rfl⟩
abbrev main_v61 : Ref sig .tc := ⟨.hbm, 79, rfl⟩
abbrev main_c_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_cst_19 : Ref sig .tc := ⟨.hbm, 106, rfl⟩
abbrev main_v81 : Ref sig .tc := ⟨.hbm, 107, rfl⟩
abbrev main_v82 : Ref sig .tc := ⟨.hbm, 108, rfl⟩
abbrev main_cst_20 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_cst_22 : Ref sig .tc := ⟨.hbm, 113, rfl⟩
abbrev main_v85 : Ref sig .tc := ⟨.hbm, 114, rfl⟩
abbrev main_v86 : Ref sig .tc := ⟨.hbm, 115, rfl⟩
abbrev main_cst_23 : Ref sig .tc := ⟨.hbm, 116, rfl⟩
abbrev main_v87 : Ref sig .tc := ⟨.hbm, 117, rfl⟩
abbrev main_cst_24 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  slices_S1024x2x128_S1024x1x128_0_0_0 : S1024x2x128.Slices ![0, 0, 0] S1024x1x128
  shapeCasts_S1024x1x128_S1024x128 : S1024x1x128.ShapeCasts S1024x128
  slices_S1024x2x128_S1024x1x128_0_1_0 : S1024x2x128.Slices ![0, 1, 0] S1024x1x128
  slices_S65536x128_S64512x128_0_0 : S65536x128.Slices ![0, 0] S64512x128
  concatenates_S1024x128_S64512x128_S65536x128_d0 : Shape.Concatenates [S1024x128, S64512x128] S65536x128 0
  slices_S65536_S64512_0 : S65536.Slices ![0] S64512
  concatenates_S1024_S64512_S65536_d0 : Shape.Concatenates [S1024, S64512] S65536 0
  transposes_S65536x128_S128x65536_1_0 : S65536x128.Transposes [1, 0] S128x65536
  bcast_S_S1024x65536 : S_.BroadcastsInDim S1024x65536 (![] : Fin 0 → Fin S1024x65536.rank)
  reducesTo_S1024x65536_S1024_d1 : S1024x65536.ReducesTo [1] S1024
  h_S_ : 0 < S_.numel
  bcast_S1024_S1024x1_0 : S1024.BroadcastsInDim S1024x1 (![0] : Fin 1 → Fin S1024x1.rank)
  bcast_S1024x1_S1024x65536_0_1 : S1024x1.BroadcastsInDim S1024x65536 (![0, 1] : Fin 2 → Fin S1024x65536.rank)
  bcast_S_S1024 : S_.BroadcastsInDim S1024 (![] : Fin 0 → Fin S1024.rank)
  concatenates_S1024x1_S1024x1_S1024x2_d1 : Shape.Concatenates [S1024x1, S1024x1] S1024x2 1
  bcast_S65536_S1x65536_1 : S65536.BroadcastsInDim S1x65536 (![1] : Fin 1 → Fin S1x65536.rank)
  bcast_S1x65536_S1024x65536_0_1 : S1x65536.BroadcastsInDim S1024x65536 (![0, 1] : Fin 2 → Fin S1024x65536.rank)
  reducesTo_S1024_S_d0 : S1024.ReducesTo [0] S_
  dot_S1024x128_S128x65536_S1024x65536_1_0_0_1_n_n_wf : DotDims.WF S1024x128 S128x65536 S1024x65536 [1] [0] [0] [1] [] []
  scatter_S1024x65536_S1024x2_S1024_n_01_01_1_wf : ScatterDims.WF S1024x65536 S1024x2 S1024 [] [0, 1] [0, 1] 1
  gather_S1024x65536_S1024x2_S1024_n_01_n_n_01_1_11_wf : GatherDims.WF S1024x65536 S1024x2 S1024 [] [0, 1] [] [0, 1] [] 1 ![1, 1]

variable [Facts₀]

def dot_S1024x128_S128x65536_S1024x65536_1_0_0_1_n_n : DotDims S1024x128 S128x65536 S1024x65536 where
  lhsContracting := [1]
  rhsContracting := [0]
  lhsNonContracting := [0]
  rhsNonContracting := [1]
  lhsBatch := []
  rhsBatch := []
  wf := dot_S1024x128_S128x65536_S1024x65536_1_0_0_1_n_n_wf
def scatter_S1024x65536_S1024x2_S1024_n_01_01_1 : ScatterDims S1024x65536 S1024x2 S1024 where
  updateWindowDims := []
  insertedWindowDims := [0, 1]
  scatterDimsToOperandDims := [0, 1]
  indexVectorDim := 1
  wf := scatter_S1024x65536_S1024x2_S1024_n_01_01_1_wf
def gather_S1024x65536_S1024x2_S1024_n_01_n_n_01_1_11 : GatherDims S1024x65536 S1024x2 S1024 where
  offsetDims := []
  collapsedSliceDims := [0, 1]
  operandBatchingDims := []
  startIndicesBatchingDims := []
  startIndexMap := [0, 1]
  indexVectorDim := 1
  sliceSizes := ![1, 1]
  wf := gather_S1024x65536_S1024x2_S1024_n_01_n_n_01_1_11_wf

class Facts : Prop extends Facts₀ where

variable [Facts]
-- ==== Proof.Spec.lean ====
/-
  The two programs' results as functions of four arrays, stated once and independently of either program.

  Both programs first form, by the same host operations, the anchors `X` (1024 rows of 128), the contrast
  rows `Y` (65536 rows of 128), the anchors' labels `lab` and the contrast rows' labels `ql`. Row `i` of the
  anchors is compared with every contrast row `j`; column `j = i` is the anchor's own other view.

  The kernel's form: the logit is the dot product times the constant `invT`; five sums over the columns
  (exponentials over the columns of another label; exponentials over every column but the own one; logits and
  the count over the columns of the same label other than the own one; the own column's logit), then
  `log`s and a quotient.

  The reference's form: the logit is the dot product divided by `tempW`, shifted by the row's maximum; masks are
  0/1 factors; the same sums, each from a zero; the own column read back at `(i, i)`.
-/
import Idealize.ShloMosaic.PureOps.Ideal.Laws
import Idealize.ShloMosaic.Lib.ValueIdx

noncomputable section

namespace SupCon

open Idealize.ShloMosaic Idealize.ShloMosaic.ValueIdx

/-- The kernel's multiplier: the reciprocal of the reference's divisor. -/
abbrev invT : EReal := ((134217728 / 9395241 : ℝ) : EReal)
/-- The reference's divisor, the binary value of its literal. -/
abbrev tempW : EReal := Ideal.ofBits .f32 0x3D8F5C29#32
abbrev zeroW : EReal := Ideal.ofBits .f32 0x00000000#32
abbrev negOneW : EReal := Ideal.ofBits .f32 0xBF800000#32
abbrev twoW : EReal := Ideal.ofBits .f32 0x40000000#32
abbrev nRowsW : EReal := Ideal.ofBits .f32 0x44800000#32
abbrev oneW : EReal := Ideal.ofBits .f32 0x3F800000#32
abbrev negInfW : EReal := Ideal.ofBits .f32 0xFF800000#32

abbrev SX : Shape := ⟨2, ![1024, 128]⟩
abbrev SY : Shape := ⟨2, ![65536, 128]⟩
abbrev SL : Shape := ⟨1, ![1024]⟩
abbrev SQ : Shape := ⟨1, ![65536]⟩

variable (X : SX.Idx → EReal) (Y : SY.Idx → EReal) (lab : SL.Idx → BitVec 32) (ql : SQ.Idx → BitVec 32)

/-- Anchor `i` against contrast row `j`. -/
def dot (i : Fin 1024) (j : Fin 65536) : EReal := ∑ d : Fin 128, X (ix2 i d) * Y (ix2 j d)

/-- Same label. -/
abbrev same (i : Fin 1024) (j : Fin 65536) : Prop := lab (ix1 i) = ql (ix1 j)
/-- The own column. -/
abbrev own (i : Fin 1024) (j : Fin 65536) : Prop := i.val = j.val

/-! ## The kernel's form -/

def sK (i : Fin 1024) (j : Fin 65536) : EReal := dot X Y i j * invT
def negK (i : Fin 1024) : EReal := ∑ j : Fin 65536, if same lab ql i j then 0 else Ideal.exp (sK X Y i j)
def selfK (i : Fin 1024) : EReal := ∑ j : Fin 65536, if own i j then 0 else Ideal.exp (sK X Y i j)
def posSumK (i : Fin 1024) : EReal := ∑ j : Fin 65536, if same lab ql i j ∧ ¬ own i j then sK X Y i j else 0
def cntK (i : Fin 1024) : EReal := ∑ j : Fin 65536, if same lab ql i j ∧ ¬ own i j then 1 else 0
def diagK (i : Fin 1024) : EReal := ∑ j : Fin 65536, if own i j then sK X Y i j else 0
def mlppK (i : Fin 1024) : EReal :=
  Ideal.div (posSumK X Y lab ql i - Ideal.log (negK X Y lab ql i) * cntK lab ql i) (cntK lab ql i)
def tripK (i : Fin 1024) : EReal := diagK X Y i - Ideal.log (selfK X Y i)

/-! ## The reference's form -/

def lR (i : Fin 1024) (j : Fin 65536) : EReal := Ideal.div (dot X Y i j) tempW
def maxR (i : Fin 1024) : EReal := (Finset.univ : Finset (Fin 65536)).fold max negInfW (lR X Y i)
def shR (i : Fin 1024) (j : Fin 65536) : EReal := lR X Y i j - maxR X Y i
/-- The label mask as a number. -/
def pos0R (i : Fin 1024) (j : Fin 65536) : EReal := if same lab ql i j then 1 else 0
/-- One everywhere but at the own column. -/
def selfMaskR (i : Fin 1024) (j : Fin 65536) : EReal := if own i j then zeroW else oneW
def negMaskR (i : Fin 1024) (j : Fin 65536) : EReal := (pos0R lab ql i j - oneW) * (pos0R lab ql i j - oneW)
def posMaskR (i : Fin 1024) (j : Fin 65536) : EReal := pos0R lab ql i j * selfMaskR i j
def negR (i : Fin 1024) : EReal := zeroW + ∑ j : Fin 65536, Ideal.exp (shR X Y i j) * negMaskR lab ql i j
def selfR (i : Fin 1024) : EReal := zeroW + ∑ j : Fin 65536, Ideal.exp (shR X Y i j) * selfMaskR i j
def numR (i : Fin 1024) : EReal :=
  zeroW + ∑ j : Fin 65536, posMaskR lab ql i j * (shR X Y i j - Ideal.log (negR X Y lab ql i))
def cntR (i : Fin 1024) : EReal := zeroW + ∑ j : Fin 65536, posMaskR lab ql i j
def mlppR (i : Fin 1024) : EReal := Ideal.div (numR X Y lab ql i) (cntR lab ql i)
def tripR (i : Fin 1024) : EReal := shR X Y i ⟨i.val, by have := i.isLt; omega⟩ - Ideal.log (selfR X Y i)

/-! ## The kernel's sums, column by column, and up to a column -/

def gNeg (i : Fin 1024) (j : Fin 65536) : EReal := if same lab ql i j then 0 else Ideal.exp (sK X Y i j)
def gSelf (i : Fin 1024) (j : Fin 65536) : EReal := if own i j then 0 else Ideal.exp (sK X Y i j)
def gPos (i : Fin 1024) (j : Fin 65536) : EReal := if same lab ql i j ∧ ¬ own i j then sK X Y i j else 0
def gCnt (i : Fin 1024) (j : Fin 65536) : EReal := if same lab ql i j ∧ ¬ own i j then 1 else 0
def gDiag (i : Fin 1024) (j : Fin 65536) : EReal := if own i j then sK X Y i j else 0

theorem negK_eq (i : Fin 1024) : negK X Y lab ql i = ∑ j : Fin 65536, gNeg X Y lab ql i j := rfl
theorem selfK_eq (i : Fin 1024) : selfK X Y i = ∑ j : Fin 65536, gSelf X Y i j := rfl
theorem posSumK_eq (i : Fin 1024) : posSumK X Y lab ql i = ∑ j : Fin 65536, gPos X Y lab ql i j := rfl
theorem cntK_eq (i : Fin 1024) : cntK lab ql i = ∑ j : Fin 65536, gCnt lab ql i j := rfl
theorem diagK_eq (i : Fin 1024) : diagK X Y i = ∑ j : Fin 65536, gDiag X Y i j := rfl

/-- The sum of a row's summands over the columns before `n`. -/
def upTo (g : Fin 65536 → EReal) (n : ℕ) : EReal := ∑ j : Fin 65536, if j.val < n then g j else 0

/-! ## One tile of the kernel's sweep: 512 anchors against 2048 contrast rows

  `xb`, `yb` are the anchors' and the contrast rows' blocks, `lb` the anchors' labels as a column, `qb` the
  contrast labels as a row; `b` and `q` the tile's position, which decides where the own column falls. -/

abbrev SXb : Shape := ⟨2, ![512, 128]⟩
abbrev SYb : Shape := ⟨2, ![2048, 128]⟩
abbrev SLb : Shape := ⟨2, ![512, 1]⟩
abbrev SQb : Shape := ⟨2, ![1, 2048]⟩

section Tile
variable (xb : SXb.Idx → EReal) (yb : SYb.Idx → EReal) (lb : SLb.Idx → BitVec 32) (qb : SQb.Idx → BitVec 32) (b q : ℕ)

def tS (r : Fin 512) (jj : Fin 2048) : EReal := (∑ d : Fin 128, xb (ix2 r d) * yb (ix2 jj d)) * invT
abbrev tSame (r : Fin 512) (jj : Fin 2048) : Prop := lb (ix2 r 0) = qb (ix2 0 jj)
abbrev tOwn (r : Fin 512) (jj : Fin 2048) : Prop := b * 512 + r.val = q * 2048 + jj.val
def tNeg (r : Fin 512) : EReal := ∑ jj : Fin 2048, if tSame lb qb r jj then 0 else Ideal.exp (tS xb yb r jj)
def tSelf (r : Fin 512) : EReal := ∑ jj : Fin 2048, if tOwn b q r jj then 0 else Ideal.exp (tS xb yb r jj)
def tPos (r : Fin 512) : EReal := ∑ jj : Fin 2048, if tSame lb qb r jj ∧ ¬ tOwn b q r jj then tS xb yb r jj else 0
def tCnt (r : Fin 512) : EReal := ∑ jj : Fin 2048, if tSame lb qb r jj ∧ ¬ tOwn b q r jj then 1 else 0
def tDiag (r : Fin 512) : EReal := ∑ jj : Fin 2048, if tOwn b q r jj then tS xb yb r jj else 0
end Tile

/-- The anchor row and the contrast column that grid point `t` (row tile `t / 32`, column tile `t % 32`) sees at
    position `r`, `jj` of its blocks. -/
def rowOf (t : ℕ) (ht : t < 64) (r : Fin 512) : Fin 1024 := ⟨t / 32 * 512 + r.val, by have := r.isLt; omega⟩
def colOf (t : ℕ) (ht : t < 64) (jj : Fin 2048) : Fin 65536 := ⟨t % 32 * 2048 + jj.val, by have := jj.isLt; omega⟩

/-- The row an index of a 1024 × 1 column names. -/
def rowIx (i : (⟨2, ![1024, 1]⟩ : Shape).Idx) : Fin 1024 := ⟨(i 0).val, (i 0).isLt⟩

/-- What the kernel's last step makes of the five finished sums of one row. -/
def mlppOf (neg posSum cnt : EReal) : EReal := Ideal.div (posSum - Ideal.log neg * cnt) cnt
def tripOf (slf diag : EReal) : EReal := diag - Ideal.log slf

/-! ## The common tail: per-row losses and their means -/

def lossOf (trip mlpp : Fin 1024 → EReal) (i : Fin 1024) : EReal := Ideal.div (negOneW * (trip i + mlpp i)) twoW
def selfLossOf (trip : Fin 1024 → EReal) (i : Fin 1024) : EReal := negOneW * trip i
def classLossOf (mlpp : Fin 1024 → EReal) (i : Fin 1024) : EReal := negOneW * mlpp i
def meanOf (f : Fin 1024 → EReal) : EReal := Ideal.div (zeroW + ∑ i : Fin 1024, f i) nRowsW

end SupCon

end
-- ==== Proof.KBlocks.lean ====
/-
  The kernel's four input windows, block by block.

  Grid point `t` is row tile `t / 32` and column tile `t % 32`. Its anchor block is rows
  `512 (t / 32) …` of the anchors, its contrast block rows `2048 (t % 32) …` of the contrast rows, and the two
  label blocks the matching stretches of the labels (held as a 1024 × 1 column and a 1 × 65536 row). So each of
  the tile's five masked sums is a sum of the row's column summands over that tile's 2048 columns.
-/
import proofs.«141703_j8598524526702_1_alg».proof.Proof.Gen.KernelIdeal.Frame
import proofs.«141703_j8598524526702_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx SupCon

variable (m : (ℓ : Loc nD τ sig) → Buf (Elt Ideal) ℓ)

/-! ## A tile's sums over stand-in arrays: the block reads enter only through three facts -/

section TileCongr
variable (xb : SXb.Idx → EReal) (yb : SYb.Idx → EReal) (lb : SLb.Idx → BitVec 32) (qb : SQb.Idx → BitVec 32)
variable (X : SX.Idx → EReal) (Y : SY.Idx → EReal) (lab : SL.Idx → BitVec 32) (ql : SQ.Idx → BitVec 32)
variable (b q : ℕ) (r : Fin 512) (i : Fin 1024) (col : Fin 2048 → Fin 65536)

/-- A tile's logit is the logit of the row and column it stands for. -/
theorem tS_congr (jj : Fin 2048) (j : Fin 65536) (hx : ∀ d, xb (ix2 r d) = X (ix2 i d))
    (hy : ∀ d, yb (ix2 jj d) = Y (ix2 j d)) : tS xb yb r jj = sK X Y i j := by
  unfold tS sK dot
  congr 1
  refine Finset.sum_congr rfl fun d _ => ?_
  rw [hx, hy]

theorem tNeg_congr (hS : ∀ jj, tS xb yb r jj = sK X Y i (col jj))
    (hsame : ∀ jj, tSame lb qb r jj ↔ same lab ql i (col jj)) :
    tNeg xb yb lb qb r = ∑ jj : Fin 2048, gNeg X Y lab ql i (col jj) := by
  unfold tNeg
  refine Finset.sum_congr rfl fun jj _ => ?_
  unfold gNeg
  rw [hS]
  exact if_congr (hsame jj) rfl rfl

theorem tSelf_congr (hS : ∀ jj, tS xb yb r jj = sK X Y i (col jj))
    (hown : ∀ jj, tOwn b q r jj ↔ own i (col jj)) :
    tSelf xb yb b q r = ∑ jj : Fin 2048, gSelf X Y i (col jj) := by
  unfold tSelf
  refine Finset.sum_congr rfl fun jj _ => ?_
  unfold gSelf
  rw [hS]
  exact if_congr (hown jj) rfl rfl

theorem tPos_congr (hS : ∀ jj, tS xb yb r jj = sK X Y i (col jj))
    (hsame : ∀ jj, tSame lb qb r jj ↔ same lab ql i (col jj))
    (hown : ∀ jj, tOwn b q r jj ↔ own i (col jj)) :
    tPos xb yb lb qb b q r = ∑ jj : Fin 2048, gPos X Y lab ql i (col jj) := by
  unfold tPos
  refine Finset.sum_congr rfl fun jj _ => ?_
  unfold gPos
  rw [hS]
  exact if_congr (and_congr (hsame jj) (not_congr (hown jj))) rfl rfl

theorem tCnt_congr (hsame : ∀ jj, tSame lb qb r jj ↔ same lab ql i (col jj))
    (hown : ∀ jj, tOwn b q r jj ↔ own i (col jj)) :
    tCnt lb qb b q r = ∑ jj : Fin 2048, gCnt lab ql i (col jj) := by
  unfold tCnt
  refine Finset.sum_congr rfl fun jj _ => ?_
  unfold gCnt
  exact if_congr (and_congr (hsame jj) (not_congr (hown jj))) rfl rfl

theorem tDiag_congr (hS : ∀ jj, tS xb yb r jj = sK X Y i (col jj))
    (hown : ∀ jj, tOwn b q r jj ↔ own i (col jj)) :
    tDiag xb yb b q r = ∑ jj : Fin 2048, gDiag X Y i (col jj) := by
  unfold tDiag
  refine Finset.sum_congr rfl fun jj _ => ?_
  unfold gDiag
  rw [hS]
  exact if_congr (hown jj) rfl rfl

end TileCongr

/-- A length-`a` array cast to an `a × 1` column reads, at `(i, u)`, the array at `i`: both sit at row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The grid has 64 points. -/
theorem tlt (t : Fin cfg0.N) : t.val < 64 := by
  have h : cfg0.N = 64 := N_0
  have := t.isLt
  omega

/-! ## The arrays the region finds, at their literal types -/

/-- The anchors (view 2 of the features). -/
abbrev Xa (c : Dev nD) : SX.Idx → EReal := V (F := Ideal) m c main_v3
/-- The contrast rows (view 1 of the features, then the queue's head). -/
abbrev Ya (c : Dev nD) : SY.Idx → EReal := V (F := Ideal) m c main_v5
/-- The anchors' labels. -/
abbrev La (c : Dev nD) : SL.Idx → BitVec 32 := V (F := Ideal) m c main_arg1
/-- The contrast rows' labels. -/
abbrev Qa (c : Dev nD) : SQ.Idx → BitVec 32 := V (F := Ideal) m c main_v7

/-- The same arrays as the host operations before the region compute them from @main's arguments. -/
theorem Xa_eq (c : Dev nD) : Xa m c
    = shapeCast S1024x128 (extractStridedSlice S1024x1x128 ![0, 1, 0] (m ((c : Thread nD τ).loc main_arg0)) slices_S1024x2x128_S1024x1x128_0_1_0) shapeCasts_S1024x1x128_S1024x128 := by
  show StableHlo.after hostOps0 (fun b => m (c, b)) (Proc.devRef .tc main_v3) = _
  after_results
  rfl
theorem Ya_eq (c : Dev nD) : Ya m c
    = concatenate S65536x128 0 [⟨S1024x128, shapeCast S1024x128 (extractStridedSlice S1024x1x128 ![0, 0, 0] (m ((c : Thread nD τ).loc main_arg0)) slices_S1024x2x128_S1024x1x128_0_0_0) shapeCasts_S1024x1x128_S1024x128⟩,
        ⟨S64512x128, extractStridedSlice S64512x128 ![0, 0] (m ((c : Thread nD τ).loc main_arg2)) slices_S65536x128_S64512x128_0_0⟩] concatenates_S1024x128_S64512x128_S65536x128_d0 := by
  show StableHlo.after hostOps0 (fun b => m (c, b)) (Proc.devRef .tc main_v5) = _
  after_results
  rfl
theorem La_eq (c : Dev nD) : La m c = m ((c : Thread nD τ).loc main_arg1) := V_main_arg1 m c
theorem Qa_eq (c : Dev nD) : Qa m c
    = concatenate S65536 0 [⟨S1024, m ((c : Thread nD τ).loc main_arg1)⟩,
        ⟨S64512, extractStridedSlice S64512 ![0] (m ((c : Thread nD τ).loc main_arg3)) slices_S65536_S64512_0⟩] concatenates_S1024_S64512_S65536_d0 := by
  show StableHlo.after hostOps0 (fun b => m (c, b)) (Proc.devRef .tc main_v7) = _
  after_results

/-- The labels column is the anchors' labels, reshaped. -/
theorem Lcol_eq (c : Dev nD) : (V (F := Ideal) m c main_v8 : S1024x1.Idx → BitVec 32)
    = shapeCast S1024x1 (V (F := Ideal) m c main_arg1) shapeCasts_S1024_S1024x1 := by
  show StableHlo.after hostOps0 (fun b => m (c, b)) (Proc.devRef .tc main_v8) = _
  after_results
  rfl

/-- The contrast labels row is the contrast labels, reshaped. -/
theorem Qrow_eq (c : Dev nD) : (V (F := Ideal) m c main_v9 : S1x65536.Idx → BitVec 32)
    = shapeCast S1x65536 (V (F := Ideal) m c main_v7) shapeCasts_S65536_S1x65536 := by
  show StableHlo.after hostOps0 (fun b => m (c, b)) (Proc.devRef .tc main_v9) = _
  after_results
  rfl

/-! ## The blocks a point's body loads, at their literal types -/

abbrev xblk (c : Dev nD) (t : Fin cfg0.N) : SXb.Idx → EReal := iblk (F := Ideal) m c 0 t
abbrev lblk (c : Dev nD) (t : Fin cfg0.N) : SLb.Idx → BitVec 32 := iblk (F := Ideal) m c 1 t
abbrev yblk (c : Dev nD) (t : Fin cfg0.N) : SYb.Idx → EReal := iblk (F := Ideal) m c 2 t
abbrev qblk (c : Dev nD) (t : Fin cfg0.N) : SQb.Idx → BitVec 32 := iblk (F := Ideal) m c 3 t

/-- The point's coordinates. -/
theorem coords0 (t : Fin cfg0.N) : ((grid0.coords t) 0).val = t.val / 32 := by
  have h : ∀ t : Fin grid0.N, ((grid0.coords t) 0).val = t.val / 32 := by decide +kernel
  exact h t
theorem coords1 (t : Fin cfg0.N) : ((grid0.coords t) 1).val = t.val % 32 := by
  have h : ∀ t : Fin grid0.N, ((grid0.coords t) 1).val = t.val % 32 := by decide +kernel
  exact h t

/-- The four index maps, over the grid: the anchors and their labels move with the row tile, the contrast rows
    and their labels with the column tile. -/
theorem idx0 : ∀ t : Fin grid0.N, win0_0.index t 0 = t.val / 32 ∧ win0_0.index t 1 = 0 := by decide +kernel
theorem idx1 : ∀ t : Fin grid0.N, win0_1.index t 0 = t.val / 32 ∧ win0_1.index t 1 = 0 := by decide +kernel
theorem idx2 : ∀ t : Fin grid0.N, win0_2.index t 0 = t.val % 32 ∧ win0_2.index t 1 = 0 := by decide +kernel
theorem idx3 : ∀ t : Fin grid0.N, win0_3.index t 0 = 0 ∧ win0_3.index t 1 = t.val % 32 := by decide +kernel

/-! ## Each block read where its window says -/

theorem xblk_apply (c : Dev nD) (t : Fin cfg0.N) (r : Fin 512) (d : Fin 128) :
    xblk m c t (ix2 r d) = Xa m c (ix2 (rowOf t.val (tlt t) r) d) := by
  unfold xblk iblk
  rw [View.read_apply]
  show V m c main_v3 _ = V m c main_v3 _
  congr 1
  funext a
  apply Fin.ext
  match a with
  | ⟨0, _⟩ => show win0_0.index t 0 * 512 + 1 * r.val = t.val / 32 * 512 + r.val; rw [(idx0 t).1]; omega
  | ⟨1, _⟩ => show win0_0.index t 1 * 128 + 1 * d.val = d.val; rw [(idx0 t).2]; omega
theorem yblk_apply (c : Dev nD) (t : Fin cfg0.N) (jj : Fin 2048) (d : Fin 128) :
    yblk m c t (ix2 jj d) = Ya m c (ix2 (colOf t.val (tlt t) jj) d) := by
  unfold yblk iblk
  rw [View.read_apply]
  show V m c main_v5 _ = V m c main_v5 _
  congr 1
  funext a
  apply Fin.ext
  match a with
  | ⟨0, _⟩ => show win0_2.index t 0 * 2048 + 1 * jj.val = t.val % 32 * 2048 + jj.val; rw [(idx2 t).1]; omega
  | ⟨1, _⟩ => show win0_2.index t 1 * 128 + 1 * d.val = d.val; rw [(idx2 t).2]; omega
theorem lblk_apply (c : Dev nD) (t : Fin cfg0.N) (r : Fin 512) :
    lblk m c t (ix2 r 0) = La m c (ix1 (rowOf t.val (tlt t) r)) := by
  have h : lblk m c t (ix2 r 0) = V (F := Ideal) m c main_v8 (ix2 (rowOf t.val (tlt t) r) (0 : Fin 1)) := by
    unfold lblk iblk
    rw [View.read_apply]
    show V m c main_v8 _ = V m c main_v8 _
    congr 1
    funext a
    apply Fin.ext
    match a with
    | ⟨0, _⟩ => show win0_1.index t 0 * 512 + 1 * r.val = t.val / 32 * 512 + r.val; rw [(idx1 t).1]; omega
    | ⟨1, _⟩ => show win0_1.index t 1 * 1 + 1 * 0 = 0; rw [(idx1 t).2]
  rw [h, Lcol_eq]
  exact shapeCast_a_a1_apply (La m c) _ _ _
theorem qblk_apply (c : Dev nD) (t : Fin cfg0.N) (jj : Fin 2048) :
    qblk m c t (ix2 0 jj) = Qa m c (ix1 (colOf t.val (tlt t) jj)) := by
  have h : qblk m c t (ix2 0 jj) = V (F := Ideal) m c main_v9 (ix2 (0 : Fin 1) (colOf t.val (tlt t) jj)) := by
    unfold qblk iblk
    rw [View.read_apply]
    show V m c main_v9 _ = V m c main_v9 _
    congr 1
    funext a
    apply Fin.ext
    match a with
    | ⟨0, _⟩ => show win0_3.index t 0 * 1 + 1 * 0 = 0; rw [(idx3 t).1]
    | ⟨1, _⟩ => show win0_3.index t 1 * 2048 + 1 * jj.val = t.val % 32 * 2048 + jj.val; rw [(idx3 t).2]; omega
  rw [h, Qrow_eq]
  exact shapeCast_a_1a_apply _ _ _ _

/-! ## The tile's five sums are the row's summands over the tile's columns -/

/-- A tile's logit is the logit of the row and column it stands for. -/
theorem tS_blk (c : Dev nD) (t : Fin cfg0.N) (r : Fin 512) (jj : Fin 2048) :
    tS (xblk m c t) (yblk m c t) r jj = sK (Xa m c) (Ya m c) (rowOf t.val (tlt t) r) (colOf t.val (tlt t) jj) :=
  tS_congr _ _ _ _ _ _ _ _ (xblk_apply m c t r) (yblk_apply m c t jj)

/-- Two labels of a tile agree exactly when the row's and the column's do. -/
theorem tSame_blk (c : Dev nD) (t : Fin cfg0.N) (r : Fin 512) (jj : Fin 2048) :
    tSame (lblk m c t) (qblk m c t) r jj ↔ same (La m c) (Qa m c) (rowOf t.val (tlt t) r) (colOf t.val (tlt t) jj) := by
  show lblk m c t (ix2 r 0) = qblk m c t (ix2 0 jj) ↔ _
  rw [lblk_apply, qblk_apply]

/-- The own column of a tile's row is the own column of the row it stands for. -/
theorem tOwn_blk (t : Fin cfg0.N) (r : Fin 512) (jj : Fin 2048) :
    tOwn (t.val / 32) (t.val % 32) r jj ↔ own (rowOf t.val (tlt t) r) (colOf t.val (tlt t) jj) := Iff.rfl

theorem tNeg_blk (c : Dev nD) (t : Fin cfg0.N) (r : Fin 512) :
    tNeg (xblk m c t) (yblk m c t) (lblk m c t) (qblk m c t) r
      = ∑ jj : Fin 2048, gNeg (Xa m c) (Ya m c) (La m c) (Qa m c) (rowOf t.val (tlt t) r) (colOf t.val (tlt t) jj) :=
  tNeg_congr _ _ _ _ _ _ _ _ _ _ _ (tS_blk m c t r) (tSame_blk m c t r)
theorem tSelf_blk (c : Dev nD) (t : Fin cfg0.N) (r : Fin 512) :
    tSelf (xblk m c t) (yblk m c t) (t.val / 32) (t.val % 32) r
      = ∑ jj : Fin 2048, gSelf (Xa m c) (Ya m c) (rowOf t.val (tlt t) r) (colOf t.val (tlt t) jj) :=
  tSelf_congr _ _ _ _ _ _ _ _ _ (tS_blk m c t r) (tOwn_blk t r)
theorem tPos_blk (c : Dev nD) (t : Fin cfg0.N) (r : Fin 512) :
    tPos (xblk m c t) (yblk m c t) (lblk m c t) (qblk m c t) (t.val / 32) (t.val % 32) r
      = ∑ jj : Fin 2048, gPos (Xa m c) (Ya m c) (La m c) (Qa m c) (rowOf t.val (tlt t) r) (colOf t.val (tlt t) jj) :=
  tPos_congr _ _ _ _ _ _ _ _ _ _ _ _ _ (tS_blk m c t r) (tSame_blk m c t r) (tOwn_blk t r)
theorem tCnt_blk (c : Dev nD) (t : Fin cfg0.N) (r : Fin 512) :
    tCnt (lblk m c t) (qblk m c t) (t.val / 32) (t.val % 32) r
      = ∑ jj : Fin 2048, gCnt (La m c) (Qa m c) (rowOf t.val (tlt t) r) (colOf t.val (tlt t) jj) :=
  tCnt_congr _ _ _ _ _ _ _ _ _ (tSame_blk m c t r) (tOwn_blk t r)
theorem tDiag_blk (c : Dev nD) (t : Fin cfg0.N) (r : Fin 512) :
    tDiag (xblk m c t) (yblk m c t) (t.val / 32) (t.val % 32) r
      = ∑ jj : Fin 2048, gDiag (Xa m c) (Ya m c) (rowOf t.val (tlt t) r) (colOf t.val (tlt t) jj) :=
  tDiag_congr _ _ _ _ _ _ _ _ _ (tS_blk m c t r) (tOwn_blk t r)

end Cert.KernelIdeal.KV

end
-- ==== Proof.KPieces.lean ====
/-
  What each control case of the kernel body leaves in the five running columns and, at the last column tile,
  in the three output blocks: the body's stores read back as values.

  Case A is the first column tile of a row tile (the columns are reset to zero, then added to), case B a middle
  one (added to), case C the last one (added to, then the three results computed from the updated columns).
  In every case column `j` ends as the matching update payload of what it held before.
-/
import proofs.«141703_j8598524526702_1_alg».proof.Proof.Gen.KernelIdeal.Frame
import Idealize.ShloMosaic.Lib.Pipeline.Value
import Idealize.ShloMosaic.Lib.Tactic

set_option maxRecDepth 16384

noncomputable section

namespace Cert.KernelIdeal.KV

open Cert.KernelIdeal Cert.KernelIdeal.Gen Idealize.ShloMosaic Idealize.ShloMosaic.TcCoe Idealize.SL.Sem

variable {F : FTy → Type} [FloatOps F] [Named F]

/-- The offset of every load and store of the body: the origin. -/
private theorem hz : (![0, 0] : Fin 2 → Nat) = fun _ => 0 := funext fun a => by fin_cases a <;> rfl

/-- First column tile: column 0 is reset to zero and then the tile's sum is added, so it ends as the update of the zero column. -/
theorem sout_A_0 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i) (x0 : Vec F S512x128 .f32) (x1 : Vec F S512x1 .i32) (x2 : Vec F S2048x128 .f32) (x3 : Vec F S1x2048 .i32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay20 (k0_pay16 x0 x2 x1 x3) (k0_pay7 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz, View.readCov_unit_zero (S := S512x1) _ hz]

/-- First column tile: column 1 is reset to zero and then the tile's sum is added, so it ends as the update of the zero column. -/
theorem sout_A_1 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i) (x0 : Vec F S512x128 .f32) (x1 : Vec F S512x1 .i32) (x2 : Vec F S2048x128 .f32) (x3 : Vec F S1x2048 .i32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay21 (k0_pay17 i x0 x2) (k0_pay8 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz, View.readCov_unit_zero (S := S512x1) _ hz]

/-- First column tile: column 2 is reset to zero and then the tile's sum is added, so it ends as the update of the zero column. -/
theorem sout_A_2 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i) (x0 : Vec F S512x128 .f32) (x1 : Vec F S512x1 .i32) (x2 : Vec F S2048x128 .f32) (x3 : Vec F S1x2048 .i32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay22 (k0_pay12 x0 x2) (k0_pay13 i) (k0_pay14 x1 x3) (k0_pay9 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz, View.readCov_unit_zero (S := S512x1) _ hz]

/-- First column tile: column 3 is reset to zero and then the tile's sum is added, so it ends as the update of the zero column. -/
theorem sout_A_3 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i) (x0 : Vec F S512x128 .f32) (x1 : Vec F S512x1 .i32) (x2 : Vec F S2048x128 .f32) (x3 : Vec F S1x2048 .i32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay23 (k0_pay13 i) (k0_pay14 x1 x3) (k0_pay10 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz, View.readCov_unit_zero (S := S512x1) _ hz]

/-- First column tile: column 4 is reset to zero and then the tile's sum is added, so it ends as the update of the zero column. -/
theorem sout_A_4 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i) (x0 : Vec F S512x128 .f32) (x1 : Vec F S512x1 .i32) (x2 : Vec F S2048x128 .f32) (x3 : Vec F S1x2048 .i32) :
    sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 = k0_pay1 (k0_pay19 (k0_pay12 x0 x2) (k0_pay13 i)) (k0_pay11 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz, View.readCov_unit_zero (S := S512x1) _ hz]

/-- A middle column tile: column 0 ends as the update of what it held before. -/
theorem sout_B_0 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay20 (k0_pay16 x0 x2 x1 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- A middle column tile: column 1 ends as the update of what it held before. -/
theorem sout_B_1 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay21 (k0_pay17 i x0 x2) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- A middle column tile: column 2 ends as the update of what it held before. -/
theorem sout_B_2 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay22 (k0_pay12 x0 x2) (k0_pay13 i) (k0_pay14 x1 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- A middle column tile: column 3 ends as the update of what it held before. -/
theorem sout_B_3 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay23 (k0_pay13 i) (k0_pay14 x1 x3) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- A middle column tile: column 4 ends as the update of what it held before. -/
theorem sout_B_4 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_B_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay1 (k0_pay19 (k0_pay12 x0 x2) (k0_pay13 i)) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- The last column tile: column 0 ends as the update of what it held before (the final formulas store nothing into it). -/
theorem sout_C_0 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay20 (k0_pay16 x0 x2 x1 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- The last column tile: column 1 ends as the update of what it held before (the final formulas store nothing into it). -/
theorem sout_C_1 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay21 (k0_pay17 i x0 x2) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- The last column tile: column 2 ends as the update of what it held before (the final formulas store nothing into it). -/
theorem sout_C_2 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay22 (k0_pay12 x0 x2) (k0_pay13 i) (k0_pay14 x1 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- The last column tile: column 3 ends as the update of what it held before (the final formulas store nothing into it). -/
theorem sout_C_3 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay23 (k0_pay13 i) (k0_pay14 x1 x3) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- The last column tile: column 4 ends as the update of what it held before (the final formulas store nothing into it). -/
theorem sout_C_4 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    sout0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay1 (k0_pay19 (k0_pay12 x0 x2) (k0_pay13 i)) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz]

/-- The last column tile's first result block: the combined per-row loss, computed from the five updated columns (each read back after its store). -/
theorem out_C_4 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    out0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay4 (k0_pay20 (k0_pay16 x0 x2 x1 x3) xs0) (k0_pay22 (k0_pay12 x0 x2) (k0_pay13 i) (k0_pay14 x1 x3) xs2) (k0_pay23 (k0_pay13 i) (k0_pay14 x1 x3) xs3) (k0_pay23 (k0_pay13 i) (k0_pay14 x1 x3) xs3) (k0_pay21 (k0_pay17 i x0 x2) xs1) (k0_pay1 (k0_pay19 (k0_pay12 x0 x2) (k0_pay13 i)) xs4) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz, View.readCov_unit_zero (S := S512x1) _ hz]

/-- The last column tile's second result block: the own-column loss, from the updated second and fifth columns. -/
theorem out_C_5 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay5 (k0_pay21 (k0_pay17 i x0 x2) xs1) (k0_pay1 (k0_pay19 (k0_pay12 x0 x2) (k0_pay13 i)) xs4) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz, View.readCov_unit_zero (S := S512x1) _ hz]

/-- The last column tile's third result block: the same-label loss, from the updated first, third and fourth columns. -/
theorem out_C_6 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S2048x128 .f32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x128 .f32) (x1 : Vec F S512x1 .i32) (x2 : Vec F S2048x128 .f32) (x3 : Vec F S1x2048 .i32) (xs0 : Vec F S512x1 .f32) (xs1 : Vec F S512x1 .f32) (xs2 : Vec F S512x1 .f32) (xs3 : Vec F S512x1 .f32) (xs4 : Vec F S512x1 .f32) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 = k0_pay6 (k0_pay20 (k0_pay16 x0 x2 x1 x3) xs0) (k0_pay22 (k0_pay12 x0 x2) (k0_pay13 i) (k0_pay14 x1 x3) xs2) (k0_pay23 (k0_pay13 i) (k0_pay14 x1 x3) xs3) (k0_pay23 (k0_pay13 i) (k0_pay14 x1 x3) xs3) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, harg13.read_unread, View.ld_unit_zero (S := S512x1) hz, View.ld_unit_zero (S := S512x128) hz, View.ld_unit_zero (S := S2048x128) hz, View.ld_unit_zero (S := S1x2048) hz, View.readCov_unit_zero (S := S512x1) _ hz]

end Cert.KernelIdeal.KV

end
-- ==== Proof.KTile.lean ====
/-
  The kernel body's arithmetic read at an index, at the ideal values.

  One grid point sees 512 anchors `x0` with their labels `x1` (a column) and 2048 contrast rows `x2` with their
  labels `x3` (a row). The body forms the 512 × 2048 logits (a matrix product into zero, times the named
  constant), two masks (same label; own column, by comparing global row and column numbers built from the
  point's coordinates), and adds to each of five running columns the tile's masked row sum. This module says
  what each of those additions and each of the three final payloads is at row `r`.
-/
import proofs.«141703_j8598524526702_1_alg».proof.Proof.Gen.KernelIdeal.Skeleton
import proofs.«141703_j8598524526702_1_alg».proof.Proof.Spec
import Idealize.ShloMosaic.Lib.Pipeline.Value
import Idealize.ShloMosaic.Lib.ValueLayout

noncomputable section

namespace Cert.KernelIdeal.KV

open Cert.KernelIdeal Cert.KernelIdeal.Gen Idealize.ShloMosaic Idealize.ShloMosaic.ValueIdx SupCon

/-! ## Layout operations of the body at an index -/

section Layout
variable {α : Type}

/-- A vector of 512 made a column reads, at row `r`, the vector at `r`. -/
theorem col_apply (v : S512.Idx → α) (r : Fin 512) :
    shapeCast S512x1 v shapeCasts_S512_S512x1 (ix2 r (0 : Fin 1)) = v (ix1 r) :=
  shapeCast_apply v shapeCasts_S512_S512x1 _ _ (by
    rw [Shape.rowMajor_val_two, Shape.rowMajor_val_one]
    show r.val = r.val * 1 + 0
    omega)

/-- A column spread over 2048 columns reads, at `(r, jj)`, the column at `r`. -/
theorem bcol_apply (v : S512x1.Idx → α) (r : Fin 512) (jj : Fin 2048) :
    broadcastTo S512x2048 v broadcasts_S512x1_S512x2048 (ix2 r jj) = v (ix2 r (0 : Fin 1)) := by
  refine broadcastTo_apply v broadcasts_S512x1_S512x2048 (ix2 r jj) (ix2 r (0 : Fin 1)) fun ax => ?_
  match ax with
  | ⟨0, _⟩ => rfl
  | ⟨1, _⟩ => rfl

/-- A row spread over 512 rows reads, at `(r, jj)`, the row at `jj`. -/
theorem brow_apply (v : S1x2048.Idx → α) (r : Fin 512) (jj : Fin 2048) :
    broadcastTo S512x2048 v broadcasts_S1x2048_S512x2048 (ix2 r jj) = v (ix2 (0 : Fin 1) jj) :=
  broadcastTo_1b_ab_apply v broadcasts_S1x2048_S512x2048 r jj

end Layout

/-- The sum along the lanes of a 512 × 2048 block, from zero, is at row `r` the sum over the row. -/
theorem rowsum_apply (src : FVec Ideal S512x2048 .f32) (hφ : FKind.Formats .f32)
    (hacc : (0x00000000#32 : BitVec 32) = 0x00000000#32) (r : Fin 512) :
    multiReduction (F := Ideal) .add [1] S512 src 0x00000000#32 reduces_S512x2048_S512 hφ hacc (ix1 r)
      = ∑ jj : Fin 2048, src (ix2 r jj) := by
  refine (Ideal.multiReduction_add_single src 0x00000000#32 reduces_S512x2048_S512 hφ hacc (ix1 r)).trans ?_
  refine Finset.sum_congr rfl fun jj _ => congrArg src ?_
  funext a
  match a with
  | ⟨0, _⟩ => exact Fin.ext rfl
  | ⟨1, _⟩ => exact Fin.ext rfl

/-! ## The matrix product at an index -/

theorem lhs_mm_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_mm_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs_mm_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_mm_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The product of a 512 × 128 block with a 128 × 2048 block, into zero, is at `(r, jj)` the row by the column. -/
theorem mm_apply (a : FVec Ideal S512x128 .bf16) (b : FVec Ideal S128x2048 .bf16) (r : Fin 512) (jj : Fin 2048) :
    FloatOps.matmul dot_S512x128_S128x2048_S512x2048_1_0_0_1_n_n none a b (constant (F := Ideal) S512x2048 .f32 0x00000000#32) (ix2 r jj)
      = ∑ k : Fin 128, a (ix2 r k) * b (ix2 k jj) := by
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 r jj) ((ValueIdx.contrEquiv1 dot_S512x128_S128x2048_S512x2048_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S512x128_S128x2048_S512x2048_1_0_0_1_n_n.rhsIdx (ix2 r jj) ((ValueIdx.contrEquiv1 dot_S512x128_S128x2048_S512x2048_1_0_0_1_n_n 128 rfl rfl).symm k) = ix2 k jj := funext fun a => Fin.ext (by
    match a with
    | ⟨0, _⟩ => exact (rhs_mm_0 _ _).trans hk
    | ⟨1, _⟩ => exact rhs_mm_1 _ _)
  rw [el, er]

/-- The named constant at the ideal values. -/
theorem kappa_eq : Named.named (F := Ideal) κ "inv_temp" (φ := .f32) 0x41649249#32 = SupCon.invT :=
  IdealRules.named_const.ideal_named_scalar _ _ _ _ rfl

/-- The logits at `(r, jj)`: row `r` of the anchors by row `jj` of the contrast rows, times the constant. -/
theorem logit_apply (x0 : Vec Ideal S512x128 .f32) (x2 : Vec Ideal S2048x128 .f32) (r : Fin 512) (jj : Fin 2048) :
    k0_pay12 (F := Ideal) x0 x2 (ix2 r jj) = tS x0 x2 r jj := by
  unfold k0_pay12
  dsimp only
  rw [mulf_apply, broadcast_apply, kappa_eq]
  unfold tS
  congr 1
  simp only [matmul]
  rw [mm_apply]
  refine Finset.sum_congr rfl fun k _ => ?_
  rw [truncf_apply, shapeCast_self, transpose_ix2_apply, truncf_apply, shapeCast_self]

/-! ## Words: comparisons and one-bit masks -/

theorem cmpi_apply {s : Shape} {w : Nat} (p : CmpIPredicate) (a b : IVec s w) (i : s.Idx) :
    cmpi p a b i = IntOp.cmpi p (a i) (b i) := rfl

/-- The word comparison for equality gives the bit `1` exactly on equal words. -/
theorem cmpi_eq_iff {w : Nat} (a b : BitVec w) : IntOp.cmpi .eq a b = 1#1 ↔ a = b := by
  show BitVec.ofBool (a == b) = 1#1 ↔ a = b
  by_cases h : a = b
  · subst h; simp
  · have hb : (a == b) = false := by simpa using h
    rw [hb]
    exact ⟨fun h1 => absurd h1 (by decide), fun h1 => absurd h1 h⟩

/-- A select on a bit is the `if` on that bit being `1`. -/
theorem select_ite {α : Type} (c : BitVec 1) (a b : α) : Scalar.select c a b = if c = 1#1 then a else b := rfl

/-- "The second bit and not the first" is `1` exactly when the second is `1` and the first is not. -/
theorem andnot_iff (a b : BitVec 1) : IntOp.andi b (IntOp.xori a 1#1) = 1#1 ↔ b = 1#1 ∧ ¬ a = 1#1 := by
  rcases BitVec.eq_zero_or_eq_one a with ha | ha <;> rcases BitVec.eq_zero_or_eq_one b with hb | hb <;>
    subst ha <;> subst hb <;> decide

/-- A bit widened and read as a number is one or zero. -/
theorem bit_num (c : BitVec 1) :
    FloatOps.sitofp (F := Ideal) .f32 (c.setWidth 32) = if c = 1#1 then (1 : EReal) else 0 := by
  rcases BitVec.eq_zero_or_eq_one c with h | h
  · subst h
    have e : (BitVec.setWidth 32 (0#1)).toInt = 0 := by decide
    show ((((BitVec.setWidth 32 (0#1)).toInt : ℤ) : ℝ) : EReal) = _
    rw [e, if_neg (by decide)]
    simp
  · subst h
    have e : (BitVec.setWidth 32 (1#1)).toInt = 1 := by decide
    show ((((BitVec.setWidth 32 (1#1)).toInt : ℤ) : ℝ) : EReal) = _
    rw [e, if_pos rfl]
    simp

/-- Global row and column numbers, as 32-bit words, are equal exactly when they are equal as numbers. -/
theorem own_word_iff (b q r jj : ℕ) (hb : b < 2) (hq : q < 32) (hr : r < 512) (hj : jj < 2048) :
    IntOp.addi (Scalar.muli (BitVec.ofNat 32 b) 512#32) (BitVec.ofNat 32 (0 * 512 + r))
        = IntOp.addi (Scalar.muli (BitVec.ofNat 32 q) 2048#32) (BitVec.ofNat 32 (0 * 2048 + jj))
      ↔ b * 512 + r = q * 2048 + jj := by
  unfold IntOp.addi Scalar.muli IntOp.muli
  rw [← BitVec.toNat_inj]
  simp only [BitVec.toNat_add, BitVec.toNat_mul, BitVec.toNat_ofNat]
  omega

/-! ## The two masks at an index -/

/-- The label mask at `(r, jj)` is `1` exactly when anchor `r` and contrast row `jj` carry the same label. -/
theorem same_apply (x1 : Vec Ideal S512x1 .i32) (x3 : Vec Ideal S1x2048 .i32) (r : Fin 512) (jj : Fin 2048) :
    k0_pay14 (F := Ideal) x1 x3 (ix2 r jj) = 1#1 ↔ x1 (ix2 r 0) = x3 (ix2 0 jj) := by
  unfold k0_pay14
  rw [cmpi_apply, bcol_apply, brow_apply, shapeCast_self, shapeCast_self]
  exact cmpi_eq_iff _ _

/-- The own-column mask at `(r, jj)` is `1` exactly when the global row number is the global column number. -/
theorem own_apply (i : grid0.Coords) (r : Fin 512) (jj : Fin 2048) :
    k0_pay13 i (ix2 r jj) = 1#1 ↔ (i 0).val * 512 + r.val = (i 1).val * 2048 + jj.val := by
  unfold k0_pay13
  try dsimp only
  rw [cmpi_apply, bcol_apply, brow_apply, cmpi_eq_iff]
  exact own_word_iff (i 0).val (i 1).val r.val jj.val (i 0).isLt (i 1).isLt r.isLt jj.isLt

/-! ## The masked row sums -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The lane sum of a 512 × 2048 block, made a column, is at row `r` the sum over the row. -/
theorem colsum_apply (src : FVec Ideal S512x2048 .f32) (hφ : FKind.Formats .f32)
    (hacc : (0x00000000#32 : BitVec 32) = 0x00000000#32) (r : Fin 512) :
    shapeCast S512x1 (multiReduction (F := Ideal) .add [1] S512 src 0x00000000#32 reduces_S512x2048_S512 hφ hacc)
        shapeCasts_S512_S512x1 (ix2 r (0 : Fin 1))
      = ∑ jj : Fin 2048, src (ix2 r jj) :=
  (col_apply _ r).trans (rowsum_apply src hφ hacc r)

/-- The exponentials of the logits at `(r, jj)`. -/
theorem expl_apply (x0 : Vec Ideal S512x128 .f32) (x2 : Vec Ideal S2048x128 .f32) (r : Fin 512) (jj : Fin 2048) :
    k0_pay15 (F := Ideal) x0 x2 (ix2 r jj) = Ideal.exp (tS x0 x2 r jj) := by
  unfold k0_pay15
  rw [exp_apply, logit_apply]

/-- "Same label and not the own column" at an index. -/
theorem mask18_apply (v23 v30 : IVec S512x2048 1) (j : S512x2048.Idx) :
    k0_pay18 v23 v30 j = 1#1 ↔ v30 j = 1#1 ∧ ¬ v23 j = 1#1 := by
  unfold k0_pay18
  exact andnot_iff (v23 j) (v30 j)

variable (x0 : Vec Ideal S512x128 .f32) (x1 : Vec Ideal S512x1 .i32) (x2 : Vec Ideal S2048x128 .f32)
  (x3 : Vec Ideal S1x2048 .i32) (i : grid0.Coords) (sp : Vec Ideal S512x1 .f32) (r : Fin 512)

/-- The other labels' exponentials summed over the tile's columns. -/
theorem neg_apply : k0_pay16 (F := Ideal) x0 x2 x1 x3 (ix2 r 0) = tNeg x0 x2 x1 x3 r := by
  unfold k0_pay16
  refine (colsum_apply _ _ _ r).trans ?_
  unfold tNeg
  refine Finset.sum_congr rfl fun jj _ => ?_
  rw [select_apply, select_ite, broadcast_apply, expl_apply]
  by_cases h : tSame x1 x3 r jj
  · rw [if_pos ((same_apply x1 x3 r jj).mpr h), if_pos h]; exact Ideal.ofBits_zero_f32
  · rw [if_neg (fun hh => h ((same_apply x1 x3 r jj).mp hh)), if_neg h]

/-- Every column's exponential but the own one, summed over the tile's columns. -/
theorem self_apply : k0_pay17 (F := Ideal) i x0 x2 (ix1 r) = tSelf x0 x2 (i 0).val (i 1).val r := by
  unfold k0_pay17
  refine (rowsum_apply _ _ _ r).trans ?_
  unfold tSelf
  refine Finset.sum_congr rfl fun jj _ => ?_
  rw [select_apply, select_ite, broadcast_apply, expl_apply]
  by_cases h : tOwn (i 0).val (i 1).val r jj
  · rw [if_pos ((own_apply i r jj).mpr h), if_pos h]; exact Ideal.ofBits_zero_f32
  · rw [if_neg (fun hh => h ((own_apply i r jj).mp hh)), if_neg h]

/-- "Same label and not the own column" for the tile at `(r, jj)`. -/
theorem pos_iff (jj : Fin 2048) :
    k0_pay18 (k0_pay13 i) (k0_pay14 (F := Ideal) x1 x3) (ix2 r jj) = 1#1
      ↔ tSame x1 x3 r jj ∧ ¬ tOwn (i 0).val (i 1).val r jj := by
  rw [mask18_apply, same_apply, own_apply]

/-- The own column's logit, summed over the tile's columns. -/
theorem diag_apply : k0_pay19 (F := Ideal) (k0_pay12 x0 x2) (k0_pay13 i) (ix2 r 0) = tDiag x0 x2 (i 0).val (i 1).val r := by
  unfold k0_pay19
  refine (colsum_apply _ _ _ r).trans ?_
  unfold tDiag
  refine Finset.sum_congr rfl fun jj _ => ?_
  rw [select_apply, select_ite, broadcast_apply, logit_apply]
  by_cases h : tOwn (i 0).val (i 1).val r jj
  · rw [if_pos ((own_apply i r jj).mpr h), if_pos h]
  · rw [if_neg (fun hh => h ((own_apply i r jj).mp hh)), if_neg h]; exact Ideal.ofBits_zero_f32

/-- Scratch 0 (the other labels' exponentials): the previous column plus the tile's sum. -/
theorem upd0_apply : k0_pay20 (F := Ideal) (k0_pay16 x0 x2 x1 x3) sp (ix2 r 0) = sp (ix2 r 0) + tNeg x0 x2 x1 x3 r := by
  unfold k0_pay20
  rw [shapeCast_self, addf_apply, neg_apply]

/-- Scratch 1 (every column but the own one). -/
theorem upd1_apply : k0_pay21 (F := Ideal) (k0_pay17 i x0 x2) sp (ix2 r 0)
    = sp (ix2 r 0) + tSelf x0 x2 (i 0).val (i 1).val r := by
  unfold k0_pay21
  rw [shapeCast_self, addf_apply, col_apply, self_apply]

/-- Scratch 2 (the same label's logits, own column left out). -/
theorem upd2_apply : k0_pay22 (F := Ideal) (k0_pay12 x0 x2) (k0_pay13 i) (k0_pay14 x1 x3) sp (ix2 r 0)
    = sp (ix2 r 0) + tPos x0 x2 x1 x3 (i 0).val (i 1).val r := by
  unfold k0_pay22
  rw [shapeCast_self, addf_apply]
  congr 1
  refine (colsum_apply _ _ _ r).trans ?_
  unfold tPos
  refine Finset.sum_congr rfl fun jj _ => ?_
  rw [select_apply, select_ite, broadcast_apply, logit_apply]
  by_cases h : tSame x1 x3 r jj ∧ ¬ tOwn (i 0).val (i 1).val r jj
  · rw [if_pos ((pos_iff x1 x3 i r jj).mpr h), if_pos h]
  · rw [if_neg (fun hh => h ((pos_iff x1 x3 i r jj).mp hh)), if_neg h]; exact Ideal.ofBits_zero_f32

/-- Scratch 3 (their count). -/
theorem upd3_apply : k0_pay23 (F := Ideal) (k0_pay13 i) (k0_pay14 x1 x3) sp (ix2 r 0)
    = sp (ix2 r 0) + tCnt x1 x3 (i 0).val (i 1).val r := by
  unfold k0_pay23
  rw [shapeCast_self, addf_apply]
  congr 1
  refine (colsum_apply _ _ _ r).trans ?_
  unfold tCnt
  refine Finset.sum_congr rfl fun jj _ => ?_
  rw [sitofp_apply, extui_apply, bit_num]
  by_cases h : tSame x1 x3 r jj ∧ ¬ tOwn (i 0).val (i 1).val r jj
  · rw [if_pos ((pos_iff x1 x3 i r jj).mpr h), if_pos h]
  · rw [if_neg (fun hh => h ((pos_iff x1 x3 i r jj).mp hh)), if_neg h]

/-- Scratch 4 (the own column's logit). -/
theorem upd4_apply : k0_pay1 (F := Ideal) (k0_pay19 (k0_pay12 x0 x2) (k0_pay13 i)) sp (ix2 r 0)
    = sp (ix2 r 0) + tDiag x0 x2 (i 0).val (i 1).val r := by
  unfold k0_pay1
  rw [shapeCast_self, addf_apply, diag_apply]

/-- The five zero columns the first column tile stores. -/
theorem zero7_apply : k0_pay7 (F := Ideal) (ix2 r 0) = 0 := by
  unfold k0_pay7
  rw [shapeCast_self, broadcast_apply]; exact Ideal.ofBits_zero_f32
theorem zero8_apply : k0_pay8 (F := Ideal) (ix2 r 0) = 0 := by
  unfold k0_pay8
  rw [shapeCast_self, broadcast_apply]; exact Ideal.ofBits_zero_f32
theorem zero9_apply : k0_pay9 (F := Ideal) (ix2 r 0) = 0 := by
  unfold k0_pay9
  rw [shapeCast_self, broadcast_apply]; exact Ideal.ofBits_zero_f32
theorem zero10_apply : k0_pay10 (F := Ideal) (ix2 r 0) = 0 := by
  unfold k0_pay10
  rw [shapeCast_self, broadcast_apply]; exact Ideal.ofBits_zero_f32
theorem zero11_apply : k0_pay11 (F := Ideal) (ix2 r 0) = 0 := by
  unfold k0_pay11
  rw [shapeCast_self, broadcast_apply]; exact Ideal.ofBits_zero_f32

variable (s0 s1 s2 s3 s4 : Vec Ideal S512x1 .f32)

/-- The difference the last step forms of two finished columns. -/
theorem trip_apply (j : S512x1.Idx) : k0_pay3 (F := Ideal) s1 s4 j = tripOf (s1 j) (s4 j) := rfl
/-- The quotient the last step forms of three finished columns. -/
theorem mlpp_apply (j : S512x1.Idx) : k0_pay2 (F := Ideal) s0 s2 s3 s3 j = mlppOf (s0 j) (s2 j) (s3 j) := rfl

/-- The last column tile's three stores, from the five finished columns. -/
theorem fin4_apply : k0_pay4 (F := Ideal) s0 s2 s3 s3 s1 s4 (ix2 r 0)
    = Ideal.div (negOneW * (tripOf (s1 (ix2 r 0)) (s4 (ix2 r 0)) + mlppOf (s0 (ix2 r 0)) (s2 (ix2 r 0)) (s3 (ix2 r 0)))) twoW := by
  unfold k0_pay4
  rw [divf_apply, mulf_apply, addf_apply, trip_apply, mlpp_apply, broadcast_apply, broadcast_apply]
  rfl
theorem fin5_apply : k0_pay5 (F := Ideal) s1 s4 (ix2 r 0) = negOneW * tripOf (s1 (ix2 r 0)) (s4 (ix2 r 0)) := by
  unfold k0_pay5
  rw [mulf_apply, trip_apply, broadcast_apply]
  rfl
theorem fin6_apply : k0_pay6 (F := Ideal) s0 s2 s3 s3 (ix2 r 0)
    = negOneW * mlppOf (s0 (ix2 r 0)) (s2 (ix2 r 0)) (s3 (ix2 r 0)) := by
  unfold k0_pay6
  rw [mulf_apply, mlpp_apply, broadcast_apply]
  rfl

end Cert.KernelIdeal.KV

end
-- ==== Proof.RowMath.lean ====
/-
  The algebra that joins the two forms of Spec.lean, over the extended reals.

  For finite anchors and contrast rows every logit is a real number, the reference's division by `tempW` is the
  kernel's product with `invT = 1/tempW`, and the row maximum `M` the reference subtracts is real, so
  `exp (l - M) = exp l · exp (-M)` and `log (exp (-M) · S) = log S - M` for a positive sum `S`; where the sum
  over the other labels' columns is empty both forms take `log 0 = ⊥` and agree again.
-/
import proofs.«141703_j8598524526702_1_alg».proof.Proof.Spec

noncomputable section

namespace SupCon

open Idealize.ShloMosaic Idealize.ShloMosaic.ValueIdx

/-! ## The literal words -/

theorem zeroW_eq : zeroW = 0 := Ideal.ofBits_zero_f32
theorem oneW_eq : oneW = 1 := by simp [Ideal.ofBits, Ideal.ieee, -EReal.coe_mul]; norm_num
theorem negInfW_eq : negInfW = ⊥ := by simp [Ideal.ofBits, Ideal.ieee]
/-- Sign 0, exponent field 123, fraction 1006633: the value `(2^23 + 1006633) · 2^(123 - 127 - 23) = 9395241 · 2^-27`. -/
theorem tempW_eq : tempW = ((9395241 / 134217728 : ℝ) : EReal) := by
  simp [Ideal.ofBits, Ideal.ieee, -EReal.coe_mul]; norm_num

/-! ## Sums up to a column, one tile at a time -/

theorem upTo_zero (g : Fin 65536 → EReal) : upTo g 0 = 0 := by
  unfold upTo
  exact Finset.sum_eq_zero (fun j _ => if_neg (Nat.not_lt_zero _))

theorem upTo_full (g : Fin 65536 → EReal) : upTo g 65536 = ∑ j : Fin 65536, g j := by
  unfold upTo
  exact Finset.sum_congr rfl (fun j _ => if_pos j.isLt)

/-- A column is before the end of tile `q` when it is before the tile or inside it. -/
theorem upTo_split (g : Fin 65536 → EReal) (q : ℕ) (j : Fin 65536) :
    (if j.val < (q + 1) * 2048 then g j else 0)
      = (if j.val < q * 2048 then g j else 0) + (if q * 2048 ≤ j.val ∧ j.val < (q + 1) * 2048 then g j else 0) := by
  by_cases h1 : j.val < q * 2048
  · have h2 : j.val < (q + 1) * 2048 := by omega
    have h3 : ¬ (q * 2048 ≤ j.val ∧ j.val < (q + 1) * 2048) := by omega
    rw [if_pos h1, if_pos h2, if_neg h3, add_zero]
  · by_cases h2 : j.val < (q + 1) * 2048
    · have h3 : q * 2048 ≤ j.val ∧ j.val < (q + 1) * 2048 := ⟨by omega, h2⟩
      rw [if_neg h1, if_pos h2, if_pos h3, zero_add]
    · have h3 : ¬ (q * 2048 ≤ j.val ∧ j.val < (q + 1) * 2048) := by omega
      rw [if_neg h1, if_neg h2, if_neg h3, add_zero]

/-- The columns inside tile `q` are the 2048 columns `q * 2048 + jj`. -/
theorem sum_tile (g : Fin 65536 → EReal) (q : ℕ) (hq : q < 32) :
    (∑ j : Fin 65536, if q * 2048 ≤ j.val ∧ j.val < (q + 1) * 2048 then g j else 0)
      = ∑ jj : Fin 2048, g ⟨q * 2048 + jj.val, by have := jj.isLt; omega⟩ := by
  rw [← Finset.sum_filter]
  symm
  refine Finset.sum_bij (fun (jj : Fin 2048) _ => (⟨q * 2048 + jj.val, by have := jj.isLt; omega⟩ : Fin 65536))
    ?_ ?_ ?_ ?_
  · intro jj _
    have := jj.isLt
    simp only [Finset.mem_filter, Finset.mem_univ, true_and]
    constructor <;> omega
  · intro j1 _ j2 _ h
    have := congrArg Fin.val h
    simp only at this
    exact Fin.ext (by omega)
  · intro j hj
    simp only [Finset.mem_filter, Finset.mem_univ, true_and] at hj
    exact ⟨⟨j.val - q * 2048, by omega⟩, Finset.mem_univ _, Fin.ext (by simp only; omega)⟩
  · intro jj _
    rfl

/-- Column tile `q` adds its 2048 columns. -/
theorem upTo_tile (g : Fin 65536 → EReal) (q : ℕ) (hq : q < 32) :
    upTo g ((q + 1) * 2048) = upTo g (q * 2048) + ∑ jj : Fin 2048, g ⟨q * 2048 + jj.val, by have := jj.isLt; omega⟩ := by
  unfold upTo
  rw [Finset.sum_congr rfl (fun j _ => upTo_split g q j), Finset.sum_add_distrib, sum_tile g q hq]

/-! ## Real numbers inside the extended reals: sums, maxima, exponentials, logarithms -/

section Generic
variable {J : Type*}

/-- The coercion of a finite sum of reals is the sum of the coercions. -/
theorem coe_sum_real (s : Finset J) (f : J → ℝ) : ((∑ j ∈ s, f j : ℝ) : EReal) = ∑ j ∈ s, (f j : EReal) := by
  classical
  refine Finset.induction_on s (by simp) ?_
  intro j s hj ih
  rw [Finset.sum_insert hj, Finset.sum_insert hj, EReal.coe_add, ih]

/-- The maximum, from `⊥`, of finitely many reals, at least one, is a real. -/
theorem fold_max_real [DecidableEq J] (a : J → ℝ) (s : Finset J) (hs : s.Nonempty) :
    ∃ M : ℝ, s.fold max (⊥ : EReal) (fun j => (a j : EReal)) = (M : EReal) := by
  revert hs
  refine Finset.induction_on s (fun h => absurd h Finset.not_nonempty_empty) ?_
  intro j s hj ih _
  rw [Finset.fold_insert hj]
  rcases s.eq_empty_or_nonempty with h | h
  · subst h
    exact ⟨a j, by rw [Finset.fold_empty, max_eq_left bot_le]⟩
  · obtain ⟨M, hM⟩ := ih h
    rw [hM]
    rcases le_total (a j) M with hle | hle
    · exact ⟨M, max_eq_right (EReal.coe_le_coe_iff.2 hle)⟩
    · exact ⟨a j, max_eq_left (EReal.coe_le_coe_iff.2 hle)⟩

/-- `exp (a - M) = exp (-M) · exp a`. -/
theorem exp_sub_coe (a M : ℝ) :
    Ideal.exp ((a : EReal) - (M : EReal)) = ((Real.exp (-M) * Real.exp a : ℝ) : EReal) := by
  have h : Real.exp (a - M) = Real.exp (-M) * Real.exp a := by
    rw [← Real.exp_add]; congr 1; ring
  rw [← EReal.coe_sub, Ideal.exp_coe, h]

variable [Fintype J]

/-- The shifted exponentials off a set of columns sum to `exp (-M)` times the unshifted sum. -/
theorem sum_exp_shift (a : J → ℝ) (M : ℝ) (p : J → Prop) [DecidablePred p] :
    ∑ j, Ideal.exp ((a j : EReal) - (M : EReal)) * (if p j then (0 : EReal) else 1)
      = ((Real.exp (-M) * ∑ j, (if p j then 0 else Real.exp (a j)) : ℝ) : EReal) := by
  rw [Finset.mul_sum, coe_sum_real]
  refine Finset.sum_congr rfl (fun j _ => ?_)
  rw [exp_sub_coe]
  by_cases h : p j
  · rw [if_pos h, if_pos h, mul_zero, mul_zero, EReal.coe_zero]
  · rw [if_neg h, if_neg h, mul_one]

theorem sum_exp_mask (a : J → ℝ) (p : J → Prop) [DecidablePred p] :
    ∑ j, (if p j then (0 : EReal) else Ideal.exp (a j : EReal))
      = ((∑ j, (if p j then 0 else Real.exp (a j)) : ℝ) : EReal) := by
  rw [coe_sum_real]
  refine Finset.sum_congr rfl (fun j _ => ?_)
  by_cases h : p j
  · rw [if_pos h, if_pos h, EReal.coe_zero]
  · rw [if_neg h, if_neg h, Ideal.exp_coe]

theorem sum_ite_coe (c : J → Prop) [DecidablePred c] (f : J → ℝ) :
    (∑ j, if c j then (f j : EReal) else 0) = ((∑ j, (if c j then f j else 0) : ℝ) : EReal) := by
  rw [coe_sum_real]
  refine Finset.sum_congr rfl (fun j _ => ?_)
  by_cases h : c j
  · rw [if_pos h, if_pos h]
  · rw [if_neg h, if_neg h, EReal.coe_zero]

theorem sum_ite_one (c : J → Prop) [DecidablePred c] :
    (∑ j, if c j then (1 : EReal) else 0) = ((∑ j, (if c j then (1 : ℝ) else 0) : ℝ) : EReal) := by
  rw [coe_sum_real]
  refine Finset.sum_congr rfl (fun j _ => ?_)
  by_cases h : c j
  · rw [if_pos h, if_pos h, EReal.coe_one]
  · rw [if_neg h, if_neg h, EReal.coe_zero]

/-- `log (exp (-M) · S) = -M + log S` for a positive `S`. -/
theorem log_shift (M S : ℝ) (hS : 0 < S) :
    Ideal.log ((Real.exp (-M) * S : ℝ) : EReal) = ((-M + Real.log S : ℝ) : EReal) := by
  have hpos : 0 < Real.exp (-M) * S := mul_pos (Real.exp_pos _) hS
  rw [Ideal.log_coe, if_neg (not_le.mpr hpos), Real.log_mul (Real.exp_pos _).ne' hS.ne', Real.log_exp]

theorem log_pos_coe (S : ℝ) (hS : 0 < S) : Ideal.log (S : EReal) = (Real.log S : EReal) := by
  rw [Ideal.log_coe, if_neg (not_le.mpr hS)]

theorem log_nonpos_coe (S : ℝ) (hS : S ≤ 0) : Ideal.log (S : EReal) = ⊥ := by
  rw [Ideal.log_coe, if_pos hS]

/-- A sum of exponentials off a set of columns is positive as soon as one column is off the set. -/
theorem sum_exp_pos (a : J → ℝ) (p : J → Prop) [DecidablePred p] (j0 : J) (h0 : ¬ p j0) :
    0 < ∑ j, (if p j then 0 else Real.exp (a j)) := by
  refine Finset.sum_pos' (fun j _ => ?_) ⟨j0, Finset.mem_univ _, ?_⟩
  · by_cases h : p j
    · rw [if_pos h]
    · rw [if_neg h]; exact (Real.exp_pos _).le
  · rw [if_neg h0]; exact Real.exp_pos _

/-- The own-column loss: the maximum cancels between the shifted logit and the logarithm. -/
theorem trip_core [DecidableEq J] (a : J → ℝ) (M : ℝ) (o : J) (p : J → Prop) [DecidablePred p]
    (hp : ∀ j, p j ↔ j = o) (j0 : J) (hj0 : ¬ p j0) :
    ((a o : EReal) - (M : EReal))
        - Ideal.log ((0 : EReal) + ∑ j, Ideal.exp ((a j : EReal) - (M : EReal)) * (if p j then (0 : EReal) else 1))
      = (∑ j, if p j then (a j : EReal) else 0)
        - Ideal.log (∑ j, if p j then (0 : EReal) else Ideal.exp (a j : EReal)) := by
  have hS := sum_exp_pos a p j0 hj0
  have hdiag : (∑ j, if p j then (a j : EReal) else 0) = (a o : EReal) := by
    have : ∀ j ∈ (Finset.univ : Finset J), (if p j then (a j : EReal) else 0) = if j = o then (a j : EReal) else 0 := by
      intro j _
      by_cases h : p j
      · rw [if_pos h, if_pos ((hp j).1 h)]
      · rw [if_neg h, if_neg (fun e => h ((hp j).2 e))]
    rw [Finset.sum_congr rfl this, Finset.sum_ite_eq', if_pos (Finset.mem_univ _)]
  rw [zero_add, sum_exp_shift, sum_exp_mask, log_shift _ _ hS, log_pos_coe _ hS, hdiag,
    ← EReal.coe_sub, ← EReal.coe_sub, ← EReal.coe_sub]
  congr 1
  ring

end Generic

/-! ## The masks as indicators, and the class loss's numerator -/

section Masks
variable {J : Type*} [Fintype J]

theorem one_sub_one : (1 : EReal) - 1 = 0 := by
  rw [← EReal.coe_one, ← EReal.coe_sub, sub_self, EReal.coe_zero]

/-- Same label, and not the own column. -/
theorem posMask_eq (sm ow : Prop) [Decidable sm] [Decidable ow] :
    (if sm then (1 : EReal) else 0) * (if ow then (0 : EReal) else 1) = if sm ∧ ¬ ow then 1 else 0 := by
  by_cases h1 : sm
  · by_cases h2 : ow
    · rw [if_pos h1, if_pos h2, if_neg (fun h : sm ∧ ¬ ow => h.2 h2), mul_zero]
    · rw [if_pos h1, if_neg h2, if_pos ⟨h1, h2⟩, mul_one]
  · rw [if_neg h1, if_neg (fun h : sm ∧ ¬ ow => h1 h.1), zero_mul]

/-- `(m - 1)²` of a 0/1 mask `m` is the complementary mask. -/
theorem negMask_eq (sm : Prop) [Decidable sm] :
    ((if sm then (1 : EReal) else 0) - 1) * ((if sm then (1 : EReal) else 0) - 1) = if sm then 0 else 1 := by
  by_cases h : sm
  · rw [if_pos h, if_pos h, one_sub_one, mul_zero]
  · rw [if_neg h, if_neg h, zero_sub, neg_mul_neg, one_mul]

/-- A sum of `⊤`s and zeros with at least one `⊤` is `⊤`. -/
theorem sum_ite_top (c : J → Prop) [DecidablePred c] (j0 : J) (h0 : c j0) :
    (∑ j, if c j then (⊤ : EReal) else 0) = ⊤ := by
  classical
  rw [← Finset.add_sum_erase Finset.univ _ (Finset.mem_univ j0), if_pos h0]
  apply EReal.top_add_of_ne_bot
  have hnn : (0 : EReal) ≤ ∑ j ∈ Finset.univ.erase j0, if c j then (⊤ : EReal) else 0 := by
    refine Finset.sum_nonneg (fun j _ => ?_)
    by_cases h : c j
    · rw [if_pos h]; exact le_top
    · rw [if_neg h]
  intro hb
  rw [hb] at hnn
  exact absurd hnn (not_le.mpr EReal.bot_lt_zero)

/-- The numerator of the class loss. Where some column has another label the logarithm is real and the maximum
    cancels term by term; where none has, both logarithms are `⊥`, and both sides are `⊤` if some column counts and
    `0` if none does. -/
theorem num_core (a : J → ℝ) (M : ℝ) (sm c : J → Prop) [DecidablePred sm] [DecidablePred c] :
    (0 : EReal) + ∑ j, (if c j then (1 : EReal) else 0) *
        (((a j : EReal) - (M : EReal))
          - Ideal.log ((0 : EReal) + ∑ k, Ideal.exp ((a k : EReal) - (M : EReal)) * (if sm k then (0 : EReal) else 1)))
      = (∑ j, if c j then (a j : EReal) else 0)
          - Ideal.log (∑ k, if sm k then (0 : EReal) else Ideal.exp (a k : EReal)) * (∑ j, if c j then (1 : EReal) else 0) := by
  rw [zero_add, zero_add, sum_exp_shift, sum_exp_mask, sum_ite_coe, sum_ite_one]
  generalize (∑ k, (if sm k then 0 else Real.exp (a k))) = T
  by_cases hpos : 0 < T
  · rw [log_shift _ _ hpos, log_pos_coe _ hpos, ← EReal.coe_mul, ← EReal.coe_sub]
    have hterm : ∀ j ∈ (Finset.univ : Finset J),
        (if c j then (1 : EReal) else 0) * (((a j : EReal) - (M : EReal)) - ((-M + Real.log T : ℝ) : EReal))
          = (((if c j then a j - Real.log T else 0) : ℝ) : EReal) := by
      intro j _
      by_cases h : c j
      · rw [if_pos h, if_pos h, one_mul, ← EReal.coe_sub, ← EReal.coe_sub]
        congr 1
        ring
      · rw [if_neg h, if_neg h, zero_mul, EReal.coe_zero]
    rw [Finset.sum_congr rfl hterm, ← coe_sum_real]
    congr 1
    rw [Finset.mul_sum, ← Finset.sum_sub_distrib]
    refine Finset.sum_congr rfl (fun j _ => ?_)
    by_cases h : c j
    · rw [if_pos h, if_pos h, if_pos h, mul_one]
    · rw [if_neg h, if_neg h, if_neg h, mul_zero, sub_zero]
  · have hT0 : T ≤ 0 := not_lt.mp hpos
    have hT1 : Real.exp (-M) * T ≤ 0 := mul_nonpos_iff.2 (Or.inl ⟨(Real.exp_pos _).le, hT0⟩)
    rw [log_nonpos_coe _ hT1, log_nonpos_coe _ hT0]
    have hterm : ∀ j ∈ (Finset.univ : Finset J),
        (if c j then (1 : EReal) else 0) * (((a j : EReal) - (M : EReal)) - ⊥) = if c j then (⊤ : EReal) else 0 := by
      intro j _
      by_cases h : c j
      · rw [if_pos h, if_pos h, one_mul, ← EReal.coe_sub, EReal.coe_sub_bot]
      · rw [if_neg h, if_neg h, zero_mul]
    rw [Finset.sum_congr rfl hterm]
    by_cases hex : ∃ j0, c j0
    · obtain ⟨j0, h0⟩ := hex
      have hC : 0 < ∑ j, (if c j then (1 : ℝ) else 0) := by
        refine Finset.sum_pos' (fun j _ => ?_) ⟨j0, Finset.mem_univ _, ?_⟩
        · by_cases h : c j
          · rw [if_pos h]; exact zero_le_one
          · rw [if_neg h]
        · rw [if_pos h0]; exact one_pos
      rw [sum_ite_top c j0 h0, EReal.bot_mul_coe_of_pos hC, EReal.coe_sub_bot]
    · have hno : ∀ j, ¬ c j := fun j h => hex ⟨j, h⟩
      have e1 : (∑ j, if c j then (⊤ : EReal) else 0) = 0 := Finset.sum_eq_zero (fun j _ => if_neg (hno j))
      have e2 : (∑ j, (if c j then a j else 0)) = 0 := Finset.sum_eq_zero (fun j _ => if_neg (hno j))
      have e3 : (∑ j, (if c j then (1 : ℝ) else 0)) = 0 := Finset.sum_eq_zero (fun j _ => if_neg (hno j))
      rw [e1, e2, e3, EReal.coe_zero, mul_zero, sub_zero]

end Masks

/-! ## The two forms agree on finite inputs -/

variable (X : SX.Idx → EReal) (Y : SY.Idx → EReal) (lab : SL.Idx → BitVec 32) (ql : SQ.Idx → BitVec 32)

/-- For finite inputs each logit of row `i` is a real number, the same in both forms: dividing by `tempW` is
    multiplying by `invT`. -/
theorem logits_real (hX : ∀ a, ∃ r : ℝ, X a = (r : EReal)) (hY : ∀ a, ∃ r : ℝ, Y a = (r : EReal)) (i : Fin 1024) :
    ∃ a : Fin 65536 → ℝ, (∀ j, sK X Y i j = (a j : EReal)) ∧ (∀ j, lR X Y i j = (a j : EReal)) := by
  choose x hx using hX
  choose y hy using hY
  have hdot : ∀ j, dot X Y i j = ((∑ d : Fin 128, x (ix2 i d) * y (ix2 j d) : ℝ) : EReal) := by
    intro j
    unfold dot
    rw [coe_sum_real]
    refine Finset.sum_congr rfl (fun d _ => ?_)
    rw [hx, hy, EReal.coe_mul]
  have hc : (1 / (9395241 / 134217728 : ℝ)) = 134217728 / 9395241 := by norm_num
  refine ⟨fun j => (∑ d : Fin 128, x (ix2 i d) * y (ix2 j d)) * (134217728 / 9395241), fun j => ?_, fun j => ?_⟩
  · unfold sK
    rw [hdot, ← EReal.coe_mul]
  · unfold lR
    rw [hdot, tempW_eq, Ideal.div_coe (by norm_num), ← EReal.coe_mul, hc]

/-- The row maximum of real logits is real. -/
theorem maxR_real (i : Fin 1024) (a : Fin 65536 → ℝ) (hl : ∀ j, lR X Y i j = (a j : EReal)) :
    ∃ M : ℝ, maxR X Y i = (M : EReal) := by
  unfold maxR
  rw [negInfW_eq, show lR X Y i = fun j => (a j : EReal) from funext hl]
  exact fold_max_real a Finset.univ Finset.univ_nonempty

theorem tripR_eq (hX : ∀ a, ∃ r : ℝ, X a = (r : EReal)) (hY : ∀ a, ∃ r : ℝ, Y a = (r : EReal)) (i : Fin 1024) :
    tripR X Y i = tripK X Y i := by
  obtain ⟨a, hs, hl⟩ := logits_real X Y hX hY i
  obtain ⟨M, hM⟩ := maxR_real X Y i a hl
  unfold tripR tripK selfR selfK diagK shR selfMaskR
  rw [zeroW_eq, oneW_eq]
  simp only [hs, hl, hM]
  exact trip_core a M ⟨i.val, by have := i.isLt; omega⟩ (fun j => own i j)
    (fun j => ⟨fun h => Fin.ext h.symm, fun h => by rw [h]⟩)
    ⟨i.val + 1, by have := i.isLt; omega⟩ (by show ¬ (i.val = i.val + 1); omega)

theorem cntR_eq (i : Fin 1024) : cntR lab ql i = cntK lab ql i := by
  unfold cntR cntK posMaskR pos0R selfMaskR
  rw [zeroW_eq, oneW_eq, zero_add]
  exact Finset.sum_congr rfl (fun j _ => posMask_eq _ _)

theorem numR_eq (hX : ∀ a, ∃ r : ℝ, X a = (r : EReal)) (hY : ∀ a, ∃ r : ℝ, Y a = (r : EReal)) (i : Fin 1024) :
    numR X Y lab ql i = posSumK X Y lab ql i - Ideal.log (negK X Y lab ql i) * cntK lab ql i := by
  obtain ⟨a, hs, hl⟩ := logits_real X Y hX hY i
  obtain ⟨M, hM⟩ := maxR_real X Y i a hl
  unfold numR negR posSumK negK cntK posMaskR negMaskR pos0R selfMaskR shR
  rw [zeroW_eq, oneW_eq]
  simp only [hs, hl, hM, posMask_eq, negMask_eq]
  exact num_core a M (fun j => same lab ql i j) (fun j => same lab ql i j ∧ ¬ own i j)

theorem mlppR_eq (hX : ∀ a, ∃ r : ℝ, X a = (r : EReal)) (hY : ∀ a, ∃ r : ℝ, Y a = (r : EReal)) (i : Fin 1024) :
    mlppR X Y lab ql i = mlppK X Y lab ql i := by
  unfold mlppR mlppK
  rw [numR_eq X Y lab ql hX hY i, cntR_eq lab ql i]

end SupCon

end
-- ==== Proof.KAccum.lean ====
/-
  The five running columns after every grid point, and the three output blocks at a row tile's last point.

  By induction on the point: a row tile's first point stores zero and adds its tile's sums, every later point
  adds its tile's sums, so after column tile `q` each column holds the row's summands over the first
  `2048 (q + 1)` columns. At the last column tile that is the whole row, and the three stores are the kernel's
  closing formulas of the five finished sums.
-/
import proofs.«141703_j8598524526702_1_alg».proof.Proof.KBlocks
import proofs.«141703_j8598524526702_1_alg».proof.Proof.KPieces
import proofs.«141703_j8598524526702_1_alg».proof.Proof.KTile
import proofs.«141703_j8598524526702_1_alg».proof.Proof.RowMath

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx SupCon
open Idealize.ShloMosaic.Pipeline (Dat)

/-! ## The arithmetic of the sweep

  A quantity `S n r` attached to point `n` and block row `r` that starts, at a row tile's first point, as zero plus
  the tile's sum of `g` over its 2048 columns, and at every later point adds its own tile's sum to the point
  before, is the sum of `g` over all the columns up to the end of the point's column tile. -/

theorem point_congr {N : ℕ} (S : (n : ℕ) → n < N → Fin 512 → EReal) {a b : ℕ} (h : a = b) (ha : a < N) (hb : b < N)
    (r : Fin 512) : S a ha r = S b hb r := by
  subst h; rfl

theorem acc_first (g : Fin 1024 → Fin 65536 → EReal) (N : ℕ) (hN : ∀ n, n < N → n < 64)
    (S : (n : ℕ) → n < N → Fin 512 → EReal)
    (hA : ∀ (n : ℕ) (hn : n < N) (r : Fin 512), n % 32 = 0 →
      S n hn r = 0 + ∑ jj : Fin 2048, g (rowOf n (hN n hn) r) (colOf n (hN n hn) jj))
    (n : ℕ) (hn : n < N) (r : Fin 512) (h0 : n % 32 = 0) :
    S n hn r = upTo (g (rowOf n (hN n hn) r)) ((n % 32 + 1) * 2048) := by
  have hz : upTo (g (rowOf n (hN n hn) r)) (n % 32 * 2048) = 0 := by
    rw [h0, Nat.zero_mul]; exact upTo_zero _
  rw [hA n hn r h0, upTo_tile (g (rowOf n (hN n hn) r)) (n % 32) (Nat.mod_lt _ (by norm_num)), hz]
  rfl

theorem acc_core (g : Fin 1024 → Fin 65536 → EReal) (N : ℕ) (hN : ∀ n, n < N → n < 64)
    (S : (n : ℕ) → n < N → Fin 512 → EReal)
    (hA : ∀ (n : ℕ) (hn : n < N) (r : Fin 512), n % 32 = 0 →
      S n hn r = 0 + ∑ jj : Fin 2048, g (rowOf n (hN n hn) r) (colOf n (hN n hn) jj))
    (hB : ∀ (n : ℕ) (hn : n < N) (r : Fin 512), ¬ n % 32 = 0 →
      S n hn r = S (n - 1) (Nat.lt_of_le_of_lt (Nat.sub_le _ _) hn) r
        + ∑ jj : Fin 2048, g (rowOf n (hN n hn) r) (colOf n (hN n hn) jj)) :
    ∀ (n : ℕ) (hn : n < N) (r : Fin 512), S n hn r = upTo (g (rowOf n (hN n hn) r)) ((n % 32 + 1) * 2048) := by
  intro n
  induction n with
  | zero => intro hn r; exact acc_first g N hN S hA 0 hn r rfl
  | succ k ih =>
    intro hn r
    by_cases h0 : (k + 1) % 32 = 0
    · exact acc_first g N hN S hA (k + 1) hn r h0
    · have hk : k < N := Nat.lt_of_succ_lt hn
      have hrow : rowOf k (hN k hk) r = rowOf (k + 1) (hN (k + 1) hn) r :=
        Fin.ext (by show k / 32 * 512 + r.val = (k + 1) / 32 * 512 + r.val; omega)
      have hq : k % 32 + 1 = (k + 1) % 32 := by omega
      rw [hB (k + 1) hn r h0, point_congr S (by omega : k + 1 - 1 = k) _ hk r, ih hk r, hrow, hq]
      exact (upTo_tile (g (rowOf (k + 1) (hN (k + 1) hn) r)) ((k + 1) % 32) (Nat.mod_lt _ (by norm_num))).symm

variable (m : (ℓ : Loc nD τ sig) → Buf (Elt Ideal) ℓ)

/-! ## What each point leaves, read from the case equations -/

/-- The five running columns as the point before `t` left them. -/
abbrev prev0 (c : Dev nD) (t : Fin cfg0.N) : Vec Ideal S512x1 .f32 :=
  (outsAt0 (F := Ideal) m c (t.val - 1) (Nat.lt_of_le_of_lt (Nat.sub_le _ _) t.isLt)).2.2.2.1
abbrev prev1 (c : Dev nD) (t : Fin cfg0.N) : Vec Ideal S512x1 .f32 :=
  (outsAt0 (F := Ideal) m c (t.val - 1) (Nat.lt_of_le_of_lt (Nat.sub_le _ _) t.isLt)).2.2.2.2.1
abbrev prev2 (c : Dev nD) (t : Fin cfg0.N) : Vec Ideal S512x1 .f32 :=
  (outsAt0 (F := Ideal) m c (t.val - 1) (Nat.lt_of_le_of_lt (Nat.sub_le _ _) t.isLt)).2.2.2.2.2.1
abbrev prev3 (c : Dev nD) (t : Fin cfg0.N) : Vec Ideal S512x1 .f32 :=
  (outsAt0 (F := Ideal) m c (t.val - 1) (Nat.lt_of_le_of_lt (Nat.sub_le _ _) t.isLt)).2.2.2.2.2.2.1
abbrev prev4 (c : Dev nD) (t : Fin cfg0.N) : Vec Ideal S512x1 .f32 :=
  (outsAt0 (F := Ideal) m c (t.val - 1) (Nat.lt_of_le_of_lt (Nat.sub_le _ _) t.isLt)).2.2.2.2.2.2.2

/-- A piece lemma of the first column tile, at the arguments the case equation of point `t` names. -/
local macro "at_A% " f:ident m:ident c:ident t:ident h0:ident h1:ident : term =>
  `($f (F := Ideal) $c (grid0.coords $t) (ms0_0 $t) (hs0_0 $t) (ms0_1 $t) (hs0_1 $t) (ms0_2 $t) (hs0_2 $t) (ms0_3 $t) (hs0_3 $t)
      (ms0_4 $t) (hs0_4 $t) (ms0_5 $t) (hs0_5 $t) (ms0_6 $t) (hs0_6 $t)
      scM0_0 (Memref.isWhole_whole cc0_scratch0) scM0_1 (Memref.isWhole_whole cc0_scratch1)
      scM0_2 (Memref.isWhole_whole cc0_scratch2) scM0_3 (Memref.isWhole_whole cc0_scratch3)
      scM0_4 (Memref.isWhole_whole cc0_scratch4)
      ((hcond0_0 $t).mpr $h0) (fun h => $h1 ((hcond0_1 $t).mp h))
      (xblk $m $c $t) (lblk $m $c $t) (yblk $m $c $t) (qblk $m $c $t))

/-- A piece lemma of a middle column tile. -/
local macro "at_B% " f:ident m:ident c:ident t:ident h0:ident h1:ident : term =>
  `($f (F := Ideal) $c (grid0.coords $t) (ms0_0 $t) (hs0_0 $t) (ms0_1 $t) (hs0_1 $t) (ms0_2 $t) (hs0_2 $t) (ms0_3 $t) (hs0_3 $t)
      (ms0_4 $t) (hs0_4 $t) (ms0_5 $t) (hs0_5 $t) (ms0_6 $t) (hs0_6 $t)
      scM0_0 (Memref.isWhole_whole cc0_scratch0) scM0_1 (Memref.isWhole_whole cc0_scratch1)
      scM0_2 (Memref.isWhole_whole cc0_scratch2) scM0_3 (Memref.isWhole_whole cc0_scratch3)
      scM0_4 (Memref.isWhole_whole cc0_scratch4)
      (fun h => $h0 ((hcond0_0 $t).mp h)) (fun h => $h1 ((hcond0_1 $t).mp h))
      (xblk $m $c $t) (lblk $m $c $t) (yblk $m $c $t) (qblk $m $c $t)
      (prev0 $m $c $t) (prev1 $m $c $t) (prev2 $m $c $t) (prev3 $m $c $t) (prev4 $m $c $t))

/-- A piece lemma of the last column tile. -/
local macro "at_C% " f:ident m:ident c:ident t:ident h0:ident h1:ident : term =>
  `($f (F := Ideal) $c (grid0.coords $t) (ms0_0 $t) (hs0_0 $t) (ms0_1 $t) (hs0_1 $t) (ms0_2 $t) (hs0_2 $t) (ms0_3 $t) (hs0_3 $t)
      (ms0_4 $t) (hs0_4 $t) (ms0_5 $t) (hs0_5 $t) (ms0_6 $t) (hs0_6 $t)
      scM0_0 (Memref.isWhole_whole cc0_scratch0) scM0_1 (Memref.isWhole_whole cc0_scratch1)
      scM0_2 (Memref.isWhole_whole cc0_scratch2) scM0_3 (Memref.isWhole_whole cc0_scratch3)
      scM0_4 (Memref.isWhole_whole cc0_scratch4)
      (fun h => $h0 ((hcond0_0 $t).mp h)) ((hcond0_1 $t).mpr $h1)
      (xblk $m $c $t) (lblk $m $c $t) (yblk $m $c $t) (qblk $m $c $t)
      (prev0 $m $c $t) (prev1 $m $c $t) (prev2 $m $c $t) (prev3 $m $c $t) (prev4 $m $c $t))

/-! ### Column 0: the other labels' exponentials -/

theorem colA_0 (c : Dev nD) (t : Fin cfg0.N) (h0 : t.val % 32 = 0) (h1 : ¬ t.val % 32 = 31) :
    (outsAt0 (F := Ideal) m c t.val t.isLt).2.2.2.1
      = k0_pay20 (F := Ideal) (k0_pay16 (xblk m c t) (yblk m c t) (lblk m c t) (qblk m c t)) (k0_pay7 (F := Ideal)) := by
  rw [outsAt0_A m c t h0 h1]
  dsimp only
  exact at_A% sout_A_0 m c t h0 h1

theorem colB_0 (c : Dev nD) (t : Fin cfg0.N) (h0 : ¬ t.val % 32 = 0) (h1 : ¬ t.val % 32 = 31) :
    (outsAt0 (F := Ideal) m c t.val t.isLt).2.2.2.1
      = k0_pay20 (F := Ideal) (k0_pay16 (xblk m c t) (yblk m c t) (lblk m c t) (qblk m c t)) (prev0 m c t) := by
  rw [outsAt0_B m c t h0 h1]
  dsimp only
  exact at_B% sout_B_0 m c t h0 h1

theorem colC_0 (c : Dev nD) (t : Fin cfg0.N) (h0 : ¬ t.val % 32 = 0) (h1 : t.val % 32 = 31) :
    (outsAt0 (F := Ideal) m c t.val t.isLt).2.2.2.1
      = k0_pay20 (F := Ideal) (k0_pay16 (xblk m c t) (yblk m c t) (lblk m c t) (qblk m c t)) (prev0 m c t) := by
  rw [outsAt0_C m c t h0 h1]
  dsimp only
  exact at_C% sout_C_0 m c t h0 h1

/-! ### Column 1: every column but the own one -/

theorem colA_1 (c : Dev nD) (t : Fin cfg0.N) (h0 : t.val % 32 = 0) (h1 : ¬ t.val % 32 = 31) :
    (outsAt0 (F := Ideal) m c t.val t.isLt).2.2.2.2.1
      = k0_pay21 (F := Ideal) (k0_pay17 (grid0.coords t) (xblk m c t) (yblk m c t)) (k0_pay8 (F := Ideal)) := by
  rw [outsAt0_A m c t h0 h1]
  dsimp only
  exact at_A% sout_A_1 m c t h0 h1

theorem colB_1 (c : Dev nD) (t : Fin cfg0.N) (h0 : ¬ t.val % 32 = 0) (h1 : ¬ t.val % 32 = 31) :
    (outsAt0 (F := Ideal) m c t.val t.isLt).2.2.2.2.1
      = k0_pay21 (F := Ideal) (k0_pay17 (grid0.coords t) (xblk m c t) (yblk m c t)) (prev1 m c t) := by
  rw [outsAt0_B m c t h0 h1]
  dsimp only
  exact at_B% sout_B_1 m c t h0 h1

theorem colC_1 (c : Dev nD) (t : Fin cfg0.N) (h0 : ¬ t.val % 32 = 0) (h1 : t.val % 32 = 31) :
    (outsAt0 (F := Ideal) m c t.val t.isLt).2.2.2.2.1
      = k0_pay21 (F := Ideal) (k0_pay17 (grid0.coords t) (xblk m c t) (yblk m c t)) (prev1 m c t) := by
  rw [outsAt0_C m c t h0 h1]
  dsimp only
  exact at_C% sout_C_1 m c t h0 h1

/-! ### Column 2: the same label's logits, own column left out -/

theorem colA_2 (c : Dev nD) (t : Fin cfg0.N) (h0 : t.val % 32 = 0) (h1 : ¬ t.val % 32 = 31) :
    (outsAt0 (F := Ideal) m c t.val t.isLt).2.2.2.2.2.1
      = k0_pay22 (F := Ideal) (k0_pay12 (xblk m c t) (yblk m c t)) (k0_pay13 (grid0.coords t))
          (k0_pay14 (F := Ideal) (lblk m c t) (qblk m c t)) (k0_pay9 (F := Ideal)) := by
  rw [outsAt0_A m c t h0 h1]
  dsimp only
  exact at_A% sout_A_2 m c t h0 h1

theorem colB_2 (c : Dev nD) (t : Fin cfg0.N) (h0 : ¬ t.val % 32 = 0) (h1 : ¬ t.val % 32 = 31) :
    (outsAt0 (F := Ideal) m c t.val t.isLt).2.2.2.2.2.1
      = k0_pay22 (F := Ideal) (k0_pay12 (xblk m c t) (yblk m c t)) (k0_pay13 (grid0.coords t))
          (k0_pay14 (F := Ideal) (lblk m c t) (qblk m c t)) (prev2 m c t) := by
  rw [outsAt0_B m c t h0 h1]
  dsimp only
  exact at_B% sout_B_2 m c t h0 h1

theorem colC_2 (c : Dev nD) (t : Fin cfg0.N) (h0 : ¬ t.val % 32 = 0) (h1 : t.val % 32 = 31) :
    (outsAt0 (F := Ideal) m c t.val t.isLt).2.2.2.2.2.1
      = k0_pay22 (F := Ideal) (k0_pay12 (xblk m c t) (yblk m c t)) (k0_pay13 (grid0.coords t))
          (k0_pay14 (F := Ideal) (lblk m c t) (qblk m c t)) (prev2 m c t) := by
  rw [outsAt0_C m c t h0 h1]
  dsimp only
  exact at_C% sout_C_2 m c t h0 h1

/-! ### Column 3: their count -/

theorem colA_3 (c : Dev nD) (t : Fin cfg0.N) (h0 : t.val % 32 = 0) (h1 : ¬ t.val % 32 = 31) :
    (outsAt0 (F := Ideal) m c t.val t.isLt).2.2.2.2.2.2.1
      = k0_pay23 (F := Ideal) (k0_pay13 (grid0.coords t)) (k0_pay14 (F := Ideal) (lblk m c t) (qblk m c t)) (k0_pay10 (F := Ideal)) := by
  rw [outsAt0_A m c t h0 h1]
  dsimp only
  exact at_A% sout_A_3 m c t h0 h1

theorem colB_3 (c : Dev nD) (t : Fin cfg0.N) (h0 : ¬ t.val % 32 = 0) (h1 : ¬ t.val % 32 = 31) :
    (outsAt0 (F := Ideal) m c t.val t.isLt).2.2.2.2.2.2.1
      = k0_pay23 (F := Ideal) (k0_pay13 (grid0.coords t)) (k0_pay14 (F := Ideal) (lblk m c t) (qblk m c t)) (prev3 m c t) := by
  rw [outsAt0_B m c t h0 h1]
  dsimp only
  exact at_B% sout_B_3 m c t h0 h1

theorem colC_3 (c : Dev nD) (t : Fin cfg0.N) (h0 : ¬ t.val % 32 = 0) (h1 : t.val % 32 = 31) :
    (outsAt0 (F := Ideal) m c t.val t.isLt).2.2.2.2.2.2.1
      = k0_pay23 (F := Ideal) (k0_pay13 (grid0.coords t)) (k0_pay14 (F := Ideal) (lblk m c t) (qblk m c t)) (prev3 m c t) := by
  rw [outsAt0_C m c t h0 h1]
  dsimp only
  exact at_C% sout_C_3 m c t h0 h1

/-! ### Column 4: the own column's logit -/

theorem colA_4 (c : Dev nD) (t : Fin cfg0.N) (h0 : t.val % 32 = 0) (h1 : ¬ t.val % 32 = 31) :
    (outsAt0 (F := Ideal) m c t.val t.isLt).2.2.2.2.2.2.2
      = k0_pay1 (F := Ideal) (k0_pay19 (k0_pay12 (xblk m c t) (yblk m c t)) (k0_pay13 (grid0.coords t))) (k0_pay11 (F := Ideal)) := by
  rw [outsAt0_A m c t h0 h1]
  dsimp only
  exact at_A% sout_A_4 m c t h0 h1

theorem colB_4 (c : Dev nD) (t : Fin cfg0.N) (h0 : ¬ t.val % 32 = 0) (h1 : ¬ t.val % 32 = 31) :
    (outsAt0 (F := Ideal) m c t.val t.isLt).2.2.2.2.2.2.2
      = k0_pay1 (F := Ideal) (k0_pay19 (k0_pay12 (xblk m c t) (yblk m c t)) (k0_pay13 (grid0.coords t))) (prev4 m c t) := by
  rw [outsAt0_B m c t h0 h1]
  dsimp only
  exact at_B% sout_B_4 m c t h0 h1

theorem colC_4 (c : Dev nD) (t : Fin cfg0.N) (h0 : ¬ t.val % 32 = 0) (h1 : t.val % 32 = 31) :
    (outsAt0 (F := Ideal) m c t.val t.isLt).2.2.2.2.2.2.2
      = k0_pay1 (F := Ideal) (k0_pay19 (k0_pay12 (xblk m c t) (yblk m c t)) (k0_pay13 (grid0.coords t))) (prev4 m c t) := by
  rw [outsAt0_C m c t h0 h1]
  dsimp only
  exact at_C% sout_C_4 m c t h0 h1

/-! ## The tile sums at the point's coordinates -/

theorem tSelf_pt (c : Dev nD) (t : Fin cfg0.N) (r : Fin 512) :
    tSelf (xblk m c t) (yblk m c t) ((grid0.coords t) 0).val ((grid0.coords t) 1).val r
      = ∑ jj : Fin 2048, gSelf (Xa m c) (Ya m c) (rowOf t.val (tlt t) r) (colOf t.val (tlt t) jj) := by
  rw [coords0 t, coords1 t]; exact tSelf_blk m c t r

theorem tPos_pt (c : Dev nD) (t : Fin cfg0.N) (r : Fin 512) :
    tPos (xblk m c t) (yblk m c t) (lblk m c t) (qblk m c t) ((grid0.coords t) 0).val ((grid0.coords t) 1).val r
      = ∑ jj : Fin 2048, gPos (Xa m c) (Ya m c) (La m c) (Qa m c) (rowOf t.val (tlt t) r) (colOf t.val (tlt t) jj) := by
  rw [coords0 t, coords1 t]; exact tPos_blk m c t r

theorem tCnt_pt (c : Dev nD) (t : Fin cfg0.N) (r : Fin 512) :
    tCnt (lblk m c t) (qblk m c t) ((grid0.coords t) 0).val ((grid0.coords t) 1).val r
      = ∑ jj : Fin 2048, gCnt (La m c) (Qa m c) (rowOf t.val (tlt t) r) (colOf t.val (tlt t) jj) := by
  rw [coords0 t, coords1 t]; exact tCnt_blk m c t r

theorem tDiag_pt (c : Dev nD) (t : Fin cfg0.N) (r : Fin 512) :
    tDiag (xblk m c t) (yblk m c t) ((grid0.coords t) 0).val ((grid0.coords t) 1).val r
      = ∑ jj : Fin 2048, gDiag (Xa m c) (Ya m c) (rowOf t.val (tlt t) r) (colOf t.val (tlt t) jj) := by
  rw [coords0 t, coords1 t]; exact tDiag_blk m c t r

/-! ## One point's step, row by row

  At a row tile's first point each column is zero plus the tile's sum; at any other point it is what the point
  before left plus the tile's sum. -/

theorem first_0 (c : Dev nD) (t : Fin cfg0.N) (h0 : t.val % 32 = 0) (r : Fin 512) :
    (outsAt0 (F := Ideal) m c t.val t.isLt).2.2.2.1 (ix2 r 0)
      = 0 + ∑ jj : Fin 2048, gNeg (Xa m c) (Ya m c) (La m c) (Qa m c) (rowOf t.val (tlt t) r) (colOf t.val (tlt t) jj) := by
  have h1 : ¬ t.val % 32 = 31 := by omega
  refine (congrFun (colA_0 m c t h0 h1) (ix2 r 0)).trans ?_
  refine (upd0_apply (xblk m c t) (lblk m c t) (yblk m c t) (qblk m c t) (k0_pay7 (F := Ideal)) r).trans ?_
  rw [zero7_apply r, tNeg_blk m c t r]

theorem next_0 (c : Dev nD) (t : Fin cfg0.N) (h0 : ¬ t.val % 32 = 0) (r : Fin 512) :
    (outsAt0 (F := Ideal) m c t.val t.isLt).2.2.2.1 (ix2 r 0)
      = prev0 m c t (ix2 r 0)
        + ∑ jj : Fin 2048, gNeg (Xa m c) (Ya m c) (La m c) (Qa m c) (rowOf t.val (tlt t) r) (colOf t.val (tlt t) jj) := by
  have e : (outsAt0 (F := Ideal) m c t.val t.isLt).2.2.2.1
      = k0_pay20 (F := Ideal) (k0_pay16 (xblk m c t) (yblk m c t) (lblk m c t) (qblk m c t)) (prev0 m c t) := by
    by_cases h1 : t.val % 32 = 31
    · exact colC_0 m c t h0 h1
    · exact colB_0 m c t h0 h1
  refine (congrFun e (ix2 r 0)).trans ?_
  refine (upd0_apply (xblk m c t) (lblk m c t) (yblk m c t) (qblk m c t) (prev0 m c t) r).trans ?_
  rw [tNeg_blk m c t r]

theorem first_1 (c : Dev nD) (t : Fin cfg0.N) (h0 : t.val % 32 = 0) (r : Fin 512) :
    (outsAt0 (F := Ideal) m c t.val t.isLt).2.2.2.2.1 (ix2 r 0)
      = 0 + ∑ jj : Fin 2048, gSelf (Xa m c) (Ya m c) (rowOf t.val (tlt t) r) (colOf t.val (tlt t) jj) := by
  have h1 : ¬ t.val % 32 = 31 := by omega
  refine (congrFun (colA_1 m c t h0 h1) (ix2 r 0)).trans ?_
  refine (upd1_apply (xblk m c t) (yblk m c t) (grid0.coords t) (k0_pay8 (F := Ideal)) r).trans ?_
  rw [zero8_apply r, tSelf_pt m c t r]

theorem next_1 (c : Dev nD) (t : Fin cfg0.N) (h0 : ¬ t.val % 32 = 0) (r : Fin 512) :
    (outsAt0 (F := Ideal) m c t.val t.isLt).2.2.2.2.1 (ix2 r 0)
      = prev1 m c t (ix2 r 0)
        + ∑ jj : Fin 2048, gSelf (Xa m c) (Ya m c) (rowOf t.val (tlt t) r) (colOf t.val (tlt t) jj) := by
  have e : (outsAt0 (F := Ideal) m c t.val t.isLt).2.2.2.2.1
      = k0_pay21 (F := Ideal) (k0_pay17 (grid0.coords t) (xblk m c t) (yblk m c t)) (prev1 m c t) := by
    by_cases h1 : t.val % 32 = 31
    · exact colC_1 m c t h0 h1
    · exact colB_1 m c t h0 h1
  refine (congrFun e (ix2 r 0)).trans ?_
  refine (upd1_apply (xblk m c t) (yblk m c t) (grid0.coords t) (prev1 m c t) r).trans ?_
  rw [tSelf_pt m c t r]

theorem first_2 (c : Dev nD) (t : Fin cfg0.N) (h0 : t.val % 32 = 0) (r : Fin 512) :
    (outsAt0 (F := Ideal) m c t.val t.isLt).2.2.2.2.2.1 (ix2 r 0)
      = 0 + ∑ jj : Fin 2048, gPos (Xa m c) (Ya m c) (La m c) (Qa m c) (rowOf t.val (tlt t) r) (colOf t.val (tlt t) jj) := by
  have h1 : ¬ t.val % 32 = 31 := by omega
  refine (congrFun (colA_2 m c t h0 h1) (ix2 r 0)).trans ?_
  refine (upd2_apply (xblk m c t) (lblk m c t) (yblk m c t) (qblk m c t) (grid0.coords t) (k0_pay9 (F := Ideal)) r).trans ?_
  rw [zero9_apply r, tPos_pt m c t r]

theorem next_2 (c : Dev nD) (t : Fin cfg0.N) (h0 : ¬ t.val % 32 = 0) (r : Fin 512) :
    (outsAt0 (F := Ideal) m c t.val t.isLt).2.2.2.2.2.1 (ix2 r 0)
      = prev2 m c t (ix2 r 0)
        + ∑ jj : Fin 2048, gPos (Xa m c) (Ya m c) (La m c) (Qa m c) (rowOf t.val (tlt t) r) (colOf t.val (tlt t) jj) := by
  have e : (outsAt0 (F := Ideal) m c t.val t.isLt).2.2.2.2.2.1
      = k0_pay22 (F := Ideal) (k0_pay12 (xblk m c t) (yblk m c t)) (k0_pay13 (grid0.coords t))
          (k0_pay14 (F := Ideal) (lblk m c t) (qblk m c t)) (prev2 m c t) := by
    by_cases h1 : t.val % 32 = 31
    · exact colC_2 m c t h0 h1
    · exact colB_2 m c t h0 h1
  refine (congrFun e (ix2 r 0)).trans ?_
  refine (upd2_apply (xblk m c t) (lblk m c t) (yblk m c t) (qblk m c t) (grid0.coords t) (prev2 m c t) r).trans ?_
  rw [tPos_pt m c t r]

theorem first_3 (c : Dev nD) (t : Fin cfg0.N) (h0 : t.val % 32 = 0) (r : Fin 512) :
    (outsAt0 (F := Ideal) m c t.val t.isLt).2.2.2.2.2.2.1 (ix2 r 0)
      = 0 + ∑ jj : Fin 2048, gCnt (La m c) (Qa m c) (rowOf t.val (tlt t) r) (colOf t.val (tlt t) jj) := by
  have h1 : ¬ t.val % 32 = 31 := by omega
  refine (congrFun (colA_3 m c t h0 h1) (ix2 r 0)).trans ?_
  refine (upd3_apply (lblk m c t) (qblk m c t) (grid0.coords t) (k0_pay10 (F := Ideal)) r).trans ?_
  rw [zero10_apply r, tCnt_pt m c t r]

theorem next_3 (c : Dev nD) (t : Fin cfg0.N) (h0 : ¬ t.val % 32 = 0) (r : Fin 512) :
    (outsAt0 (F := Ideal) m c t.val t.isLt).2.2.2.2.2.2.1 (ix2 r 0)
      = prev3 m c t (ix2 r 0)
        + ∑ jj : Fin 2048, gCnt (La m c) (Qa m c) (rowOf t.val (tlt t) r) (colOf t.val (tlt t) jj) := by
  have e : (outsAt0 (F := Ideal) m c t.val t.isLt).2.2.2.2.2.2.1
      = k0_pay23 (F := Ideal) (k0_pay13 (grid0.coords t)) (k0_pay14 (F := Ideal) (lblk m c t) (qblk m c t)) (prev3 m c t) := by
    by_cases h1 : t.val % 32 = 31
    · exact colC_3 m c t h0 h1
    · exact colB_3 m c t h0 h1
  refine (congrFun e (ix2 r 0)).trans ?_
  refine (upd3_apply (lblk m c t) (qblk m c t) (grid0.coords t) (prev3 m c t) r).trans ?_
  rw [tCnt_pt m c t r]

theorem first_4 (c : Dev nD) (t : Fin cfg0.N) (h0 : t.val % 32 = 0) (r : Fin 512) :
    (outsAt0 (F := Ideal) m c t.val t.isLt).2.2.2.2.2.2.2 (ix2 r 0)
      = 0 + ∑ jj : Fin 2048, gDiag (Xa m c) (Ya m c) (rowOf t.val (tlt t) r) (colOf t.val (tlt t) jj) := by
  have h1 : ¬ t.val % 32 = 31 := by omega
  refine (congrFun (colA_4 m c t h0 h1) (ix2 r 0)).trans ?_
  refine (upd4_apply (xblk m c t) (yblk m c t) (grid0.coords t) (k0_pay11 (F := Ideal)) r).trans ?_
  rw [zero11_apply r, tDiag_pt m c t r]

theorem next_4 (c : Dev nD) (t : Fin cfg0.N) (h0 : ¬ t.val % 32 = 0) (r : Fin 512) :
    (outsAt0 (F := Ideal) m c t.val t.isLt).2.2.2.2.2.2.2 (ix2 r 0)
      = prev4 m c t (ix2 r 0)
        + ∑ jj : Fin 2048, gDiag (Xa m c) (Ya m c) (rowOf t.val (tlt t) r) (colOf t.val (tlt t) jj) := by
  have e : (outsAt0 (F := Ideal) m c t.val t.isLt).2.2.2.2.2.2.2
      = k0_pay1 (F := Ideal) (k0_pay19 (k0_pay12 (xblk m c t) (yblk m c t)) (k0_pay13 (grid0.coords t))) (prev4 m c t) := by
    by_cases h1 : t.val % 32 = 31
    · exact colC_4 m c t h0 h1
    · exact colB_4 m c t h0 h1
  refine (congrFun e (ix2 r 0)).trans ?_
  refine (upd4_apply (xblk m c t) (yblk m c t) (grid0.coords t) (prev4 m c t) r).trans ?_
  rw [tDiag_pt m c t r]

/-- After point `t`, row `r` of each running column is the row's summands over the columns seen so far. -/
theorem scratch_eq (c : Dev nD) (t : Fin cfg0.N) (r : Fin 512) :
    (outsAt0 (F := Ideal) m c t.val t.isLt).2.2.2.1 (ix2 r 0) = upTo (gNeg (Xa m c) (Ya m c) (La m c) (Qa m c) (rowOf t.val (tlt t) r)) ((t.val % 32 + 1) * 2048)
    ∧ (outsAt0 (F := Ideal) m c t.val t.isLt).2.2.2.2.1 (ix2 r 0) = upTo (gSelf (Xa m c) (Ya m c) (rowOf t.val (tlt t) r)) ((t.val % 32 + 1) * 2048)
    ∧ (outsAt0 (F := Ideal) m c t.val t.isLt).2.2.2.2.2.1 (ix2 r 0) = upTo (gPos (Xa m c) (Ya m c) (La m c) (Qa m c) (rowOf t.val (tlt t) r)) ((t.val % 32 + 1) * 2048)
    ∧ (outsAt0 (F := Ideal) m c t.val t.isLt).2.2.2.2.2.2.1 (ix2 r 0) = upTo (gCnt (La m c) (Qa m c) (rowOf t.val (tlt t) r)) ((t.val % 32 + 1) * 2048)
    ∧ (outsAt0 (F := Ideal) m c t.val t.isLt).2.2.2.2.2.2.2 (ix2 r 0) = upTo (gDiag (Xa m c) (Ya m c) (rowOf t.val (tlt t) r)) ((t.val % 32 + 1) * 2048) :=
  ⟨acc_core (gNeg (Xa m c) (Ya m c) (La m c) (Qa m c)) cfg0.N (fun n hn => tlt ⟨n, hn⟩)
      (fun n hn r => (outsAt0 (F := Ideal) m c n hn).2.2.2.1 (ix2 r 0))
      (fun n hn r h0 => first_0 m c ⟨n, hn⟩ h0 r) (fun n hn r h0 => next_0 m c ⟨n, hn⟩ h0 r) t.val t.isLt r,
   acc_core (gSelf (Xa m c) (Ya m c)) cfg0.N (fun n hn => tlt ⟨n, hn⟩)
      (fun n hn r => (outsAt0 (F := Ideal) m c n hn).2.2.2.2.1 (ix2 r 0))
      (fun n hn r h0 => first_1 m c ⟨n, hn⟩ h0 r) (fun n hn r h0 => next_1 m c ⟨n, hn⟩ h0 r) t.val t.isLt r,
   acc_core (gPos (Xa m c) (Ya m c) (La m c) (Qa m c)) cfg0.N (fun n hn => tlt ⟨n, hn⟩)
      (fun n hn r => (outsAt0 (F := Ideal) m c n hn).2.2.2.2.2.1 (ix2 r 0))
      (fun n hn r h0 => first_2 m c ⟨n, hn⟩ h0 r) (fun n hn r h0 => next_2 m c ⟨n, hn⟩ h0 r) t.val t.isLt r,
   acc_core (gCnt (La m c) (Qa m c)) cfg0.N (fun n hn => tlt ⟨n, hn⟩)
      (fun n hn r => (outsAt0 (F := Ideal) m c n hn).2.2.2.2.2.2.1 (ix2 r 0))
      (fun n hn r h0 => first_3 m c ⟨n, hn⟩ h0 r) (fun n hn r h0 => next_3 m c ⟨n, hn⟩ h0 r) t.val t.isLt r,
   acc_core (gDiag (Xa m c) (Ya m c)) cfg0.N (fun n hn => tlt ⟨n, hn⟩)
      (fun n hn r => (outsAt0 (F := Ideal) m c n hn).2.2.2.2.2.2.2 (ix2 r 0))
      (fun n hn r h0 => first_4 m c ⟨n, hn⟩ h0 r) (fun n hn r h0 => next_4 m c ⟨n, hn⟩ h0 r) t.val t.isLt r⟩

/-! ## The last column tile: the five finished sums and the three stores -/

/-- The five running columns as the last column tile's additions leave them. -/
abbrev new0 (c : Dev nD) (t : Fin cfg0.N) : Vec Ideal S512x1 .f32 :=
  k0_pay20 (F := Ideal) (k0_pay16 (xblk m c t) (yblk m c t) (lblk m c t) (qblk m c t)) (prev0 m c t)
abbrev new1 (c : Dev nD) (t : Fin cfg0.N) : Vec Ideal S512x1 .f32 :=
  k0_pay21 (F := Ideal) (k0_pay17 (grid0.coords t) (xblk m c t) (yblk m c t)) (prev1 m c t)
abbrev new2 (c : Dev nD) (t : Fin cfg0.N) : Vec Ideal S512x1 .f32 :=
  k0_pay22 (F := Ideal) (k0_pay12 (xblk m c t) (yblk m c t)) (k0_pay13 (grid0.coords t))
    (k0_pay14 (F := Ideal) (lblk m c t) (qblk m c t)) (prev2 m c t)
abbrev new3 (c : Dev nD) (t : Fin cfg0.N) : Vec Ideal S512x1 .f32 :=
  k0_pay23 (F := Ideal) (k0_pay13 (grid0.coords t)) (k0_pay14 (F := Ideal) (lblk m c t) (qblk m c t)) (prev3 m c t)
abbrev new4 (c : Dev nD) (t : Fin cfg0.N) : Vec Ideal S512x1 .f32 :=
  k0_pay1 (F := Ideal) (k0_pay19 (k0_pay12 (xblk m c t) (yblk m c t)) (k0_pay13 (grid0.coords t))) (prev4 m c t)

theorem outC_4 (c : Dev nD) (t : Fin cfg0.N) (h0 : ¬ t.val % 32 = 0) (h1 : t.val % 32 = 31) :
    (outsAt0 (F := Ideal) m c t.val t.isLt).1
      = k0_pay4 (F := Ideal) (new0 m c t) (new2 m c t) (new3 m c t) (new3 m c t) (new1 m c t) (new4 m c t) := by
  rw [outsAt0_C m c t h0 h1]
  dsimp only
  exact at_C% out_C_4 m c t h0 h1

theorem outC_5 (c : Dev nD) (t : Fin cfg0.N) (h0 : ¬ t.val % 32 = 0) (h1 : t.val % 32 = 31) :
    (outsAt0 (F := Ideal) m c t.val t.isLt).2.1 = k0_pay5 (F := Ideal) (new1 m c t) (new4 m c t) := by
  rw [outsAt0_C m c t h0 h1]
  dsimp only
  exact at_C% out_C_5 m c t h0 h1

theorem outC_6 (c : Dev nD) (t : Fin cfg0.N) (h0 : ¬ t.val % 32 = 0) (h1 : t.val % 32 = 31) :
    (outsAt0 (F := Ideal) m c t.val t.isLt).2.2.1
      = k0_pay6 (F := Ideal) (new0 m c t) (new2 m c t) (new3 m c t) (new3 m c t) := by
  rw [outsAt0_C m c t h0 h1]
  dsimp only
  exact at_C% out_C_6 m c t h0 h1

/-- At the last column tile the columns seen so far are all 65536 columns, so each column holds the row's whole sum. -/
theorem done_0 (c : Dev nD) (t : Fin cfg0.N) (h31 : t.val % 32 = 31) (r : Fin 512) :
    new0 m c t (ix2 r 0) = negK (Xa m c) (Ya m c) (La m c) (Qa m c) (rowOf t.val (tlt t) r) := by
  have h0 : ¬ t.val % 32 = 0 := by omega
  have hN : (t.val % 32 + 1) * 2048 = 65536 := by omega
  refine ((congrFun (colC_0 m c t h0 h31) (ix2 r 0)).symm.trans (scratch_eq m c t r).1).trans ?_
  rw [hN, upTo_full]
  exact (negK_eq (Xa m c) (Ya m c) (La m c) (Qa m c) (rowOf t.val (tlt t) r)).symm

theorem done_1 (c : Dev nD) (t : Fin cfg0.N) (h31 : t.val % 32 = 31) (r : Fin 512) :
    new1 m c t (ix2 r 0) = selfK (Xa m c) (Ya m c) (rowOf t.val (tlt t) r) := by
  have h0 : ¬ t.val % 32 = 0 := by omega
  have hN : (t.val % 32 + 1) * 2048 = 65536 := by omega
  refine ((congrFun (colC_1 m c t h0 h31) (ix2 r 0)).symm.trans (scratch_eq m c t r).2.1).trans ?_
  rw [hN, upTo_full]
  exact (selfK_eq (Xa m c) (Ya m c) (rowOf t.val (tlt t) r)).symm

theorem done_2 (c : Dev nD) (t : Fin cfg0.N) (h31 : t.val % 32 = 31) (r : Fin 512) :
    new2 m c t (ix2 r 0) = posSumK (Xa m c) (Ya m c) (La m c) (Qa m c) (rowOf t.val (tlt t) r) := by
  have h0 : ¬ t.val % 32 = 0 := by omega
  have hN : (t.val % 32 + 1) * 2048 = 65536 := by omega
  refine ((congrFun (colC_2 m c t h0 h31) (ix2 r 0)).symm.trans (scratch_eq m c t r).2.2.1).trans ?_
  rw [hN, upTo_full]
  exact (posSumK_eq (Xa m c) (Ya m c) (La m c) (Qa m c) (rowOf t.val (tlt t) r)).symm

theorem done_3 (c : Dev nD) (t : Fin cfg0.N) (h31 : t.val % 32 = 31) (r : Fin 512) :
    new3 m c t (ix2 r 0) = cntK (La m c) (Qa m c) (rowOf t.val (tlt t) r) := by
  have h0 : ¬ t.val % 32 = 0 := by omega
  have hN : (t.val % 32 + 1) * 2048 = 65536 := by omega
  refine ((congrFun (colC_3 m c t h0 h31) (ix2 r 0)).symm.trans (scratch_eq m c t r).2.2.2.1).trans ?_
  rw [hN, upTo_full]
  exact (cntK_eq (La m c) (Qa m c) (rowOf t.val (tlt t) r)).symm

theorem done_4 (c : Dev nD) (t : Fin cfg0.N) (h31 : t.val % 32 = 31) (r : Fin 512) :
    new4 m c t (ix2 r 0) = diagK (Xa m c) (Ya m c) (rowOf t.val (tlt t) r) := by
  have h0 : ¬ t.val % 32 = 0 := by omega
  have hN : (t.val % 32 + 1) * 2048 = 65536 := by omega
  refine ((congrFun (colC_4 m c t h0 h31) (ix2 r 0)).symm.trans (scratch_eq m c t r).2.2.2.2).trans ?_
  rw [hN, upTo_full]
  exact (diagK_eq (Xa m c) (Ya m c) (rowOf t.val (tlt t) r)).symm

/-- At a row tile's last point the three output blocks hold the row's three losses. -/
theorem out4_eq (c : Dev nD) (t : Fin cfg0.N) (h31 : t.val % 32 = 31) (r : Fin 512) :
    (outsAt0 (F := Ideal) m c t.val t.isLt).1 (ix2 r 0) = lossOf (tripK (Xa m c) (Ya m c)) (mlppK (Xa m c) (Ya m c) (La m c) (Qa m c)) (rowOf t.val (tlt t) r) := by
  have h0 : ¬ t.val % 32 = 0 := by omega
  refine (congrFun (outC_4 m c t h0 h31) (ix2 r 0)).trans ?_
  refine (fin4_apply (r := r) (s0 := new0 m c t) (s1 := new1 m c t) (s2 := new2 m c t) (s3 := new3 m c t)
    (s4 := new4 m c t)).trans ?_
  rw [done_0 m c t h31 r, done_1 m c t h31 r, done_2 m c t h31 r, done_3 m c t h31 r, done_4 m c t h31 r]
  rfl
theorem out5_eq (c : Dev nD) (t : Fin cfg0.N) (h31 : t.val % 32 = 31) (r : Fin 512) :
    (outsAt0 (F := Ideal) m c t.val t.isLt).2.1 (ix2 r 0) = selfLossOf (tripK (Xa m c) (Ya m c)) (rowOf t.val (tlt t) r) := by
  have h0 : ¬ t.val % 32 = 0 := by omega
  refine (congrFun (outC_5 m c t h0 h31) (ix2 r 0)).trans ?_
  refine (fin5_apply (r := r) (s1 := new1 m c t) (s4 := new4 m c t)).trans ?_
  rw [done_1 m c t h31 r, done_4 m c t h31 r]
  rfl
theorem out6_eq (c : Dev nD) (t : Fin cfg0.N) (h31 : t.val % 32 = 31) (r : Fin 512) :
    (outsAt0 (F := Ideal) m c t.val t.isLt).2.2.1 (ix2 r 0) = classLossOf (mlppK (Xa m c) (Ya m c) (La m c) (Qa m c)) (rowOf t.val (tlt t) r) := by
  have h0 : ¬ t.val % 32 = 0 := by omega
  refine (congrFun (outC_6 m c t h0 h31) (ix2 r 0)).trans ?_
  refine (fin6_apply (r := r) (s0 := new0 m c t) (s2 := new2 m c t) (s3 := new3 m c t)).trans ?_
  rw [done_0 m c t h31 r, done_2 m c t h31 r, done_3 m c t h31 r]
  rfl

end Cert.KernelIdeal.KV

end
-- ==== Proof.KFinal.lean ====
/-
  The three result columns after the region: each row tile's block is written back once, at its last column
  tile, and the two blocks cover the 1024 rows, so every row holds its loss.
-/
import proofs.«141703_j8598524526702_1_alg».proof.Proof.KAccum

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx SupCon
open Idealize.ShloMosaic.Pipeline (Dat)

variable (m : (ℓ : Loc nD τ sig) → Buf (Elt Ideal) ℓ)

/-- The three result columns, as contents of the region's result arrays. -/
abbrev lossArr (c : Dev nD) : Buf (Elt Ideal) ((c : Thread nD τ).loc main_v10_0) :=
  fun i => lossOf (tripK (Xa m c) (Ya m c)) (mlppK (Xa m c) (Ya m c) (La m c) (Qa m c)) (rowIx i)
abbrev selfLossArr (c : Dev nD) : Buf (Elt Ideal) ((c : Thread nD τ).loc main_v10_1) :=
  fun i => selfLossOf (tripK (Xa m c) (Ya m c)) (rowIx i)
abbrev classLossArr (c : Dev nD) : Buf (Elt Ideal) ((c : Thread nD τ).loc main_v10_2) :=
  fun i => classLossOf (mlppK (Xa m c) (Ya m c) (La m c) (Qa m c)) (rowIx i)

/-- The result windows' block indices, decided over the grid: block row `t / 32`, block column `0`. -/
theorem idx_facts4 : ∀ t : Fin cfg0.N, win0_4.index t (0 : Fin 2) = t.val / 32 ∧ win0_4.index t (1 : Fin 2) = 0 :=
  (by decide +kernel : ∀ t : Fin grid0.N, _)

/-- An index of the column is in point `t`'s block iff each coordinate is in the block's range on its axis. -/
theorem mem_blk4 (t : Fin cfg0.N) (i : S1024x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v10_0).slice (win0_4.rect t)).set ↔ _
  rw [View.set_slice_whole, Rect.mem_set_unit]
  exact Iff.rfl

theorem blk4_apply (c : Dev nD) (t : Fin cfg0.N) (h31 : t.val % 32 = 31) (y : S512x1.Idx) :
    (outsAt0 (F := Ideal) m c t.val t.isLt).1 y = lossArr m c (((cfg0.win 4).blk t).view.emb y) := by
  obtain ⟨r, rfl⟩ : ∃ r : Fin 512, y = ix2 r (0 : Fin 1) :=
    ⟨y 0, (eq_ix2 y).trans (congrArg (ix2 (y 0)) (Fin.ext (by have := idx2_lt1 y; show (y 1).val = 0; omega)))⟩
  rw [out4_eq m c t h31 r]
  obtain ⟨e0, e1⟩ := idx_facts4 t
  have hrow : rowIx (((cfg0.win 4).blk t).view.emb (ix2 r (0 : Fin 1))) = rowOf t.val (tlt t) r := by
    apply Fin.ext
    show win0_4.index t (0 : Fin 2) * 512 + 1 * r.val = t.val / 32 * 512 + r.val
    omega
  show lossOf _ _ (rowOf t.val (tlt t) r) = lossOf _ _ (rowIx (((cfg0.win 4).blk t).view.emb (ix2 r (0 : Fin 1))))
  rw [hrow]

/-- What a row tile's last point writes back is its block of the loss column. -/
theorem flushed4_eq (c : Dev nD) (t : Fin cfg0.N) (hf : (cfg0.win 4).flush t = true) :
    (dats (F := Ideal) m 0 c).flushed 4 t = ((cfg0.win 4).blk t).view.read (Elt Ideal) (lossArr m c) := by
  have h31 : t.val % 32 = 31 := (flush0_4 t).mp hf
  show (cfg0.win 4).cut (grid0.coords t) ((dats (F := Ideal) m 0 c).after 4 t) = _
  rw [after0_4]
  funext y
  exact blk4_apply m c t h31 y

/-- Row `i` is in the block of its row tile's last point. -/
theorem cover4 (i : S1024x1.Idx) :
    ∃ t : Fin cfg0.N, (cfg0.win 4).flush t = true ∧ i ∈ ((cfg0.win 4).blk t).view.set := by
  have hi0 : (i 0).val < 1024 := idx2_lt0 i
  have hi1 : (i 1).val < 1 := idx2_lt1 i
  have hN : cfg0.N = 64 := N_0
  have hlt : (i 0).val / 512 * 32 + 31 < cfg0.N := by rw [hN]; omega
  refine ⟨⟨(i 0).val / 512 * 32 + 31, hlt⟩, (flush0_4 _).mpr (by show ((i 0).val / 512 * 32 + 31) % 32 = 31; omega), ?_⟩
  rw [mem_blk4]
  obtain ⟨e0, e1⟩ := idx_facts4 ⟨(i 0).val / 512 * 32 + 31, hlt⟩
  have e0' : win0_4.index ⟨(i 0).val / 512 * 32 + 31, hlt⟩ (0 : Fin 2) = ((i 0).val / 512 * 32 + 31) / 32 := e0
  intro a
  match a with
  | ⟨0, _⟩ =>
    show win0_4.index ⟨(i 0).val / 512 * 32 + 31, hlt⟩ (0 : Fin 2) * 512 ≤ (i 0).val
      ∧ (i 0).val < win0_4.index ⟨(i 0).val / 512 * 32 + 31, hlt⟩ (0 : Fin 2) * 512 + 512
    omega
  | ⟨1, _⟩ =>
    show win0_4.index ⟨(i 0).val / 512 * 32 + 31, hlt⟩ (1 : Fin 2) * 1 ≤ (i 1).val
      ∧ (i 1).val < win0_4.index ⟨(i 0).val / 512 * 32 + 31, hlt⟩ (1 : Fin 2) * 1 + 1
    omega

/-- The second result window's block indices, decided over the grid: block row `t / 32`, block column `0`. -/
theorem idx_facts5 : ∀ t : Fin cfg0.N, win0_5.index t (0 : Fin 2) = t.val / 32 ∧ win0_5.index t (1 : Fin 2) = 0 :=
  (by decide +kernel : ∀ t : Fin grid0.N, _)

/-- An index of the column is in point `t`'s block iff each coordinate is in the block's range on its axis. -/
theorem mem_blk5 (t : Fin cfg0.N) (i : S1024x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v10_1).slice (win0_5.rect t)).set ↔ _
  rw [View.set_slice_whole, Rect.mem_set_unit]
  exact Iff.rfl

theorem blk5_apply (c : Dev nD) (t : Fin cfg0.N) (h31 : t.val % 32 = 31) (y : S512x1.Idx) :
    (outsAt0 (F := Ideal) m c t.val t.isLt).2.1 y = selfLossArr m c (((cfg0.win 5).blk t).view.emb y) := by
  obtain ⟨r, rfl⟩ : ∃ r : Fin 512, y = ix2 r (0 : Fin 1) :=
    ⟨y 0, (eq_ix2 y).trans (congrArg (ix2 (y 0)) (Fin.ext (by have := idx2_lt1 y; show (y 1).val = 0; omega)))⟩
  rw [out5_eq m c t h31 r]
  obtain ⟨e0, e1⟩ := idx_facts5 t
  have hrow : rowIx (((cfg0.win 5).blk t).view.emb (ix2 r (0 : Fin 1))) = rowOf t.val (tlt t) r := by
    apply Fin.ext
    show win0_5.index t (0 : Fin 2) * 512 + 1 * r.val = t.val / 32 * 512 + r.val
    omega
  show selfLossOf _ (rowOf t.val (tlt t) r) = selfLossOf _ (rowIx (((cfg0.win 5).blk t).view.emb (ix2 r (0 : Fin 1))))
  rw [hrow]

/-- What a row tile's last point writes back is its block of the own-view loss column. -/
theorem flushed5_eq (c : Dev nD) (t : Fin cfg0.N) (hf : (cfg0.win 5).flush t = true) :
    (dats (F := Ideal) m 0 c).flushed 5 t = ((cfg0.win 5).blk t).view.read (Elt Ideal) (selfLossArr m c) := by
  have h31 : t.val % 32 = 31 := (flush0_5 t).mp hf
  show (cfg0.win 5).cut (grid0.coords t) ((dats (F := Ideal) m 0 c).after 5 t) = _
  rw [after0_5]
  funext y
  exact blk5_apply m c t h31 y

/-- Row `i` is in the block of its row tile's last point. -/
theorem cover5 (i : S1024x1.Idx) :
    ∃ t : Fin cfg0.N, (cfg0.win 5).flush t = true ∧ i ∈ ((cfg0.win 5).blk t).view.set := by
  have hi0 : (i 0).val < 1024 := idx2_lt0 i
  have hi1 : (i 1).val < 1 := idx2_lt1 i
  have hN : cfg0.N = 64 := N_0
  have hlt : (i 0).val / 512 * 32 + 31 < cfg0.N := by rw [hN]; omega
  refine ⟨⟨(i 0).val / 512 * 32 + 31, hlt⟩, (flush0_5 _).mpr (by show ((i 0).val / 512 * 32 + 31) % 32 = 31; omega), ?_⟩
  rw [mem_blk5]
  obtain ⟨e0, e1⟩ := idx_facts5 ⟨(i 0).val / 512 * 32 + 31, hlt⟩
  have e0' : win0_5.index ⟨(i 0).val / 512 * 32 + 31, hlt⟩ (0 : Fin 2) = ((i 0).val / 512 * 32 + 31) / 32 := e0
  intro a
  match a with
  | ⟨0, _⟩ =>
    show win0_5.index ⟨(i 0).val / 512 * 32 + 31, hlt⟩ (0 : Fin 2) * 512 ≤ (i 0).val
      ∧ (i 0).val < win0_5.index ⟨(i 0).val / 512 * 32 + 31, hlt⟩ (0 : Fin 2) * 512 + 512
    omega
  | ⟨1, _⟩ =>
    show win0_5.index ⟨(i 0).val / 512 * 32 + 31, hlt⟩ (1 : Fin 2) * 1 ≤ (i 1).val
      ∧ (i 1).val < win0_5.index ⟨(i 0).val / 512 * 32 + 31, hlt⟩ (1 : Fin 2) * 1 + 1
    omega

/-- The third result window's block indices, decided over the grid: block row `t / 32`, block column `0`. -/
theorem idx_facts6 : ∀ t : Fin cfg0.N, win0_6.index t (0 : Fin 2) = t.val / 32 ∧ win0_6.index t (1 : Fin 2) = 0 :=
  (by decide +kernel : ∀ t : Fin grid0.N, _)

/-- An index of the column is in point `t`'s block iff each coordinate is in the block's range on its axis. -/
theorem mem_blk6 (t : Fin cfg0.N) (i : S1024x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v10_2).slice (win0_6.rect t)).set ↔ _
  rw [View.set_slice_whole, Rect.mem_set_unit]
  exact Iff.rfl

theorem blk6_apply (c : Dev nD) (t : Fin cfg0.N) (h31 : t.val % 32 = 31) (y : S512x1.Idx) :
    (outsAt0 (F := Ideal) m c t.val t.isLt).2.2.1 y = classLossArr m c (((cfg0.win 6).blk t).view.emb y) := by
  obtain ⟨r, rfl⟩ : ∃ r : Fin 512, y = ix2 r (0 : Fin 1) :=
    ⟨y 0, (eq_ix2 y).trans (congrArg (ix2 (y 0)) (Fin.ext (by have := idx2_lt1 y; show (y 1).val = 0; omega)))⟩
  rw [out6_eq m c t h31 r]
  obtain ⟨e0, e1⟩ := idx_facts6 t
  have hrow : rowIx (((cfg0.win 6).blk t).view.emb (ix2 r (0 : Fin 1))) = rowOf t.val (tlt t) r := by
    apply Fin.ext
    show win0_6.index t (0 : Fin 2) * 512 + 1 * r.val = t.val / 32 * 512 + r.val
    omega
  show classLossOf _ (rowOf t.val (tlt t) r) = classLossOf _ (rowIx (((cfg0.win 6).blk t).view.emb (ix2 r (0 : Fin 1))))
  rw [hrow]

/-- What a row tile's last point writes back is its block of the class loss column. -/
theorem flushed6_eq (c : Dev nD) (t : Fin cfg0.N) (hf : (cfg0.win 6).flush t = true) :
    (dats (F := Ideal) m 0 c).flushed 6 t = ((cfg0.win 6).blk t).view.read (Elt Ideal) (classLossArr m c) := by
  have h31 : t.val % 32 = 31 := (flush0_6 t).mp hf
  show (cfg0.win 6).cut (grid0.coords t) ((dats (F := Ideal) m 0 c).after 6 t) = _
  rw [after0_6]
  funext y
  exact blk6_apply m c t h31 y

/-- Row `i` is in the block of its row tile's last point. -/
theorem cover6 (i : S1024x1.Idx) :
    ∃ t : Fin cfg0.N, (cfg0.win 6).flush t = true ∧ i ∈ ((cfg0.win 6).blk t).view.set := by
  have hi0 : (i 0).val < 1024 := idx2_lt0 i
  have hi1 : (i 1).val < 1 := idx2_lt1 i
  have hN : cfg0.N = 64 := N_0
  have hlt : (i 0).val / 512 * 32 + 31 < cfg0.N := by rw [hN]; omega
  refine ⟨⟨(i 0).val / 512 * 32 + 31, hlt⟩, (flush0_6 _).mpr (by show ((i 0).val / 512 * 32 + 31) % 32 = 31; omega), ?_⟩
  rw [mem_blk6]
  obtain ⟨e0, e1⟩ := idx_facts6 ⟨(i 0).val / 512 * 32 + 31, hlt⟩
  have e0' : win0_6.index ⟨(i 0).val / 512 * 32 + 31, hlt⟩ (0 : Fin 2) = ((i 0).val / 512 * 32 + 31) / 32 := e0
  intro a
  match a with
  | ⟨0, _⟩ =>
    show win0_6.index ⟨(i 0).val / 512 * 32 + 31, hlt⟩ (0 : Fin 2) * 512 ≤ (i 0).val
      ∧ (i 0).val < win0_6.index ⟨(i 0).val / 512 * 32 + 31, hlt⟩ (0 : Fin 2) * 512 + 512
    omega
  | ⟨1, _⟩ =>
    show win0_6.index ⟨(i 0).val / 512 * 32 + 31, hlt⟩ (1 : Fin 2) * 1 ≤ (i 1).val
      ∧ (i 1).val < win0_6.index ⟨(i 0).val / 512 * 32 + 31, hlt⟩ (1 : Fin 2) * 1 + 1
    omega

theorem final4 (c : Dev nD) : (dats (F := Ideal) m 0 c).arrAt 4 cfg0.N = lossArr m c :=
  (dats (F := Ideal) m 0 c).arrAt_eq_of_cover 4 (lossArr m c) (fun t hf => flushed4_eq m c t hf) cover4
theorem final5 (c : Dev nD) : (dats (F := Ideal) m 0 c).arrAt 5 cfg0.N = selfLossArr m c :=
  (dats (F := Ideal) m 0 c).arrAt_eq_of_cover 5 (selfLossArr m c) (fun t hf => flushed5_eq m c t hf) cover5
theorem final6 (c : Dev nD) : (dats (F := Ideal) m 0 c).arrAt 6 cfg0.N = classLossArr m c :=
  (dats (F := Ideal) m 0 c).arrAt_eq_of_cover 6 (classLossArr m c) (fun t hf => flushed6_eq m c t hf) cover6

end Cert.KernelIdeal.KV

end
-- ==== Proof.KRun.lean ====
/-
  The kernel program's run read as values: after the region each result column holds the rows' losses, and the
  host lines after it take each column's mean, the sum over the 1024 rows from zero divided by 1024.
-/
import proofs.«141703_j8598524526702_1_alg».proof.Proof.KFinal
import Idealize.ShloMosaic.Lib.StableHlo.Run
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx SupCon
open Idealize.ShloMosaic.Pipeline (Dat)

variable (m : (ℓ : Loc nD τ sig) → Buf (Elt Ideal) ℓ)

/-- A sum over the indices of a 1024 × 1 column is the sum over its rows. -/
theorem sum_col (g : S1024x1.Idx → EReal) : ∑ i : S1024x1.Idx, g i = ∑ a : Fin 1024, g (ix2 a 0) := by
  rw [sum_idx2]
  refine Finset.sum_congr rfl fun a _ => ?_
  rw [Fin.sum_univ_one]

theorem rowIx_ix2 (a : Fin 1024) : rowIx (ix2 a (0 : Fin 1)) = a := Fin.ext rfl

/-- The host's two lines after the region, on a column that holds `f` of its row: the mean of `f`. -/
theorem mean_col (f : Fin 1024 → EReal) :
    Host.divf (F := Ideal)
        (Host.reduceAdd (F := Ideal) (fun i : S1024x1.Idx => f (rowIx i)) (constant (F := Ideal) S_ .f32 0x00000000#32)
          reducesTo_S1024x1_S_d0_1 h_S_)
        (constant (F := Ideal) S_ .f32 0x44800000#32)
      = fun _ => meanOf f := by
  funext j
  simp only [Host.divf, Host.reduceAdd, Ideal.hostDivf_def, Ideal.hostReduceAdd_def]
  rw [Ideal.hostReduceAdd_total _ (fun b => b.elim0), sum_col]
  simp only [rowIx_ix2]
  rfl

theorem run (ρ : Dev nD → PrngReg) :
    θ_run defs (onTc (τ := τ) (main (F := Ideal))) ⟨m, fun _ => 0, ρ⟩ fun r => ∀ c : Dev nD,
      r.2.mem ((c.tc : Thread nD τ).loc main_v12) = (fun _ => meanOf (lossOf (tripK (Xa m c) (Ya m c)) (mlppK (Xa m c) (Ya m c) (La m c) (Qa m c))))
      ∧ r.2.mem ((c.tc : Thread nD τ).loc main_v14) = (fun _ => meanOf (selfLossOf (tripK (Xa m c) (Ya m c))))
      ∧ r.2.mem ((c.tc : Thread nD τ).loc main_v16) = (fun _ => meanOf (classLossOf (mlppK (Xa m c) (Ya m c) (La m c) (Qa m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main (F := Ideal) m ρ)
  have hA := fun w => Pipeline.withArrays_arr spec0 launch0.win.arr_inj c (V0 (F := Ideal) m c) (fun w => (dats (F := Ideal) m 0 c).arrAt w cfg0.N) w
  refine ⟨((h c).2 main_v12 (Pipeline.mem_restRefs_of main_v12 (by decide) (by decide))).trans ?_,
    ((h c).2 main_v14 (Pipeline.mem_restRefs_of main_v14 (by decide) (by decide))).trans ?_,
    ((h c).2 main_v16 (Pipeline.mem_restRefs_of main_v16 (by decide) (by decide))).trans ?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩
  · unfold Pipeline.afterTail₀
    show StableHlo.after hostOps1 _ (Proc.devRef .tc main_v12) = _
    after_results
    have e : (Pipeline.withArrays (cfgs 0).spec c (V0 (F := Ideal) m c) (fun w => (dats (F := Ideal) m 0 c).arrAt w (cfgs 0).N)
        (Proc.devRef .tc main_v10_0) : FVec Ideal S1024x1 .f32) = _ := (hA 4).trans (final4 m c)
    exact (congrArg (fun z : FVec Ideal S1024x1 .f32 => Host.divf (F := Ideal)
      (Host.reduceAdd (F := Ideal) z (constant (F := Ideal) S_ .f32 0x00000000#32) reducesTo_S1024x1_S_d0_1 h_S_)
      (constant (F := Ideal) S_ .f32 0x44800000#32)) e).trans (mean_col _)
  · unfold Pipeline.afterTail₀
    show StableHlo.after hostOps1 _ (Proc.devRef .tc main_v14) = _
    after_results
    have e : (Pipeline.withArrays (cfgs 0).spec c (V0 (F := Ideal) m c) (fun w => (dats (F := Ideal) m 0 c).arrAt w (cfgs 0).N)
        (Proc.devRef .tc main_v10_1) : FVec Ideal S1024x1 .f32) = _ := (hA 5).trans (final5 m c)
    exact (congrArg (fun z : FVec Ideal S1024x1 .f32 => Host.divf (F := Ideal)
      (Host.reduceAdd (F := Ideal) z (constant (F := Ideal) S_ .f32 0x00000000#32) reducesTo_S1024x1_S_d0_1 h_S_)
      (constant (F := Ideal) S_ .f32 0x44800000#32)) e).trans (mean_col _)
  · unfold Pipeline.afterTail₀
    show StableHlo.after hostOps1 _ (Proc.devRef .tc main_v16) = _
    after_results
    have e : (Pipeline.withArrays (cfgs 0).spec c (V0 (F := Ideal) m c) (fun w => (dats (F := Ideal) m 0 c).arrAt w (cfgs 0).N)
        (Proc.devRef .tc main_v10_2) : FVec Ideal S1024x1 .f32) = _ := (hA 6).trans (final6 m c)
    exact (congrArg (fun z : FVec Ideal S1024x1 .f32 => Host.divf (F := Ideal)
      (Host.reduceAdd (F := Ideal) z (constant (F := Ideal) S_ .f32 0x00000000#32) reducesTo_S1024x1_S_d0_1 h_S_)
      (constant (F := Ideal) S_ .f32 0x44800000#32)) e).trans (mean_col _)

end Cert.KernelIdeal.KV

end
-- ==== Proof.RefScatter.lean ====
/-
  The reference's self mask read at an index: ones, with zeros scattered at the index pairs `(n, n)`, is zero
  on the own column and one elsewhere.
-/
import proofs.«141703_j8598524526702_1_alg».proof.Proof.Gen.ReferenceIdeal.Read
import proofs.«141703_j8598524526702_1_alg».proof.Proof.Spec
import Idealize.ShloMosaic.Lib.ValueLayout

set_option maxRecDepth 16384

noncomputable section

namespace Cert.ReferenceIdeal.RV

open Cert.ReferenceIdeal Cert.ReferenceIdeal.Gen Cert.ReferenceIdeal.Read Idealize.ShloMosaic Idealize.ShloMosaic.TcCoe Idealize.SL.Sem
open Idealize.ShloMosaic.ValueIdx SupCon

/-! ## A scatter whose every update writes one value -/

section Fold
variable {α : Type} {s si u : Shape} {w : Nat}

/-- One step of the scatter: update `n` replaces the element at its result index, if it has one. -/
private def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

private theorem scatter_eq_fold (d : ScatterDims s si u) (f : α → α → α) (x : s.Idx → α) (idx : IVec si w)
    (upd : u.Idx → α) : Host.scatter d f x idx upd = (List.finRange u.numel).foldl (step d f idx upd) x := rfl

/-- When every update writes `u0`, an element that no update in the list lands on keeps its value, and one that
    some update lands on holds `u0`. -/
private theorem fold_const (d : ScatterDims s si u) (f : α → α → α) (idx : IVec si w) (upd : u.Idx → α) (u0 : α)
    (hf : ∀ a k, f a (upd k) = u0) (i' : s.Idx) (l : List (Fin u.numel)) (x : s.Idx → α) :
    ((∃ n ∈ l, d.resultIdx? (u.rowMajor.symm n) idx = some i') → l.foldl (step d f idx upd) x i' = u0) ∧
    ((∀ n ∈ l, d.resultIdx? (u.rowMajor.symm n) idx ≠ some i') → l.foldl (step d f idx upd) x i' = x i') := by
  induction l generalizing x with
  | nil => exact ⟨fun ⟨n, hn, _⟩ => absurd hn (List.not_mem_nil), fun _ => rfl⟩
  | cons n l ih =>
    rw [List.foldl_cons]
    have hstep : step d f idx upd x n i' = if d.resultIdx? (u.rowMajor.symm n) idx = some i' then u0 else x i' := by
      unfold step
      cases hres : d.resultIdx? (u.rowMajor.symm n) idx with
      | none => simp
      | some i =>
        by_cases hi : i' = i
        · subst hi; simp [hf]
        · have : ¬ (some i = some i') := fun h => hi (Option.some.inj h).symm
          simp [hi, this]
    refine ⟨fun ⟨m, hm, hP⟩ => ?_, fun hall => ?_⟩
    · by_cases hl : ∃ m ∈ l, d.resultIdx? (u.rowMajor.symm m) idx = some i'
      · exact (ih _).1 hl
      · have hnl : ∀ m ∈ l, d.resultIdx? (u.rowMajor.symm m) idx ≠ some i' := fun m hm h => hl ⟨m, hm, h⟩
        rw [(ih _).2 hnl, hstep]
        rcases List.mem_cons.1 hm with rfl | hm'
        · rw [if_pos hP]
        · exact absurd hP (hnl m hm')
    · rw [(ih _).2 (fun m hm => hall m (List.mem_cons_of_mem _ hm)), hstep, if_neg (hall n List.mem_cons_self)]

end Fold

/-! ## The index pairs: row `n` of the scatter indices is `(n, n)` -/

/-- A row number below 1024, read as a signed 32-bit word, is itself. -/
private theorem toInt_row (n : Nat) (h : n < 1024) : (BitVec.ofNat 32 n).toInt = (n : Int) := by
  have hm : n % 2 ^ 32 = n := Nat.mod_eq_of_lt (by omega)
  rw [BitVec.toInt_eq_toNat_cond, BitVec.toNat_ofNat, hm, if_pos (by omega)]

/-- So it is not below zero. -/
private theorem not_neg_row (n : Nat) (h : n < 1024) : IntOp.cmpi .slt (BitVec.ofNat 32 n) 0#32 = 0#1 := by
  have hs : (BitVec.ofNat 32 n).slt 0#32 = false := by
    rw [BitVec.slt_eq_decide, toInt_row n h, BitVec.toInt_zero]
    exact decide_eq_false (by omega)
  unfold IntOp.cmpi
  simp only [hs]
  rfl

/-- The wrapped row index (`n + 1024` when `n` is negative, else `n`) is `n`. -/
private theorem rowWord (n : Fin 1024) : val_main_v22 (F := Ideal) (ix1 n) = BitVec.ofNat 32 n.val := by
  rw [val_main_v22_apply, val_main_v19_apply, val_main_v16_apply, val_main_v18_apply, val_main_c_apply]
  show Scalar.select (IntOp.cmpi .slt (BitVec.ofNat 32 n.val) 0#32) _ (BitVec.ofNat 32 n.val) = _
  rw [not_neg_row n.val n.isLt, select_zero]

/-- The wrapped column index (`n + 65536` when `n` is negative, else `n`) is `n`. -/
private theorem colWord (n : Fin 1024) : val_main_v27 (F := Ideal) (ix1 n) = BitVec.ofNat 32 n.val := by
  rw [val_main_v27_apply, val_main_v24_apply, val_main_v16_apply, val_main_v23_apply, val_main_c_3_apply]
  show Scalar.select (IntOp.cmpi .slt (BitVec.ofNat 32 n.val) 0#32) _ (BitVec.ofNat 32 n.val) = _
  rw [not_neg_row n.val n.isLt, select_zero]

/-- Entry `(n, 0)` of either index column reads row `n` of the vector it is broadcast from. -/
private theorem colIdx_eq (n : Fin 1024) : idx_main_v28 (ix2 n (0 : Fin 1)) = ix1 n :=
  funext fun a => Fin.ext (by match a with | ⟨0, _⟩ => rfl)
private theorem colIdx_eq' (n : Fin 1024) : idx_main_v29 (ix2 n (0 : Fin 1)) = ix1 n :=
  funext fun a => Fin.ext (by match a with | ⟨0, _⟩ => rfl)

/-- The first component of index pair `n` is the row number. -/
private theorem pair_fst (n : Fin 1024) : val_main_v30 (F := Ideal) (ix2 n (0 : Fin 2)) = BitVec.ofNat 32 n.val := by
  unfold val_main_v30
  rw [concatenate_pair_apply_left (1 : Fin S1024x2.rank) _ _ concatenates_S1024x1_S1024x1_S1024x2_d1 (ix2 n (0 : Fin 2)) rfl
    (ix2 n (0 : Fin 1)) (fun b => by match b with | ⟨0, _⟩ => rfl | ⟨1, _⟩ => rfl),
    val_main_v28_apply, colIdx_eq, rowWord]

/-- The second component of index pair `n` is the row number too. -/
private theorem pair_snd (n : Fin 1024) : val_main_v30 (F := Ideal) (ix2 n (1 : Fin 2)) = BitVec.ofNat 32 n.val := by
  unfold val_main_v30
  rw [concatenate_pair_apply_right (1 : Fin S1024x2.rank) _ _ concatenates_S1024x1_S1024x1_S1024x2_d1 (ix2 n (1 : Fin 2)) rfl rfl
    (ix2 n (0 : Fin 1)) (fun b hb => by match b with | ⟨0, _⟩ => rfl | ⟨1, _⟩ => exact absurd rfl hb) rfl,
    val_main_v29_apply, colIdx_eq', colWord]

/-! ## Where update `n` lands -/

private abbrev dS := scatter_S1024x65536_S1024x2_S1024_n_01_01_1

/-- On the row axis the window of update `jj` starts at the first component of its index pair, read signed. -/
private theorem start0 (jj : S1024.Idx) (idx : IVec S1024x2 32) :
    dS.start jj idx 0 = (idx (ix2 (jj 0) (0 : Fin 2))).toInt := by
  unfold ScatterDims.start
  rw [dif_pos (by decide)]
  refine congrArg (fun q => (idx q).toInt) (funext fun b => Fin.ext ?_)
  match b with
  | ⟨0, _⟩ => rfl
  | ⟨1, _⟩ => rfl

/-- On the column axis it starts at the second component. -/
private theorem start1 (jj : S1024.Idx) (idx : IVec S1024x2 32) :
    dS.start jj idx 1 = (idx (ix2 (jj 0) (1 : Fin 2))).toInt := by
  unfold ScatterDims.start
  rw [dif_pos (by decide)]
  refine congrArg (fun q => (idx q).toInt) (funext fun b => Fin.ext ?_)
  match b with
  | ⟨0, _⟩ => rfl
  | ⟨1, _⟩ => rfl

/-- Both axes of the operand are inserted window axes: the window is the single element at its start. -/
private theorem window_zero (jj : S1024.Idx) (a : Fin S1024x65536.rank) : dS.window jj a = 0 := by
  have hk : dS.sKept = [] := by decide
  unfold ScatterDims.window
  exact dif_neg (hk ▸ List.not_mem_nil)

/-- Update `n`, whose index pair is `(n, n)`, lands on the own column of row `n`. -/
private theorem lands (jj : S1024.Idx) (idx : IVec S1024x2 32) (n : Fin 1024)
    (h0 : idx (ix2 (jj 0) (0 : Fin 2)) = BitVec.ofNat 32 n.val) (h1 : idx (ix2 (jj 0) (1 : Fin 2)) = BitVec.ofNat 32 n.val) :
    dS.resultIdx? jj idx = some (ix2 n (⟨n.val, by have := n.isLt; omega⟩ : Fin 65536)) := by
  have hn := n.isLt
  have hs : ∀ a, dS.start jj idx a + dS.window jj a = (n.val : Int) := fun a => by
    rw [window_zero]
    show dS.start jj idx a + (0 : Int) = (n.val : Int)
    rw [Int.add_zero]
    match a with
    | ⟨0, _⟩ => exact (start0 jj idx).trans (by rw [h0, toInt_row n.val hn])
    | ⟨1, _⟩ => exact (start1 jj idx).trans (by rw [h1, toInt_row n.val hn])
  have H : ∀ a, 0 ≤ dS.start jj idx a + dS.window jj a ∧ dS.start jj idx a + dS.window jj a < S1024x65536.size a := fun a => by
    rw [hs a]
    refine ⟨by omega, ?_⟩
    match a with
    | ⟨0, _⟩ => show (n.val : Int) < ((1024 : Nat) : Int); omega
    | ⟨1, _⟩ => show (n.val : Int) < ((65536 : Nat) : Int); omega
  unfold ScatterDims.resultIdx?
  rw [dif_pos H]
  refine congrArg some (funext fun a => Fin.ext ?_)
  show (dS.start jj idx a + dS.window jj a).toNat = _
  rw [hs a]
  match a with
  | ⟨0, _⟩ => rfl
  | ⟨1, _⟩ => rfl

/-! ## The mask at an index -/

theorem selfMask_scatter (i : Fin 1024) (j : Fin 65536) :
    val_main_v32 (F := Ideal) (ix2 i j) = selfMaskR i j := by
  unfold val_main_v32
  rw [scatter_eq_fold]
  -- every update writes the zero word
  have hf : ∀ (a : EReal) (k : S1024.Idx), (fun (_ b : EReal) => b) a (val_main_v31 (F := Ideal) k) = zeroW := fun a k => by
    show val_main_v31 (F := Ideal) k = zeroW
    rw [val_main_v31_apply, val_main_cst_5_apply]; rfl
  have hc := fold_const dS (fun (_ b : EReal) => b) (val_main_v30 (F := Ideal)) (val_main_v31 (F := Ideal)) zeroW hf (ix2 i j)
    (List.finRange S1024.numel) (val_main_v17 (F := Ideal))
  unfold selfMaskR
  by_cases h : i.val = j.val
  · -- the own column: update `i` lands here
    rw [if_pos h]
    refine hc.1 ⟨S1024.rowMajor (ix1 i), List.mem_finRange _, ?_⟩
    rw [Equiv.symm_apply_apply]
    refine (lands (ix1 i) _ i (pair_fst i) (pair_snd i)).trans (congrArg some ?_)
    exact congrArg (ix2 i) (Fin.ext h)
  · -- any other column: every update lands on some `(n, n)`, which is not `(i, j)`
    rw [if_neg h]
    refine (hc.2 fun n _ hn => ?_).trans ?_
    · rw [lands (S1024.rowMajor.symm n) _ ((S1024.rowMajor.symm n) 0) (pair_fst _) (pair_snd _)] at hn
      have he := Option.some.inj hn
      have e0 : (S1024.rowMajor.symm n) 0 = i := congrFun he (0 : Fin 2)
      have e1 : (⟨((S1024.rowMajor.symm n) 0).val, _⟩ : Fin 65536) = j := congrFun he (1 : Fin 2)
      exact h ((congrArg Fin.val e0).symm.trans (congrArg Fin.val e1))
    · rw [val_main_v17_apply, val_main_cst_1_apply]; rfl

end Cert.ReferenceIdeal.RV

end
-- ==== Proof.RefMask.lean ====
/-
  Three operations of the reference the generated readings leave out, read at an index.

  The self mask is a scatter of zeros into a 1024 × 65536 array of ones at the index pairs `(n, n)`: zero on the
  own column, one elsewhere. The own column's entry is read back by a gather at the same pairs. The row maximum
  is a fold of `max` from `-∞` over the row.
-/
import proofs.«141703_j8598524526702_1_alg».proof.Proof.Gen.ReferenceIdeal.Read
import proofs.«141703_j8598524526702_1_alg».proof.Proof.RefScatter
import proofs.«141703_j8598524526702_1_alg».proof.Proof.Spec
import Idealize.ShloMosaic.Lib.ValueLayout

set_option maxRecDepth 16384

noncomputable section

namespace Cert.ReferenceIdeal.RV

open Cert.ReferenceIdeal Cert.ReferenceIdeal.Gen Cert.ReferenceIdeal.Read Idealize.ShloMosaic Idealize.ShloMosaic.TcCoe Idealize.SL.Sem
open Idealize.ShloMosaic.ValueIdx SupCon

/-- A row number below 1024, as a 32-bit word, read signed, is itself. -/
private theorem toInt_row (n : Nat) (hn : n < 1024) : (BitVec.ofNat 32 n).toInt = (n : Int) := by
  rw [BitVec.toInt_eq_toNat_cond, BitVec.toNat_ofNat, Nat.mod_eq_of_lt (by omega), if_pos (by omega)]

/-- A row number is not negative, so the wrap-around of a negative index leaves it. -/
private theorem sel_row (n : Nat) (hn : n < 1024) (x : BitVec 32) :
    Scalar.select (IntOp.cmpi .slt (BitVec.ofNat 32 n) 0#32) x (BitVec.ofNat 32 n) = BitVec.ofNat 32 n := by
  have h : (BitVec.ofNat 32 n).slt 0#32 = false := by
    rw [BitVec.slt, toInt_row n hn]
    exact decide_eq_false (by show ¬ ((n : Int) < 0); omega)
  show (if BitVec.ofBool ((BitVec.ofNat 32 n).slt 0#32) = 1 then x else BitVec.ofNat 32 n) = BitVec.ofNat 32 n
  rw [h]; rfl

private theorem v64_apply (r : S1024.Idx) : val_main_v64 (F := Ideal) r = BitVec.ofNat 32 (r 0).val := by
  rw [val_main_v64_apply, val_main_v61_apply, val_main_v16_apply, val_main_v60_apply, val_main_c_11_apply]
  exact sel_row _ (r 0).isLt _

private theorem v69_apply (r : S1024.Idx) : val_main_v69 (F := Ideal) r = BitVec.ofNat 32 (r 0).val := by
  rw [val_main_v69_apply, val_main_v66_apply, val_main_v16_apply, val_main_v65_apply, val_main_c_13_apply]
  exact sel_row _ (r 0).isLt _

/-- The gather's index pairs read at an index: both columns hold the row number. -/
private theorem v72_apply (k : S1024x2.Idx) : val_main_v72 (F := Ideal) k = BitVec.ofNat 32 (k 0).val := by
  unfold val_main_v72
  have hk : (k 1).val = 0 ∨ (k 1).val = 1 := by have h2 : (k 1).val < 2 := (k 1).isLt; omega
  rcases hk with hk | hk
  · rw [concatenate_pair_apply_left (1 : Fin S1024x2.rank) _ _ concatenates_S1024x1_S1024x1_S1024x2_d1 k rfl (ix2 (k 0) 0)
      (fun b => by fin_cases b; exact rfl; exact hk.symm)]
    rw [val_main_v70_apply, v64_apply]
  · rw [concatenate_pair_apply_right (1 : Fin S1024x2.rank) _ _ concatenates_S1024x1_S1024x1_S1024x2_d1 k rfl rfl (ix2 (k 0) 0)
      (fun b hb => by fin_cases b; exact rfl; exact absurd rfl hb) (by show 0 + 1 = (k 1).val; omega)]
    rw [val_main_v71_apply, v69_apply]

/-- The start of the gathered slice on either axis is the row number. -/
private theorem gather_start (i : Fin 1024) (a : Fin 2) :
    (gather_S1024x65536_S1024x2_S1024_n_01_n_n_01_1_11).start (ix1 i) (val_main_v72 (F := Ideal)) a = i.val := by
  unfold GatherDims.start
  fin_cases a
  · rw [dif_pos (by decide), v72_apply]
    show min (BitVec.ofNat 32 i.val).toInt.toNat (1024 - 1) = i.val
    rw [toInt_row _ i.isLt]; have := i.isLt; omega
  · rw [dif_pos (by decide), v72_apply]
    show min (BitVec.ofNat 32 i.val).toInt.toNat (65536 - 1) = i.val
    rw [toInt_row _ i.isLt]; have := i.isLt; omega

theorem selfMask_apply (i : Fin 1024) (j : Fin 65536) :
    val_main_v32 (F := Ideal) (ix2 i j) = selfMaskR i j := selfMask_scatter i j

theorem gather_apply (x0 : (⟨S1024x2x128, .f32⟩ : BufTy).Contents (Elt Ideal)) (x2 : (⟨S65536x128, .f32⟩ : BufTy).Contents (Elt Ideal)) (i : Fin 1024) :
    val_main_v73 (F := Ideal) x0 x2 (ix1 i) = val_main_v59 (F := Ideal) x0 x2 (ix2 i ⟨i.val, by have := i.isLt; omega⟩) := by
  unfold val_main_v73
  generalize val_main_v59 (F := Ideal) x0 x2 = y
  unfold Host.gather
  refine congrArg y ?_
  funext a; apply Fin.ext
  show (gather_S1024x65536_S1024x2_S1024_n_01_n_n_01_1_11).start (ix1 i) (val_main_v72 (F := Ideal)) a
    + (gather_S1024x65536_S1024x2_S1024_n_01_n_n_01_1_11).batchCoord (ix1 i) a
    + (gather_S1024x65536_S1024x2_S1024_n_01_n_n_01_1_11).offCoord (ix1 i) a = _
  rw [gather_start]
  fin_cases a <;> rfl

/-- The reduced index `i` with column `k` put back is `(i, k)`. -/
private theorem lift_row (h : S1024x65536.Reduces [1] S1024) (i : Fin 1024) (k : Fin (S1024x65536.size 1)) :
    h.lift (ix1 i) k = ix2 i (⟨k.val, k.isLt⟩ : Fin 65536) := by
  funext c; apply Fin.ext
  fin_cases c <;> rfl

theorem rowMax_apply (x0 : (⟨S1024x2x128, .f32⟩ : BufTy).Contents (Elt Ideal)) (x2 : (⟨S65536x128, .f32⟩ : BufTy).Contents (Elt Ideal)) (i : Fin 1024) :
    val_main_v12 (F := Ideal) x0 x2 (ix1 i)
      = (Finset.univ : Finset (Fin 65536)).fold max negInfW (fun j => val_main_v11 (F := Ideal) x0 x2 (ix2 i j)) := by
  unfold val_main_v12
  generalize val_main_v11 (F := Ideal) x0 x2 = y
  have h : S1024x65536.Reduces [1] S1024 := by decide
  have key := Host.reduce_eq_fold_single (α := Ideal .f32) (FloatOps.maximumf (F := Ideal) (φ := .f32)) y (val_main_cst_0 (F := Ideal))
    reducesTo_S1024x65536_S1024_d1 h h_S_ (ix1 i)
  refine key.trans ?_
  have hf : (y ∘ h.lift (ix1 i)) = fun k : Fin 65536 => y (ix2 i k) := funext fun k => congrArg y (lift_row h i k)
  exact congrArg (fun f => Finset.fold max negInfW f (Finset.univ : Finset (Fin 65536))) hf

end Cert.ReferenceIdeal.RV

end
-- ==== Proof.RefShift.lean ====
/-
  The reference's logits: the anchors against the contrast rows, divided by the temperature and shifted by
  the row's maximum; and their exponentials.
-/
import proofs.«141703_j8598524526702_1_alg».proof.Proof.RefMask

set_option maxRecDepth 16384

noncomputable section

namespace Cert.ReferenceIdeal.RV

open Cert.ReferenceIdeal Cert.ReferenceIdeal.Gen Cert.ReferenceIdeal.Read Idealize.ShloMosaic Idealize.ShloMosaic.TcCoe Idealize.SL.Sem
open Idealize.ShloMosaic.ValueIdx SupCon

/-- The anchors, the contrast rows and the contrast labels as the reference forms them. -/
abbrev Xr (x0 : (⟨S1024x2x128, .f32⟩ : BufTy).Contents (Elt Ideal)) : SX.Idx → EReal := val_main_v3 (F := Ideal) x0
abbrev Yr (x0 : (⟨S1024x2x128, .f32⟩ : BufTy).Contents (Elt Ideal)) (x2 : (⟨S65536x128, .f32⟩ : BufTy).Contents (Elt Ideal)) : SY.Idx → EReal := val_main_v5 (F := Ideal) x0 x2
abbrev Qr (x1 : (⟨S1024, .i32⟩ : BufTy).Contents (Elt Ideal)) (x3 : (⟨S65536, .i32⟩ : BufTy).Contents (Elt Ideal)) : SQ.Idx → BitVec 32 := val_main_v7 (F := Ideal) x1 x3

/-- The left operand of the contraction at row `i`, depth `k`. -/
private theorem lidx_eq (i : Fin 1024) (j : Fin 65536) (k : Fin 128) :
    lidx_main_v9 (ix2 i j) k = ix2 i k :=
  funext fun a => Fin.ext (by match a with | ⟨0, _⟩ => rfl | ⟨1, _⟩ => rfl)
/-- The right operand is the transposed contrast array: column `j`, depth `k` reads row `j` at `k`. -/
private theorem ridx_eq (i : Fin 1024) (j : Fin 65536) (k : Fin 128) :
    idx_main_v8 (ridx_main_v9 (ix2 i j) k) = ix2 j k :=
  funext fun a => Fin.ext (by match a with | ⟨0, _⟩ => rfl | ⟨1, _⟩ => rfl)
/-- The row maximum is broadcast along the row: entry `(i, j)` reads row `i`. -/
private theorem bidx_eq (i : Fin 1024) (j : Fin 65536) :
    idx_main_v13 (idx_main_v14 (ix2 i j)) = ix1 i :=
  funext fun a => Fin.ext (by match a with | ⟨0, _⟩ => rfl)

theorem logit_apply (x0 : (⟨S1024x2x128, .f32⟩ : BufTy).Contents (Elt Ideal)) (x2 : (⟨S65536x128, .f32⟩ : BufTy).Contents (Elt Ideal)) (i : Fin 1024) (j : Fin 65536) :
    val_main_v11 (F := Ideal) x0 x2 (ix2 i j) = lR (Xr x0) (Yr x0 x2) i j := by
  rw [val_main_v11_apply, val_main_v9_apply, val_main_v10_apply, val_main_cst_apply]
  simp only [val_main_v8_apply, lidx_eq, ridx_eq, Ideal.hostDivf_def, Ideal.ofBits_def]
  rfl
theorem shift_apply (x0 : (⟨S1024x2x128, .f32⟩ : BufTy).Contents (Elt Ideal)) (x2 : (⟨S65536x128, .f32⟩ : BufTy).Contents (Elt Ideal)) (i : Fin 1024) (j : Fin 65536) :
    val_main_v15 (F := Ideal) x0 x2 (ix2 i j) = shR (Xr x0) (Yr x0 x2) i j := by
  rw [val_main_v15_apply, val_main_v14_apply, val_main_v13_apply, bidx_eq, rowMax_apply]
  simp only [logit_apply, Ideal.subf_def]
  rfl
theorem exp_apply (x0 : (⟨S1024x2x128, .f32⟩ : BufTy).Contents (Elt Ideal)) (x2 : (⟨S65536x128, .f32⟩ : BufTy).Contents (Elt Ideal)) (i : Fin 1024) (j : Fin 65536) :
    val_main_v43 (F := Ideal) x0 x2 (ix2 i j) = Ideal.exp (shR (Xr x0) (Yr x0 x2) i j) := by
  rw [val_main_v43_apply, shift_apply, Ideal.hostUnary_exp_def]

end Cert.ReferenceIdeal.RV

end
-- ==== Proof.RefMlpp.lean ====
/-
  The reference's mean log-probability over a row's positives.

  The label mask is the comparison of the anchor's label, spread along the row, with the contrast row's label,
  spread down the column, turned into the number one or zero. The mask of the other labels is the square of
  that number less one; the mask of the positives is that number times the mask that leaves the own column out.
  The sum over the other labels is taken from a zero; its logarithm is subtracted from every shifted logit of
  the row; the sum of these differences over the positives, divided by the number of positives, is the result.
-/
import proofs.«141703_j8598524526702_1_alg».proof.Proof.RefShift

set_option maxRecDepth 16384

noncomputable section

namespace Cert.ReferenceIdeal.RV

open Cert.ReferenceIdeal Cert.ReferenceIdeal.Gen Cert.ReferenceIdeal.Read Idealize.ShloMosaic Idealize.ShloMosaic.TcCoe Idealize.SL.Sem
open Idealize.ShloMosaic.ValueIdx SupCon

/-- The bit of an equality test, read as a number, is one where the two words are equal and zero elsewhere. -/
private theorem uitofp_cmpi_eq (a b : BitVec 32) :
    FloatOps.uitofp (F := Ideal) .f32 (IntOp.cmpi .eq a b) = if a = b then (1 : EReal) else 0 := by
  show (((IntOp.cmpi .eq a b).toNat : ℝ) : EReal) = if a = b then (1 : EReal) else 0
  by_cases h : a = b
  · have hb : IntOp.cmpi .eq a b = 1#1 := by simp [IntOp.cmpi, h]
    rw [if_pos h, hb]
    norm_num
  · have hb : IntOp.cmpi .eq a b = 0#1 := by
      show BitVec.ofBool (a == b) = 0#1
      rw [beq_eq_false_iff_ne.mpr h]
      rfl
    rw [if_neg h, hb]
    norm_num

/-- The anchor's label spread along the row is read at the row. -/
private theorem idx_lab (i : Fin 1024) (j : Fin 65536) : idx_main_v33 (idx_main_v35 (ix2 i j)) = ix1 i :=
  funext fun a => Fin.ext (by match a with | ⟨0, _⟩ => rfl)

/-- The contrast row's label spread down the column is read at the column. -/
private theorem idx_ql (i : Fin 1024) (j : Fin 65536) : idx_main_v34 (idx_main_v36 (ix2 i j)) = ix1 j :=
  funext fun a => Fin.ext (by match a with | ⟨0, _⟩ => rfl)

/-- The label mask as a number. -/
theorem pos0_apply (x1 : (⟨S1024, .i32⟩ : BufTy).Contents (Elt Ideal)) (x3 : (⟨S65536, .i32⟩ : BufTy).Contents (Elt Ideal)) (i : Fin 1024) (j : Fin 65536) :
    val_main_v38 (F := Ideal) x1 x3 (ix2 i j) = pos0R x1 (Qr x1 x3) i j := by
  rw [val_main_v38_apply, val_main_v37_apply, val_main_v35_apply, val_main_v33_apply, val_main_v36_apply, val_main_v34_apply,
    idx_lab i j, idx_ql i j]
  exact uitofp_cmpi_eq _ _

theorem posMask_apply (x1 : (⟨S1024, .i32⟩ : BufTy).Contents (Elt Ideal)) (x3 : (⟨S65536, .i32⟩ : BufTy).Contents (Elt Ideal)) (i : Fin 1024) (j : Fin 65536) :
    val_main_v42 (F := Ideal) x1 x3 (ix2 i j) = posMaskR x1 (Qr x1 x3) i j := by
  rw [val_main_v42_apply, pos0_apply, selfMask_apply]
  rfl
theorem negMask_apply (x1 : (⟨S1024, .i32⟩ : BufTy).Contents (Elt Ideal)) (x3 : (⟨S65536, .i32⟩ : BufTy).Contents (Elt Ideal)) (i : Fin 1024) (j : Fin 65536) :
    val_main_v41 (F := Ideal) x1 x3 (ix2 i j) = negMaskR x1 (Qr x1 x3) i j := by
  rw [val_main_v41_apply, val_main_v40_apply, pos0_apply, val_main_v39_apply, val_main_cst_6_apply]
  rfl

/-- The index a sum over the columns reads at column `k` of row `i`. -/
private theorem idx_v45 (i : Fin 1024) (k : Fin 65536) : idx_main_v45 (ix1 i) k = ix2 i k :=
  funext fun a => Fin.ext (by match a with | ⟨0, _⟩ => rfl | ⟨1, _⟩ => rfl)
private theorem idx_v51 (i : Fin 1024) (k : Fin 65536) : idx_main_v51 (ix1 i) k = ix2 i k :=
  funext fun a => Fin.ext (by match a with | ⟨0, _⟩ => rfl | ⟨1, _⟩ => rfl)
private theorem idx_v52 (i : Fin 1024) (k : Fin 65536) : idx_main_v52 (ix1 i) k = ix2 i k :=
  funext fun a => Fin.ext (by match a with | ⟨0, _⟩ => rfl | ⟨1, _⟩ => rfl)

/-- The sum of the exponentials over the columns of another label. -/
theorem neg_apply (x0 : (⟨S1024x2x128, .f32⟩ : BufTy).Contents (Elt Ideal)) (x1 : (⟨S1024, .i32⟩ : BufTy).Contents (Elt Ideal)) (x2 : (⟨S65536x128, .f32⟩ : BufTy).Contents (Elt Ideal)) (x3 : (⟨S65536, .i32⟩ : BufTy).Contents (Elt Ideal)) (i : Fin 1024) :
    val_main_v45 (F := Ideal) x0 x1 x2 x3 (ix1 i) = negR (Xr x0) (Yr x0 x2) x1 (Qr x1 x3) i := by
  rw [val_main_v45_apply]
  unfold negR
  refine congrArg (_ + ·) (Finset.sum_congr rfl fun k _ => ?_)
  rw [idx_v45 i k, val_main_v44_apply, exp_apply, negMask_apply]
  rfl

/-- The row's logarithm, spread along the row, is read at the row. -/
private theorem idx_log (i : Fin 1024) (j : Fin 65536) : idx_main_v46 (idx_main_v48 (ix2 i j)) = ix1 i :=
  funext fun a => Fin.ext (by match a with | ⟨0, _⟩ => rfl)

/-- The logarithm of that sum, at every column of the row. -/
theorem logNeg_apply (x0 : (⟨S1024x2x128, .f32⟩ : BufTy).Contents (Elt Ideal)) (x1 : (⟨S1024, .i32⟩ : BufTy).Contents (Elt Ideal)) (x2 : (⟨S65536x128, .f32⟩ : BufTy).Contents (Elt Ideal)) (x3 : (⟨S65536, .i32⟩ : BufTy).Contents (Elt Ideal)) (i : Fin 1024) (j : Fin 65536) :
    val_main_v48 (F := Ideal) x0 x1 x2 x3 (ix2 i j) = Ideal.log (negR (Xr x0) (Yr x0 x2) x1 (Qr x1 x3) i) := by
  rw [val_main_v48_apply, val_main_v47_apply, Ideal.hostUnary_log_def, val_main_v46_apply, idx_log i j, neg_apply]

/-- The sum over the positives of the shifted logit less that logarithm. -/
theorem num_apply (x0 : (⟨S1024x2x128, .f32⟩ : BufTy).Contents (Elt Ideal)) (x1 : (⟨S1024, .i32⟩ : BufTy).Contents (Elt Ideal)) (x2 : (⟨S65536x128, .f32⟩ : BufTy).Contents (Elt Ideal)) (x3 : (⟨S65536, .i32⟩ : BufTy).Contents (Elt Ideal)) (i : Fin 1024) :
    val_main_v51 (F := Ideal) x0 x1 x2 x3 (ix1 i) = numR (Xr x0) (Yr x0 x2) x1 (Qr x1 x3) i := by
  rw [val_main_v51_apply]
  unfold numR
  refine congrArg (_ + ·) (Finset.sum_congr rfl fun k _ => ?_)
  rw [idx_v51 i k, val_main_v50_apply, posMask_apply, val_main_v49_apply, shift_apply, logNeg_apply]
  rfl

/-- The number of positives. -/
theorem cnt_apply (x1 : (⟨S1024, .i32⟩ : BufTy).Contents (Elt Ideal)) (x3 : (⟨S65536, .i32⟩ : BufTy).Contents (Elt Ideal)) (i : Fin 1024) :
    val_main_v52 (F := Ideal) x1 x3 (ix1 i) = cntR x1 (Qr x1 x3) i := by
  rw [val_main_v52_apply]
  unfold cntR
  refine congrArg (_ + ·) (Finset.sum_congr rfl fun k _ => ?_)
  rw [idx_v52 i k, posMask_apply]

theorem mlpp_apply (x0 : (⟨S1024x2x128, .f32⟩ : BufTy).Contents (Elt Ideal)) (x1 : (⟨S1024, .i32⟩ : BufTy).Contents (Elt Ideal)) (x2 : (⟨S65536x128, .f32⟩ : BufTy).Contents (Elt Ideal)) (x3 : (⟨S65536, .i32⟩ : BufTy).Contents (Elt Ideal)) (i : Fin 1024) :
    val_main_v53 (F := Ideal) x0 x1 x2 x3 (ix1 i) = mlppR (Xr x0) (Yr x0 x2) x1 (Qr x1 x3) i := by
  rw [val_main_v53_apply, num_apply, cnt_apply]
  rfl

end Cert.ReferenceIdeal.RV

end
-- ==== Proof.RefTrip.lean ====
/-
  The reference's own-column term: the shifted logit at `(i, i)` less the log of the sum over every other
  column.
-/
import proofs.«141703_j8598524526702_1_alg».proof.Proof.RefShift

set_option maxRecDepth 16384

noncomputable section

namespace Cert.ReferenceIdeal.RV

open Cert.ReferenceIdeal Cert.ReferenceIdeal.Gen Cert.ReferenceIdeal.Read Idealize.ShloMosaic Idealize.ShloMosaic.TcCoe Idealize.SL.Sem
open Idealize.ShloMosaic.ValueIdx SupCon

/-- The log of the row sum is broadcast along the row: entry `(i, j)` reads row `i`. -/
private theorem logRow_eq (i : Fin 1024) (j : Fin 65536) :
    idx_main_v56 (idx_main_v58 (ix2 i j)) = ix1 i :=
  funext fun a => Fin.ext (by match a with | ⟨0, _⟩ => rfl)
/-- The row sum at row `i` runs over the entries `(i, k)`. -/
private theorem sumRow_eq (i : Fin 1024) (k : Fin 65536) :
    idx_main_v55 (ix1 i) k = ix2 i k :=
  funext fun a => Fin.ext (by match a with | ⟨0, _⟩ => rfl | ⟨1, _⟩ => rfl)

theorem trip_apply (x0 : (⟨S1024x2x128, .f32⟩ : BufTy).Contents (Elt Ideal)) (x2 : (⟨S65536x128, .f32⟩ : BufTy).Contents (Elt Ideal)) (i : Fin 1024) :
    val_main_v73 (F := Ideal) x0 x2 (ix1 i) = tripR (Xr x0) (Yr x0 x2) i := by
  rw [gather_apply, val_main_v59_apply, val_main_v58_apply, val_main_v57_apply, val_main_v56_apply, logRow_eq,
    val_main_v55_apply, val_main_cst_10_apply, shift_apply]
  simp only [sumRow_eq, val_main_v54_apply, exp_apply, selfMask_apply, Ideal.subf_def, Ideal.mulf_def,
    Ideal.hostUnary_log_def, Ideal.ofBits_def]
  rfl

end Cert.ReferenceIdeal.RV

end
-- ==== Proof.RefValue.lean ====
/-
  The reference's three results: the means over the 1024 rows of the three per-row losses.
-/
import proofs.«141703_j8598524526702_1_alg».proof.Proof.RefMlpp
import proofs.«141703_j8598524526702_1_alg».proof.Proof.RefTrip
import Idealize.ShloMosaic.Lib.ValueIdxRank1

set_option maxRecDepth 16384

noncomputable section

namespace Cert.ReferenceIdeal.RV

open Cert.ReferenceIdeal Cert.ReferenceIdeal.Gen Cert.ReferenceIdeal.Read Idealize.ShloMosaic Idealize.ShloMosaic.TcCoe Idealize.SL.Sem
open Idealize.ShloMosaic.ValueIdx SupCon

/-- A sum over the indices of a vector of 1024 is the sum over its one coordinate. -/
private theorem sum_rows (f : S1024.Idx → EReal) : ∑ j : S1024.Idx, f j = ∑ i : Fin 1024, f (ix1 i) :=
  (Equiv.sum_comp (idxEquiv1 (n := 1024)).symm f).symm

theorem v80_eq (x0 : (⟨S1024x2x128, .f32⟩ : BufTy).Contents (Elt Ideal)) (x1 : (⟨S1024, .i32⟩ : BufTy).Contents (Elt Ideal)) (x2 : (⟨S65536x128, .f32⟩ : BufTy).Contents (Elt Ideal)) (x3 : (⟨S65536, .i32⟩ : BufTy).Contents (Elt Ideal)) :
    val_main_v80 (F := Ideal) x0 x1 x2 x3 = fun _ => meanOf (lossOf (tripR (Xr x0) (Yr x0 x2)) (mlppR (Xr x0) (Yr x0 x2) x1 (Qr x1 x3))) := by
  funext u
  rw [val_main_v80_apply, val_main_v79_apply, val_main_cst_17_apply, val_main_cst_18_apply, sum_rows]
  simp only [val_main_v78_apply, val_main_v76_apply, val_main_v77_apply, val_main_v75_apply, val_main_v74_apply,
    val_main_cst_15_apply, val_main_cst_16_apply, trip_apply, mlpp_apply, Ideal.hostDivf_def, Ideal.mulf_def,
    Ideal.addf_def, Ideal.ofBits_def]
  rfl
theorem v84_eq (x0 : (⟨S1024x2x128, .f32⟩ : BufTy).Contents (Elt Ideal)) (x2 : (⟨S65536x128, .f32⟩ : BufTy).Contents (Elt Ideal)) :
    val_main_v84 (F := Ideal) x0 x2 = fun _ => meanOf (selfLossOf (tripR (Xr x0) (Yr x0 x2))) := by
  funext u
  rw [val_main_v84_apply, val_main_v83_apply, val_main_cst_20_apply, val_main_cst_21_apply, sum_rows]
  simp only [val_main_v82_apply, val_main_v81_apply, val_main_cst_19_apply, trip_apply, Ideal.hostDivf_def,
    Ideal.mulf_def, Ideal.ofBits_def]
  rfl
theorem v88_eq (x0 : (⟨S1024x2x128, .f32⟩ : BufTy).Contents (Elt Ideal)) (x1 : (⟨S1024, .i32⟩ : BufTy).Contents (Elt Ideal)) (x2 : (⟨S65536x128, .f32⟩ : BufTy).Contents (Elt Ideal)) (x3 : (⟨S65536, .i32⟩ : BufTy).Contents (Elt Ideal)) :
    val_main_v88 (F := Ideal) x0 x1 x2 x3 = fun _ => meanOf (classLossOf (mlppR (Xr x0) (Yr x0 x2) x1 (Qr x1 x3))) := by
  funext u
  rw [val_main_v88_apply, val_main_v87_apply, val_main_cst_23_apply, val_main_cst_24_apply, sum_rows]
  simp only [val_main_v86_apply, val_main_v85_apply, val_main_cst_22_apply, mlpp_apply, Ideal.hostDivf_def,
    Ideal.mulf_def, Ideal.ofBits_def]
  rfl

end Cert.ReferenceIdeal.RV

end
-- ==== Proof.Finite.lean ====
/-
  Under the precondition every entry of the anchors and of the contrast rows is a real number: each is an entry
  of the features or of the queue, and the precondition says every such entry lies strictly inside the
  infinities.
-/
import proofs.«141703_j8598524526702_1_alg».proof.Defs
import proofs.«141703_j8598524526702_1_alg».proof.Proof.KBlocks
import proofs.«141703_j8598524526702_1_alg».proof.Proof.Gen.Pre_finite_inputs
import Idealize.ShloMosaic.Lib.ReduceAll

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx SupCon
open Idealize.ShloMosaic.Pipeline (Dat)

/-- A scalar shape has one index. -/
instance subsingleton_scalar_idx : Subsingleton (⟨0, ![]⟩ : Shape).Idx := ⟨fun a b => funext fun d => d.elim0⟩

/-- An extended real whose absolute value lies strictly below the pattern of +∞ is a real: at either infinity the
    absolute value is +∞, which is not below itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The printed test "all of |x| < +∞", read back: if the conjunction over every index is 1, every entry is a real. -/
theorem all_real_of_reduce {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ix0 = 1#1) :
    ∀ b, ∃ r : ℝ, x b = (r : EReal) := by
  intro b
  have hb1 := Host.reduce_andi_all _ _ hr hu ix0 e b
  exact real_of_abs_lt_inf (x b) hb1

/-- Every entry of a concatenation satisfies what every entry of every piece satisfies: the entry read is an entry of
    one of the pieces. -/
theorem concatenate_forall {α : Type} (P : α → Prop) {t : Shape} (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  dsimp only
  exact hP _ (List.getElem_mem _) _

variable (m : (ℓ : Loc nD τ sig) → Buf (Elt Ideal) ℓ)

variable [Cert.Pre_finite_inputs.Facts]

/-- The precondition read back: every entry of the features and every entry of the queue is a real. -/
theorem args_real (hpre : Cert.Pre_KernelIdeal m) (c : Dev nD) :
    (∀ b, ∃ r : ℝ, m ((c : Thread nD τ).loc main_arg0) b = (r : EReal))
      ∧ (∀ b, ∃ r : ℝ, m ((c : Thread nD τ).loc main_arg2) b = (r : EReal)) := by
  have h := congrFun (hpre c) ValueIdx.ix0
  dsimp only [Cert.Pre_finite_inputs.fn] at h
  obtain ⟨h0, h2⟩ := IntOp.andi_eq_one.1 h
  exact ⟨all_real_of_reduce _ _ _ _ h0, all_real_of_reduce _ _ _ _ h2⟩

theorem Xa_finite (hpre : Cert.Pre_KernelIdeal m) (c : Dev nD) : ∀ a, ∃ r : ℝ, Xa m c a = (r : EReal) := by
  intro a
  rw [Xa_eq]
  exact (args_real m hpre c).1 _

theorem Ya_finite (hpre : Cert.Pre_KernelIdeal m) (c : Dev nD) : ∀ a, ∃ r : ℝ, Ya m c a = (r : EReal) := by
  intro a
  rw [Ya_eq]
  refine concatenate_forall (fun v : EReal => ∃ r : ℝ, v = (r : EReal)) _ _ _ ?_ a
  intro p hp
  simp only [List.mem_cons, List.not_mem_nil, or_false] at hp
  rcases hp with rfl | rfl
  · intro i; exact (args_real m hpre c).1 _
  · intro i; exact (args_real m hpre c).2 _

end Cert.KernelIdeal.KV

end
-- ==== Proof.lean ====
/-
  The certificate of a queue-based supervised contrastive loss: a Pallas kernel that sweeps the 1024 × 65536
  logits tile by tile with five running sums per row, against the plain jnp loss.

  The three frames are the generated runs. The kernel's idealization names one constant, its folded reciprocal
  of the temperature, as the exact reciprocal of the reference's divisor. At the ideal values the kernel's three
  results are the means over the rows of the kernel-form losses of the anchors and contrast rows (KRun.lean), the
  reference's the means of the reference-form losses of the same arrays (RefValue.lean); under the precondition
  those arrays are entrywise real (Finite.lean), and on real arrays the two forms agree row by row
  (RowMath.lean): the reference's shift by the row maximum cancels between the logit and the log of the sum.
-/
import proofs.«141703_j8598524526702_1_alg».proof.Defs
import proofs.«141703_j8598524526702_1_alg».proof.Proof.Gen.Kernel
import proofs.«141703_j8598524526702_1_alg».proof.Proof.Gen.Kernel.Frame
import proofs.«141703_j8598524526702_1_alg».proof.Proof.Gen.KernelIdeal
import proofs.«141703_j8598524526702_1_alg».proof.Proof.Gen.KernelIdeal.Frame
import proofs.«141703_j8598524526702_1_alg».proof.Proof.Gen.ReferenceIdeal
import proofs.«141703_j8598524526702_1_alg».proof.Proof.Gen.ReferenceIdeal.Run
import proofs.«141703_j8598524526702_1_alg».proof.Proof.Gen.ReferenceIdeal.Read
import proofs.«141703_j8598524526702_1_alg».proof.Proof.Gen.Pre_finite_inputs
import proofs.«141703_j8598524526702_1_alg».proof.Proof.KRun
import proofs.«141703_j8598524526702_1_alg».proof.Proof.RefValue
import proofs.«141703_j8598524526702_1_alg».proof.Proof.Finite
import proofs.«141703_j8598524526702_1_alg».proof.Proof.RowMath
import Idealize.ShloMosaic.Adequacy
import Idealize.ShloMosaic.Init

set_option maxRecDepth 16384

noncomputable section

namespace Cert.Proof

open Idealize.ShloMosaic Idealize.ShloMosaic.TcCoe Idealize.SL.Sem SupCon
open Cert.KernelIdeal.KV Cert.ReferenceIdeal.RV

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The one rewrite of the idealization: the kernel's multiplier read as the reciprocal of the reference's divisor. -/
theorem preserves : Cert.preserves_Kernel_KernelIdeal :=
  IdealRules.named_const.statement Cert.KernelIdeal.κ "inv_temp" .f32 0x41649249#32 ((134217728 / 9395241 : ℝ) : EReal) rfl

section Agree
variable (m : (ℓ : Loc Cert.KernelIdeal.nD Cert.KernelIdeal.τ Cert.KernelIdeal.sig) → Buf (Elt Ideal) ℓ) (c : Dev Cert.KernelIdeal.nD)

/-- The reference forms its anchors, contrast rows and contrast labels from the arguments as the kernel's host lines do. -/
theorem X_agree : Xr (m ((c.tc : Thread Cert.KernelIdeal.nD Cert.KernelIdeal.τ).loc Cert.KernelIdeal.main_arg0)) = Xa m c := by
  rw [Xa_eq]; rfl
theorem Y_agree : Yr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) = Ya m c := by
  rw [Ya_eq]; rfl
theorem L_agree : (m ((c.tc : Thread Cert.KernelIdeal.nD Cert.KernelIdeal.τ).loc Cert.KernelIdeal.main_arg1) : SL.Idx → BitVec 32) = La m c := (La_eq m c).symm
theorem Q_agree : Qr (m ((c.tc : Thread Cert.KernelIdeal.nD Cert.KernelIdeal.τ).loc Cert.KernelIdeal.main_arg1)) (m ((c.tc : Thread Cert.KernelIdeal.nD Cert.KernelIdeal.τ).loc Cert.KernelIdeal.main_arg3)) = Qa m c := by
  rw [Qa_eq]; rfl
end Agree

theorem algebraic : Cert.algebraic_KernelIdeal_ReferenceIdeal := by
  intro m ρ m' ρ' hpre hagree
  refine ⟨fun c => fun _ => meanOf (lossOf (tripK (Xa m c) (Ya m c)) (mlppK (Xa m c) (Ya m c) (La m c) (Qa m c))),
    fun c => fun _ => meanOf (selfLossOf (tripK (Xa m c) (Ya m c))),
    fun c => fun _ => meanOf (classLossOf (mlppK (Xa m c) (Ya m c) (La m c) (Qa m c))), Cert.KernelIdeal.KV.run m ρ, ?_⟩
  refine (θ_run Cert.ReferenceIdeal.defs _ _).mono (fun _ h c => ?_) (Cert.ReferenceIdeal.Value.run (F := Ideal) m' ρ')
  obtain ⟨h80, h84, h88, ha0, ha1, ha2, ha3⟩ := h c
  obtain ⟨e0, e1, e2, e3⟩ := hagree c
  have hX := Xa_finite m hpre c
  have hY := Ya_finite m hpre c
  have ht : tripR (Xa m c) (Ya m c) = tripK (Xa m c) (Ya m c) := funext fun i => tripR_eq _ _ hX hY i
  have hm : mlppR (Xa m c) (Ya m c) (La m c) (Qa m c) = mlppK (Xa m c) (Ya m c) (La m c) (Qa m c) :=
    funext fun i => mlppR_eq _ _ _ _ hX hY i
  refine ⟨h80.trans ?_, h84.trans ?_, h88.trans ?_, ha0, ha1, ha2, ha3⟩
  · rw [Cert.ReferenceIdeal.Read.val_main_v80_eq, e0, e1, e2, e3, v80_eq, X_agree m c, Y_agree m c, Q_agree m c, L_agree m c, ht, hm]
    rfl
  · rw [Cert.ReferenceIdeal.Read.val_main_v84_eq, e0, e2, v84_eq, X_agree m c, Y_agree m c, ht]
    rfl
  · rw [Cert.ReferenceIdeal.Read.val_main_v88_eq, e0, e1, e2, e3, v88_eq, X_agree m c, Y_agree m c, Q_agree m c, L_agree m c, hm]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
